-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x10000x256 : Shape := ⟨3, ![2, 10000, 256]⟩
abbrev S10000x10000 : Shape := ⟨2, ![10000, 10000]⟩
abbrev S256x256 : Shape := ⟨2, ![256, 256]⟩
abbrev S256 : Shape := ⟨1, ![256]⟩
abbrev S512x40 : Shape := ⟨2, ![512, 40]⟩
abbrev S40 : Shape := ⟨1, ![40]⟩
abbrev S_ : Shape := ⟨0, ![]⟩

class Facts : Prop where
  bcast_S_S2x10000x256 : S_.BroadcastsInDim S2x10000x256 (![] : Fin 0 → Fin S2x10000x256.rank)
  reducesTo_S2x10000x256_S_d0_1_2 : S2x10000x256.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S512x40 .f32) (main_arg5 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x40 .f32 := Host.absf main_arg4
  let main_cst_6 : FVec F S_ .f32 := constant S_ .f32 0x7F800000#32
  let main_v20 : FVec F S512x40 .f32 := broadcastInDim S512x40 ![] bcast_S_S512x40 main_cst_6
  let main_v21 : IVec S512x40 1 := cmpf .olt main_v19 main_v20
  let main_c_7 : IVec S_ 1 := constantI S_ 1 1#1
  let main_v22 : IVec S_ 1 := (fun x v => Host.reduce IntOp.andi x v reducesTo_S512x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S2x10000x256 .f32) (main_arg1 : FVec F S10000x10000 .f32) (main_arg2 : FVec F S256x256 .f32) (main_arg3 : FVec F S256 .f32) (main_arg4 : FVec F S512x40 .f32) (main_arg5 : FVec F S40 .f32) : IVec S_ 1 :=
  let main_v0 : FVec F S2x10000x256 .f32 := Host.absf main_arg0
  let main_cst : FVec F S_ .f32 := constant S_ .f32 0x7F800000#32
  let main_v1 : FVec F S2x10000x256 .f32 := broadcastInDim S2x10000x256 ![] bcast_S_S2x10000x256 main_cst
  let main_v2 : IVec S2x10000x256 1 := cmpf .olt main_v0 main_v1
  let main_c : IVec S_ 1 := constantI S_ 1 1#1
  let main_v3 : IVec S_ 1 := (fun x v => Host.reduce IntOp.andi x v reducesTo_S2x10000x256_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S2x10000x256 : Shape := ⟨3, ![2, 10000, 256]⟩
abbrev S10000x10000 : Shape := ⟨2, ![10000, 10000]⟩
abbrev S256x256 : Shape := ⟨2, ![256, 256]⟩
abbrev S256 : Shape := ⟨1, ![256]⟩
abbrev S512x40 : Shape := ⟨2, ![512, 40]⟩
abbrev S40 : Shape := ⟨1, ![40]⟩
abbrev S1x256 : Shape := ⟨2, ![1, 256]⟩
abbrev S2x256 : Shape := ⟨2, ![2, 256]⟩
abbrev S512 : Shape := ⟨1, ![512]⟩
abbrev S1x512 : Shape := ⟨2, ![1, 512]⟩
abbrev S1x40 : Shape := ⟨2, ![1, 40]⟩
abbrev S10000x512 : Shape := ⟨2, ![10000, 512]⟩
abbrev S2x2000x256 : Shape := ⟨3, ![2, 2000, 256]⟩
abbrev S2000x512 : Shape := ⟨2, ![2000, 512]⟩
abbrev S1x2000x256 : Shape := ⟨3, ![1, 2000, 256]⟩
abbrev S2000x256 : Shape := ⟨2, ![2000, 256]⟩
abbrev S10000x40 : Shape := ⟨2, ![10000, 40]⟩
abbrev S200x10000 : Shape := ⟨2, ![200, 10000]⟩
abbrev S200x512 : Shape := ⟨2, ![200, 512]⟩
abbrev S200x40 : Shape := ⟨2, ![200, 40]⟩

abbrev nBuf : Space → Nat
  | .hbm => 14
  | .vmem => 22
  | .smem => 0
  | _ => 0

abbrev bufTy : (tb : Table) → Fin (tcTables nBuf tb) → BufTy
  | .hbm, ⟨0, _⟩ => ⟨S2x10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S512x40, .f32⟩
  | .hbm, ⟨5, _⟩ => ⟨S40, .f32⟩
  | .hbm, ⟨6, _⟩ => ⟨S1x256, .f32⟩
  | .hbm, ⟨7, _⟩ => ⟨S2x256, .f32⟩
  | .hbm, ⟨8, _⟩ => ⟨S512, .f32⟩
  | .hbm, ⟨9, _⟩ => ⟨S1x512, .f32⟩
  | .hbm, ⟨10, _⟩ => ⟨S1x40, .f32⟩
  | .hbm, ⟨11, _⟩ => ⟨S10000x512, .bf16⟩
  | .hbm, ⟨12, _⟩ => ⟨S10000x40, .f32⟩
  | .hbm, ⟨13, _⟩ => ⟨S10000x40, .f32⟩
  | .local _ .vmem, ⟨0, _⟩ => ⟨S2x2000x256, .f32⟩
  | .local _ .vmem, ⟨1, _⟩ => ⟨S2x2000x256, .f32⟩
  | .local _ .vmem, ⟨2, _⟩ => ⟨S256x256, .f32⟩
  | .local _ .vmem, ⟨3, _⟩ => ⟨S2000x512, .bf16⟩
  | .local _ .vmem, ⟨4, _⟩ => ⟨S2000x512, .bf16⟩
  | .local _ .vmem, ⟨5, _⟩ => ⟨S200x10000, .f32⟩
  | .local _ .vmem, ⟨6, _⟩ => ⟨S200x10000, .f32⟩
  | .local _ .vmem, ⟨7, _⟩ => ⟨S10000x512, .bf16⟩
  | .local _ .vmem, ⟨8, _⟩ => ⟨S200x512, .bf16⟩
  | .local _ .vmem, ⟨9, _⟩ => ⟨S200x512, .bf16⟩
  | .local _ .vmem, ⟨10, _⟩ => ⟨S1x512, .f32⟩
  | .local _ .vmem, ⟨11, _⟩ => ⟨S512x40, .f32⟩
  | .local _ .vmem, ⟨12, _⟩ => ⟨S200x40, .f32⟩
  | .local _ .vmem, ⟨13, _⟩ => ⟨S200x40, .f32⟩
  | .local _ .vmem, ⟨14, _⟩ => ⟨S200x10000, .f32⟩
  | .local _ .vmem, ⟨15, _⟩ => ⟨S200x10000, .f32⟩
  | .local _ .vmem, ⟨16, _⟩ => ⟨S10000x40, .f32⟩
  | .local _ .vmem, ⟨17, _⟩ => ⟨S200x40, .f32⟩
  | .local _ .vmem, ⟨18, _⟩ => ⟨S200x40, .f32⟩
  | .local _ .vmem, ⟨19, _⟩ => ⟨S1x40, .f32⟩
  | .local _ .vmem, ⟨20, _⟩ => ⟨S200x40, .f32⟩
  | .local _ .vmem, ⟨21, _⟩ => ⟨S200x40, .f32⟩
  | _, _ => ⟨S2x10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S256_S1x256 : S256.ShapeCasts S1x256
  bcast_S1x256_S2x256_0_1 : S1x256.BroadcastsInDim S2x256 (![0, 1] : Fin 2 → Fin S2x256.rank)
  shapeCasts_S2x256_S512 : S2x256.ShapeCasts S512
  shapeCasts_S512_S1x512 : S512.ShapeCasts S1x512
  shapeCasts_S40_S1x40 : S40.ShapeCasts S1x40
  inb_S2x2000x256_S1x2000x256_0_0_0 : ∀ a, (![0, 0, 0] : Fin 3 → Nat) a + S1x2000x256.size a ≤ S2x2000x256.size a
  h_S1x2000x256 : 0 < S1x2000x256.numel
  shapeCasts_S1x2000x256_S2000x256 : S1x2000x256.ShapeCasts S2000x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S2000x512_S2000x256_0_0 : ∀ a, (![0, 0] : Fin 2 → Nat) a + S2000x256.size a ≤ S2000x512.size a
  h_S2000x256 : 0 < S2000x256.numel
  packedbf16_S2000x512_S2000x256_0_0 : (Rect.unit (s := S2000x512) ![0, 0] S2000x256.size inb_S2000x512_S2000x256_0_0).PackedRows (EltTy.packing .bf16)
  inb_S2x2000x256_S1x2000x256_1_0_0 : ∀ a, (![1, 0, 0] : Fin 3 → Nat) a + S1x2000x256.size a ≤ S2x2000x256.size a
  inb_S2000x512_S2000x256_0_256 : ∀ a, (![0, 256] : Fin 2 → Nat) a + S2000x256.size a ≤ S2000x512.size a
  packedbf16_S2000x512_S2000x256_0_256 : (Rect.unit (s := S2000x512) ![0, 256] S2000x256.size inb_S2000x512_S2000x256_0_256).PackedRows (EltTy.packing .bf16)
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S200x512_S200x512_0_0 : ∀ a, (![0, 0] : Fin 2 → Nat) a + S200x512.size a ≤ S200x512.size a
  h_S200x512 : 0 < S200x512.numel
  shapeCasts_S200x512_S200x512 : S200x512.ShapeCasts S200x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S512x40_S512x40_0_0 : ∀ a, (![0, 0] : Fin 2 → Nat) a + S512x40.size a ≤ S512x40.size a
  h_S512x40 : 0 < S512x40.numel
  inb_S200x40_S200x40_0_0 : ∀ a, (![0, 0] : Fin 2 → Nat) a + S200x40.size a ≤ S200x40.size a
  h_S200x40 : 0 < S200x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  shapeCasts_S200x40_S200x40 : S200x40.ShapeCasts S200x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  dot_S2000x256_S256x256_S2000x256_1_0_0_1_n_n_wf : DotDims.WF S2000x256 S256x256 S2000x256 [1] [0] [0] [1] [] []
  dot_S200x10000_S10000x512_S200x512_1_0_0_1_n_n_wf : DotDims.WF S200x10000 S10000x512 S200x512 [1] [0] [0] [1] [] []
  dot_S200x512_S512x40_S200x40_1_0_0_1_n_n_wf : DotDims.WF S200x512 S512x40 S200x40 [1] [0] [0] [1] [] []
  dot_S200x10000_S10000x40_S200x40_1_0_0_1_n_n_wf : DotDims.WF S200x10000 S10000x40 S200x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2000x256.size a ≤ S2x10000x256.size a
  hwx0_0 : ∀ i : grid0.Coords, EltTy.bits .f32 = 32 ∨ (Rect.block (s := S2x10000x256) S2x2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x512.size a ≤ S10000x512.size a
  hwx1_2 : ∀ i : grid1.Coords, EltTy.bits .bf16 = 32 ∨ (Rect.block (s := S10000x512) S200x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x40.size a ≤ S512x40.size a
  hwx1_4 : ∀ i : grid1.Coords, EltTy.bits .f32 = 32 ∨ (Rect.block (s := S512x40) S512x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x40.size a ≤ S10000x40.size a
  hwx1_5 : ∀ i : grid1.Coords, EltTy.bits .f32 = 32 ∨ (Rect.block (s := S10000x40) S200x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S10000x40.size a
  hwx2_1 : ∀ i : grid2.Coords, EltTy.bits .f32 = 32 ∨ (Rect.block (s := S10000x40) S10000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x40.size a ≤ S10000x40.size a
  hwx2_2 : ∀ i : grid2.Coords, EltTy.bits .f32 = 32 ∨ (Rect.block (s := S10000x40) S200x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x40.size a ≤ S10000x40.size a
  hwx2_4 : ∀ i : grid2.Coords, EltTy.bits .f32 = 32 ∨ (Rect.block (s := S10000x40) S200x40.size (cc2_transform_4 i) (hinb2_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x40_S200x40_1_0_0_1_n_n : DotDims S200x512 S512x40 S200x40 where
  lhsContracting := [1]
  rhsContracting := [0]
  lhsNonContracting := [0]
  rhsNonContracting := [1]
  lhsBatch := []
  rhsBatch := []
  wf := dot_S200x512_S512x40_S200x40_1_0_0_1_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.ofSpec (Memref.whole main_arg0) S2x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S200x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S200x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S10000x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S200x40.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S200x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2x10000x256 : Shape := ⟨3, ![2, 10000, 256]⟩
abbrev S10000x10000 : Shape := ⟨2, ![10000, 10000]⟩
abbrev S256x256 : Shape := ⟨2, ![256, 256]⟩
abbrev S256 : Shape := ⟨1, ![256]⟩
abbrev S512x40 : Shape := ⟨2, ![512, 40]⟩
abbrev S40 : Shape := ⟨1, ![40]⟩
abbrev S1x10000x256 : Shape := ⟨3, ![1, 10000, 256]⟩
abbrev S10000x256 : Shape := ⟨2, ![10000, 256]⟩
abbrev S_ : Shape := ⟨0, ![]⟩
abbrev S1x256 : Shape := ⟨2, ![1, 256]⟩
abbrev S10000x512 : Shape := ⟨2, ![10000, 512]⟩
abbrev S10000x40 : Shape := ⟨2, ![10000, 40]⟩
abbrev S1x40 : Shape := ⟨2, ![1, 40]⟩

abbrev nBuf : Space → Nat
  | .hbm => 44
  | .vmem => 0
  | .smem => 0
  | _ => 0

abbrev bufTy : (tb : Table) → Fin (tcTables nBuf tb) → BufTy
  | .hbm, ⟨0, _⟩ => ⟨S2x10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S512x40, .f32⟩
  | .hbm, ⟨5, _⟩ => ⟨S40, .f32⟩
  | .hbm, ⟨6, _⟩ => ⟨S1x10000x256, .f32⟩
  | .hbm, ⟨7, _⟩ => ⟨S10000x256, .f32⟩
  | .hbm, ⟨8, _⟩ => ⟨S_, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S10000x256, .f32⟩
  | .hbm, ⟨13, _⟩ => ⟨S10000x256, .f32⟩
  | .hbm, ⟨14, _⟩ => ⟨S1x256, .f32⟩
  | .hbm, ⟨15, _⟩ => ⟨S10000x256, .f32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | .hbm, ⟨20, _⟩ => ⟨S1x10000x256, .f32⟩
  | .hbm, ⟨21, _⟩ => ⟨S10000x256, .f32⟩
  | .hbm, ⟨22, _⟩ => ⟨S_, .f32⟩
  | .hbm, ⟨23, _⟩ => ⟨S10000x256, .f32⟩
  | .hbm, ⟨24, _⟩ => ⟨S10000x256, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S1x256, .f32⟩
  | .hbm, ⟨29, _⟩ => ⟨S10000x256, .f32⟩
  | .hbm, ⟨30, _⟩ => ⟨S10000x256, .f32⟩
  | .hbm, ⟨31, _⟩ => ⟨S_, .f32⟩
  | .hbm, ⟨32, _⟩ => ⟨S10000x256, .f32⟩
  | .hbm, ⟨33, _⟩ => ⟨S10000x256, .f32⟩
  | .hbm, ⟨34, _⟩ => ⟨S10000x512, .f32⟩
  | .hbm, ⟨35, _⟩ => ⟨S_, .f32⟩
  | .hbm, ⟨36, _⟩ => ⟨S10000x512, .f32⟩
  | .hbm, ⟨37, _⟩ => ⟨S10000x512, .f32⟩
  | .hbm, ⟨38, _⟩ => ⟨S10000x512, .f32⟩
  | .hbm, ⟨39, _⟩ => ⟨S10000x512, .f32⟩
  | .hbm, ⟨40, _⟩ => ⟨S10000x40, .f32⟩
  | .hbm, ⟨41, _⟩ => ⟨S1x40, .f32⟩
  | .hbm, ⟨42, _⟩ => ⟨S10000x40, .f32⟩
  | .hbm, ⟨43, _⟩ => ⟨S10000x40, .f32⟩
  | _, _ => ⟨S2x10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x10000x256_S1x10000x256_0_0_0 : S2x10000x256.Slices ![0, 0, 0] S1x10000x256
  shapeCasts_S1x10000x256_S10000x256 : S1x10000x256.ShapeCasts S10000x256
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  slices_S2x10000x256_S1x10000x256_1_0_0 : S2x10000x256.Slices ![1, 0, 0] S1x10000x256
  concatenates_S10000x256_S10000x256_S10000x512_d1 : Shape.Concatenates [S10000x256, S10000x256] S10000x512 1
  bcast_S_S10000x512 : S_.BroadcastsInDim S10000x512 (![] : Fin 0 → Fin S10000x512.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []
  dot_S10000x10000_S10000x512_S10000x512_1_0_0_1_n_n_wf : DotDims.WF S10000x10000 S10000x512 S10000x512 [1] [0] [0] [1] [] []
  dot_S10000x512_S512x40_S10000x40_1_0_0_1_n_n_wf : DotDims.WF S10000x512 S512x40 S10000x40 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x40_S10000x40_1_0_0_1_n_n : DotDims S10000x512 S512x40 S10000x40 where
  lhsContracting := [1]
  rhsContracting := [0]
  lhsNonContracting := [0]
  rhsNonContracting := [1]
  lhsBatch := []
  rhsBatch := []
  wf := dot_S10000x512_S512x40_S10000x40_1_0_0_1_n_n_wf

class Facts : Prop extends Facts₀ where

variable [Facts]
-- ==== Proof.K.Body0.lean ====
/-
  The first pallas_call: both stacked inputs times the first weight, written side by side into one bf16 array of
  width 512, five row blocks of 2000. Stated over the core's buffer contents `V` at the call's entry: what a grid
  point finds in its three staging buffers, what the body leaves in the output's buffer (two stores, the left and the
  right half, which together tile it), the body's triple, and the pipeline's proof data.
-/
import proofs.«111276_g21131239096597_cont_8to1_6_3_alg».proof.Proof.Gen.Kernel.Launch
import proofs.«111276_g21131239096597_cont_8to1_6_3_alg».proof.Proof.Gen.Kernel.Skeleton
import proofs.«111276_g21131239096597_cont_8to1_6_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## What a grid point finds -/

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The stacked inputs' staging buffer holds the point's row block (it is fetched at every point). -/
theorem found0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: fetched once, its block index never moves. -/
theorem found0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Input 0's and input 1's planes of the stacked block. -/
abbrev r0_x0 : Rect S2x2000x256 := Rect.unit (s := S2x2000x256) ![0, 0, 0] S1x2000x256.size inb_S2x2000x256_S1x2000x256_0_0_0
abbrev r0_x1 : Rect S2x2000x256 := Rect.unit (s := S2x2000x256) ![1, 0, 0] S1x2000x256.size inb_S2x2000x256_S1x2000x256_1_0_0
/-- The whole weight. -/
abbrev r0_w : Rect S256x256 := Rect.unit (s := S256x256) ![0, 0] S256x256.size inb_S256x256_S256x256_0_0
/-- The output block's left and right halves (columns 0–255 and 256–511). -/
abbrev r0_lo : Rect S2000x512 := Rect.unit (s := S2000x512) ![0, 0] S2000x256.size inb_S2000x512_S2000x256_0_0
abbrev r0_hi : Rect S2000x512 := Rect.unit (s := S2000x512) ![0, 256] S2000x256.size inb_S2000x512_S2000x256_0_256

/-! ## What the body leaves in the output's buffer -/

/-- The output's staging buffer after the body, from the two input blocks: its two stores as pieces, the later first. -/
def out0_2 (x0 : Vec F S2x2000x256 .f32) (x1 : Vec F S256x256 .f32) : Vec F S2000x512 .bf16 :=
  View.canon [⟨r0_hi, k0_pay2 (View.ld x0 r0_x1) (View.ld x1 r0_w)⟩, ⟨r0_lo, k0_pay1 (View.ld x0 r0_x0) (View.ld x1 r0_w)⟩]

/-- The two halves tile the block, so every entry lies in one of them. -/
theorem cover0_2 (p0 p1 : Vec F S2000x256 .bf16) (y : S2000x512.Idx) :
    ∃ pc ∈ ([⟨r0_hi, p1⟩, ⟨r0_lo, p0⟩] : List (View.Piece (Elt F) S2000x512 .bf16)), y ∈ pc.1.set :=
  View.cover_of_tiled [⟨r0_hi, p1⟩, ⟨r0_lo, p0⟩] S2000x256.size (by rfl) y

/-! ## The body's triple -/

set_option maxHeartbeats 1000000 in
/-- The body on whole staging memrefs — the inputs' at contents `x0`, `x1`, the output's at anything — runs to the
    continuation with the inputs' as they were and the output's at `out0_2 x0 x1`. -/
theorem sound_kernel0 (c : Dev nD) (E : Set ℕ) (i : grid0.Coords) (arg1 : Memref sig .tc .vmem S2x2000x256 .f32) (harg1 : arg1.IsWhole)
    (arg2 : Memref sig .tc .vmem S256x256 .f32) (harg2 : arg2.IsWhole) (arg3 : Memref sig .tc .vmem S2000x512 .bf16) (harg3 : arg3.IsWhole)
    (x0 : Vec F S2x2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__v_body i arg1 harg1 arg2 harg2 arg3 harg3) K := by
  simp only [cc0__v_body_eq_skeleton]; unfold cc0__v_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The first call's proof data on core `c`: the arrays as the call finds them; after the body at point `t` each
    input's buffer at its block and the output's at `out0_2` of the two input blocks; nothing of the core's other
    state touched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  found0_0 V (dat0 V c) (A_eq0 V c 0) (after0_0 V c) t d
theorem before0_1 (c : Dev nD) (t : Fin cfg0.N) (d) : (dat0 V c).before 1 t d = iblk0 V c 1 t :=
  found0_1 V (dat0 V c) (A_eq0 V c 1) (after0_1 V c) t d

/-! ## The body obligation at a grid point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The second pallas_call: per row block of 200 rows, aggregate the whole first-pass array through the block's rows of
  the incidence matrix, add the block's own rows and the tiled bias, clamp at zero, and project by the second weight.
  The first-pass array enters twice, once whole and once by row blocks; the core's share of it is split between the
  two windows. Stated over the core's buffer contents `V` at the call's entry.
-/
import proofs.«111276_g21131239096597_cont_8to1_6_3_alg».proof.Proof.Gen.Kernel.Launch
import proofs.«111276_g21131239096597_cont_8to1_6_3_alg».proof.Proof.Gen.Kernel.Skeleton
import proofs.«111276_g21131239096597_cont_8to1_6_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## What a grid point finds -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or at an earlier point whose block
    index is the same (the whole first-pass array, the bias and the weight are fetched once; the incidence rows and the
    first-pass rows at every point). -/
theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_0 : Rect S200x10000 := Rect.unit (s := S200x10000) ![0, 0] S200x10000.size inb_S200x10000_S200x10000_0_0
abbrev r1_1 : Rect S10000x512 := Rect.unit (s := S10000x512) ![0, 0] S10000x512.size inb_S10000x512_S10000x512_0_0
abbrev r1_2 : Rect S200x512 := Rect.unit (s := S200x512) ![0, 0] S200x512.size inb_S200x512_S200x512_0_0
abbrev r1_3 : Rect S1x512 := Rect.unit (s := S1x512) ![0, 0] S1x512.size inb_S1x512_S1x512_0_0
abbrev r1_4 : Rect S512x40 := Rect.unit (s := S512x40) ![0, 0] S512x40.size inb_S512x40_S512x40_0_0
abbrev r1_5 : Rect S200x40 := Rect.unit (s := S200x40) ![0, 0] S200x40.size inb_S200x40_S200x40_0_0

/-! ## What the body leaves in the output's buffer -/

/-- The output's staging buffer after the body, from the five input blocks: its one store. -/
def out1_5 (x0 : Vec F S200x10000 .f32) (x1 : Vec F S10000x512 .bf16) (x2 : Vec F S200x512 .bf16) (x3 : Vec F S1x512 .f32)
    (x4 : Vec F S512x40 .f32) : Vec F S200x40 .f32 :=
  View.canon [⟨r1_5, k1_pay1 (View.ld x0 r1_0) (View.ld x1 r1_1) (View.ld x2 r1_2) (View.ld x3 r1_3) (View.ld x4 r1_4)⟩]

theorem cover1_5 (p0 : Vec F S200x40 .f32) (y : S200x40.Idx) :
    ∃ pc ∈ ([⟨r1_5, p0⟩] : List (View.Piece (Elt F) S200x40 .f32)), y ∈ pc.1.set :=
  View.cover_of_tiled [⟨r1_5, p0⟩] S200x40.size (by rfl) y

/-! ## The body's triple -/

set_option maxHeartbeats 1000000 in
/-- The body on whole staging memrefs — the five inputs' at contents `x0 … x4`, the output's at anything — runs to the
    continuation with the inputs' as they were and the output's at `out1_5 x0 … x4`. -/
theorem sound_kernel1 (c : Dev nD) (E : Set ℕ) (i : grid1.Coords) (arg1 : Memref sig .tc .vmem S200x10000 .f32) (harg1 : arg1.IsWhole)
    (arg2 : Memref sig .tc .vmem S10000x512 .bf16) (harg2 : arg2.IsWhole) (arg3 : Memref sig .tc .vmem S200x512 .bf16) (harg3 : arg3.IsWhole)
    (arg4 : Memref sig .tc .vmem S1x512 .f32) (harg4 : arg4.IsWhole) (arg5 : Memref sig .tc .vmem S512x40 .f32) (harg5 : arg5.IsWhole)
    (arg6 : Memref sig .tc .vmem S200x40 .f32) (harg6 : arg6.IsWhole)
    (x0 : Vec F S200x10000 .f32) (x1 : Vec F S10000x512 .bf16) (x2 : Vec F S200x512 .bf16) (x3 : Vec F S1x512 .f32) (x4 : Vec F S512x40 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__uni_body i arg1 harg1 arg2 harg2 arg3 harg3 arg4 harg4 arg5 harg5 arg6 harg6) K := by
  simp only [cc1__uni_body_eq_skeleton]; unfold cc1__uni_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- How the core's hold of each input array is dealt among the windows: the first-pass array is read by two windows,
    each at half of the full share; every other input by one window at the full share. -/
def q1 : Fin cfg1.W → PosShare TreeShare
  | ⟨1, _⟩ => fullShare.left
  | ⟨2, _⟩ => fullShare.right
  | _ => fullShare

/-- The second call's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  found1_0 V (dat1 V c) (A_eq1 V c 0) (after1_0 V c) t d
theorem before1_1 (c : Dev nD) (t : Fin cfg1.N) (d) : (dat1 V c).before 1 t d = iblk1 V c 1 t :=
  found1_1 V (dat1 V c) (A_eq1 V c 1) (after1_1 V c) t d
theorem before1_2 (c : Dev nD) (t : Fin cfg1.N) (d) : (dat1 V c).before 2 t d = iblk1 V c 2 t :=
  found1_2 V (dat1 V c) (A_eq1 V c 2) (after1_2 V c) t d
theorem before1_3 (c : Dev nD) (t : Fin cfg1.N) (d) : (dat1 V c).before 3 t d = iblk1 V c 3 t :=
  found1_3 V (dat1 V c) (A_eq1 V c 3) (after1_3 V c) t d
theorem before1_4 (c : Dev nD) (t : Fin cfg1.N) (d) : (dat1 V c).before 4 t d = iblk1 V c 4 t :=
  found1_4 V (dat1 V c) (A_eq1 V c 4) (after1_4 V c) t d

/-! ## The body obligation at a grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  The third pallas_call: per row block of 200 rows, aggregate the whole projected array through the block's rows of the
  incidence matrix, add the block's own rows and the second bias. The projected array enters twice, once whole and once
  by row blocks; the core's share of it is split between the two windows. Stated over the core's buffer contents `V`
  at the call's entry.
-/
import proofs.«111276_g21131239096597_cont_8to1_6_3_alg».proof.Proof.Gen.Kernel.Launch
import proofs.«111276_g21131239096597_cont_8to1_6_3_alg».proof.Proof.Gen.Kernel.Skeleton
import proofs.«111276_g21131239096597_cont_8to1_6_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## What a grid point finds -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block at every point, fetched there or at an earlier point whose block
    index is the same (the whole projected array and the bias are fetched once; the incidence rows and the projected
    rows at every point). -/
theorem found2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole staging buffer -/

abbrev r2_0 : Rect S200x10000 := Rect.unit (s := S200x10000) ![0, 0] S200x10000.size inb_S200x10000_S200x10000_0_0
abbrev r2_1 : Rect S10000x40 := Rect.unit (s := S10000x40) ![0, 0] S10000x40.size inb_S10000x40_S10000x40_0_0
abbrev r2_2 : Rect S200x40 := Rect.unit (s := S200x40) ![0, 0] S200x40.size inb_S200x40_S200x40_0_0
abbrev r2_3 : Rect S1x40 := Rect.unit (s := S1x40) ![0, 0] S1x40.size inb_S1x40_S1x40_0_0

/-! ## What the body leaves in the output's buffer -/

/-- The output's staging buffer after the body, from the four input blocks: its one store. -/
def out2_4 (x0 : Vec F S200x10000 .f32) (x1 : Vec F S10000x40 .f32) (x2 : Vec F S200x40 .f32) (x3 : Vec F S1x40 .f32) : Vec F S200x40 .f32 :=
  View.canon [⟨r2_2, k2_pay1 (View.ld x0 r2_0) (View.ld x1 r2_1) (View.ld x2 r2_2) (View.ld x3 r2_3)⟩]

theorem cover2_4 (p0 : Vec F S200x40 .f32) (y : S200x40.Idx) :
    ∃ pc ∈ ([⟨r2_2, p0⟩] : List (View.Piece (Elt F) S200x40 .f32)), y ∈ pc.1.set :=
  View.cover_of_tiled [⟨r2_2, p0⟩] S200x40.size (by rfl) y

/-! ## The body's triple -/

set_option maxHeartbeats 1000000 in
/-- The body on whole staging memrefs — the four inputs' at contents `x0 … x3`, the output's at anything — runs to the
    continuation with the inputs' as they were and the output's at `out2_4 x0 … x3`. -/
theorem sound_kernel2 (c : Dev nD) (E : Set ℕ) (i : grid2.Coords) (arg1 : Memref sig .tc .vmem S200x10000 .f32) (harg1 : arg1.IsWhole)
    (arg2 : Memref sig .tc .vmem S10000x40 .f32) (harg2 : arg2.IsWhole) (arg3 : Memref sig .tc .vmem S200x40 .f32) (harg3 : arg3.IsWhole)
    (arg4 : Memref sig .tc .vmem S1x40 .f32) (harg4 : arg4.IsWhole) (arg5 : Memref sig .tc .vmem S200x40 .f32) (harg5 : arg5.IsWhole)
    (x0 : Vec F S200x10000 .f32) (x1 : Vec F S10000x40 .f32) (x2 : Vec F S200x40 .f32) (x3 : Vec F S1x40 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__out_body i arg1 harg1 arg2 harg2 arg3 harg3 arg4 harg4 arg5 harg5) K := by
  simp only [cc2__out_body_eq_skeleton]; unfold cc2__out_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- How the core's hold of each input array is dealt among the windows: the projected array is read by two windows,
    each at half of the full share; every other input by one window at the full share. -/
def q2 : Fin cfg2.W → PosShare TreeShare
  | ⟨1, _⟩ => fullShare.left
  | ⟨2, _⟩ => fullShare.right
  | _ => fullShare

/-- The third call's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  found2_0 V (dat2 V c) (A_eq2 V c 0) (after2_0 V c) t d
theorem before2_1 (c : Dev nD) (t : Fin cfg2.N) (d) : (dat2 V c).before 1 t d = iblk2 V c 1 t :=
  found2_1 V (dat2 V c) (A_eq2 V c 1) (after2_1 V c) t d
theorem before2_2 (c : Dev nD) (t : Fin cfg2.N) (d) : (dat2 V c).before 2 t d = iblk2 V c 2 t :=
  found2_2 V (dat2 V c) (A_eq2 V c 2) (after2_2 V c) t d
theorem before2_3 (c : Dev nD) (t : Fin cfg2.N) (d) : (dat2 V c).before 3 t d = iblk2 V c 3 t :=
  found2_3 V (dat2 V c) (A_eq2 V c 3) (after2_3 V c) t d

/-! ## The body obligation at a grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Share.lean ====
/-
  Two windows on one array. The second call reads the first-pass array through two windows and the third call reads the
  projected array through two windows; the pipeline holds each window's array at that window's share, so the core's
  full hold of such an array is dealt out as two halves at the call's entry and joined again at its exit. For each of
  the two calls: its windows' arrays at contents read off a valuation `V'` are exactly the distinct buffers behind them,
  each held whole at `V'`.
-/
import proofs.«111276_g21131239096597_cont_8to1_6_3_alg».proof.Proof.Gen.Kernel.Launch
import proofs.«111276_g21131239096597_cont_8to1_6_3_alg».proof.Proof.Gen.Kernel.Skeleton
import proofs.«111276_g21131239096597_cont_8to1_6_3_alg».proof.Proof.Gen.Kernel.Points
import proofs.«111276_g21131239096597_cont_8to1_6_3_alg».proof.Proof.K.Body1
import proofs.«111276_g21131239096597_cont_8to1_6_3_alg».proof.Proof.K.Body2
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq bigSepL_cons_cons bigSepL_singleton)

-- the contents a call was entered at (they do not matter here: only the shares do) and the contents read
variable (V : (c : Dev nD) → (b : Ref sig .tc) → Buf (Elt F) ((c : Thread nD τ).loc b))

/-- The five distinct buffers behind the second call's six windows. -/
theorem arrRefs1 : Finset.univ.image (Pipeline.arrRef spec1) = ([main_arg1, main_v5, main_v3, main_arg4, main_v6] : List (Ref sig .tc)).toFinset := by
  decide

/-- The four distinct buffers behind the third call's five windows. -/
theorem arrRefs2 : Finset.univ.image (Pipeline.arrRef spec2) = ([main_arg1, main_v6, main_v4, main_v7] : List (Ref sig .tc)).toFinset := by
  decide

theorem arrays_V1 (c : Dev nD) (V' : (b : Ref sig .tc) → Buf (Elt F) ((c : Thread nD τ).loc b)) :
    ((dat1 V c).arrays (fun w => V' (Pipeline.arrRef spec1 w)) : sProp 𝕄) ⊣⊢ Pipeline.arrBufs spec1 c V' := by
  have hb : (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v5) ↦{fullShare} V' main_v5)
        ∗ (((c : Thread nD τ).loc main_v3) ↦{fullShare} V' main_v3) ∗ (((c : Thread nD τ).loc main_arg4) ↦{fullShare} V' main_arg4)
        ∗ (((c : Thread nD τ).loc main_v6) ↦{fullShare} V' main_v6)) := by
    unfold Pipeline.arrBufs; exact bigSep_eq_bigSepL_of_eq _ arrRefs1 (by decide) _
  rw [hb]
  unfold Dat.arrays
  rw [bigSep_W1]
  rw [(arr_whole1 0).set_eq_univ, (arr_whole1 1).set_eq_univ, (arr_whole1 3).set_eq_univ,
    (arr_whole1 4).set_eq_univ, (arr_whole1 5).set_eq_univ]
  rw [show (dat1 V c).share 0 = fullShare from rfl, show (dat1 V c).share 1 = fullShare.left from rfl,
    show (dat1 V c).share 2 = fullShare.right from rfl, show (dat1 V c).share 3 = fullShare from rfl,
    show (dat1 V c).share 4 = fullShare from rfl, show (dat1 V c).share 5 = fullShare from rfl]
  constructor
  · iintro ⟨H0, H1, H2, H3, H4, H5⟩
    isplitl [H0]; · iexact H0
    isplitl [H1 H2]
    · iapply (pointsTo_share (PosShare.mem_left_op_right fullShare)).2
      isplitl [H1]; · iexact H1
      iexact H2
    isplitl [H3]; · iexact H3
    isplitl [H4]; · iexact H4
    iexact H5
  · iintro ⟨H0, H12, H3, H4, H5⟩
    ihave H12 := (pointsTo_share (PosShare.mem_left_op_right fullShare)).1 $$ H12
    icases H12 with ⟨H1, H2⟩
    isplitl [H0]; · iexact H0
    isplitl [H1]; · iexact H1
    isplitl [H2]; · iexact H2
    isplitl [H3]; · iexact H3
    isplitl [H4]; · iexact H4
    iexact H5

theorem arrays_V2 (c : Dev nD) (V' : (b : Ref sig .tc) → Buf (Elt F) ((c : Thread nD τ).loc b)) :
    ((dat2 V c).arrays (fun w => V' (Pipeline.arrRef spec2 w)) : sProp 𝕄) ⊣⊢ Pipeline.arrBufs spec2 c V' := by
  have hb : (Pipeline.arrBufs (Ix := Unit) (Name := ℕ) (U := UR sig nD τ) (Lvl := ℕ) spec2 c V' : sProp 𝕄)
      = iprop((((c : Thread nD τ).loc main_arg1) ↦{fullShare} V' main_arg1) ∗ (((c : Thread nD τ).loc main_v6) ↦{fullShare} V' main_v6)
        ∗ (((c : Thread nD τ).loc main_v4) ↦{fullShare} V' main_v4) ∗ (((c : Thread nD τ).loc main_v7) ↦{fullShare} V' main_v7)) := by
    unfold Pipeline.arrBufs; exact bigSep_eq_bigSepL_of_eq _ arrRefs2 (by decide) _
  rw [hb]
  unfold Dat.arrays
  rw [bigSep_W2]
  rw [(arr_whole2 0).set_eq_univ, (arr_whole2 1).set_eq_univ, (arr_whole2 3).set_eq_univ,
    (arr_whole2 4).set_eq_univ]
  rw [show (dat2 V c).share 0 = fullShare from rfl, show (dat2 V c).share 1 = fullShare.left from rfl,
    show (dat2 V c).share 2 = fullShare.right from rfl, show (dat2 V c).share 3 = fullShare from rfl,
    show (dat2 V c).share 4 = fullShare from rfl]
  constructor
  · iintro ⟨H0, H1, H2, H3, H4⟩
    isplitl [H0]; · iexact H0
    isplitl [H1 H2]
    · iapply (pointsTo_share (PosShare.mem_left_op_right fullShare)).2
      isplitl [H1]; · iexact H1
      iexact H2
    isplitl [H3]; · iexact H3
    iexact H4
  · iintro ⟨H0, H12, H3, H4⟩
    ihave H12 := (pointsTo_share (PosShare.mem_left_op_right fullShare)).1 $$ H12
    icases H12 with ⟨H1, H2⟩
    isplitl [H0]; · iexact H0
    isplitl [H1]; · iexact H1
    isplitl [H2]; · iexact H2
    isplitl [H3]; · iexact H3
    iexact H4

end Cert.Kernel.Hand

end
-- ==== Proof.K.Run.lean ====
/-
  The whole program as a run: the host stretch, then the three pallas_calls in order, each entered from the buffer
  contents the item before it left. The contents are named call by call — a call changes only its result array, which
  ends at what the pipeline's write-backs leave — and the run ends with every buffer of the core at the last of them.
  From that one statement both the frame (no argument is ever written) and the result's value are read off.
-/
import proofs.«111276_g21131239096597_cont_8to1_6_3_alg».proof.Proof.Gen.Kernel.Launch
import proofs.«111276_g21131239096597_cont_8to1_6_3_alg».proof.Proof.Gen.Kernel.Skeleton
import proofs.«111276_g21131239096597_cont_8to1_6_3_alg».proof.Proof.Gen.Kernel.Points
import proofs.«111276_g21131239096597_cont_8to1_6_3_alg».proof.Proof.Gen.Kernel.Regions
import proofs.«111276_g21131239096597_cont_8to1_6_3_alg».proof.Proof.K.Body0
import proofs.«111276_g21131239096597_cont_8to1_6_3_alg».proof.Proof.K.Share
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (HostSeg RegionSeg Seg)

variable (m : (ℓ : Loc nD τ sig) → Buf (Elt F) ℓ) (ρ : Dev nD → PrngReg)

/-! ## The buffer contents between items -/

/-- After the host stretch: what the first call is entered at. -/
abbrev E1 : (c : Dev nD) → (b : Ref sig .tc) → Buf (Elt F) ((c : Thread nD τ).loc b) := fun c b => Gen.V1 m c b
/-- The first call's result array after its last write-back. -/
def X5 (c : Dev nD) : Buf (Elt F) ((c : Thread nD τ).loc main_v5) := (dat0 (E1 m) c).arrAt 2 cfg0.N
/-- After the first call: only its result array has changed. -/
def E2 : (c : Dev nD) → (b : Ref sig .tc) → Buf (Elt F) ((c : Thread nD τ).loc b) := fun c => Function.update (E1 m c) main_v5 (X5 m c)
/-- The second call's result array after its last write-back. -/
def X6 (c : Dev nD) : Buf (Elt F) ((c : Thread nD τ).loc main_v6) := (dat1 (E2 m) c).arrAt 5 cfg1.N
def E3 : (c : Dev nD) → (b : Ref sig .tc) → Buf (Elt F) ((c : Thread nD τ).loc b) := fun c => Function.update (E2 m c) main_v6 (X6 m c)
/-- The third call's result array after its last write-back: the program's result. -/
def X7 (c : Dev nD) : Buf (Elt F) ((c : Thread nD τ).loc main_v7) := (dat2 (E3 m) c).arrAt 4 cfg2.N
def E4 : (c : Dev nD) → (b : Ref sig .tc) → Buf (Elt F) ((c : Thread nD τ).loc b) := fun c => Function.update (E3 m c) main_v7 (X7 m c)

theorem E2_v5 (c : Dev nD) : E2 m c main_v5 = X5 m c := by unfold E2; exact Function.update_self ..
theorem E2_of_ne (c : Dev nD) (b : Ref sig .tc) (h : b ≠ main_v5) : E2 m c b = E1 m c b := by unfold E2; exact Function.update_of_ne h ..
theorem E3_v6 (c : Dev nD) : E3 m c main_v6 = X6 m c := by unfold E3; exact Function.update_self ..
theorem E3_of_ne (c : Dev nD) (b : Ref sig .tc) (h : b ≠ main_v6) : E3 m c b = E2 m c b := by unfold E3; exact Function.update_of_ne h ..
theorem E4_v7 (c : Dev nD) : E4 m c main_v7 = X7 m c := by unfold E4; exact Function.update_self ..
theorem E4_of_ne (c : Dev nD) (b : Ref sig .tc) (h : b ≠ main_v7) : E4 m c b = E3 m c b := by unfold E4; exact Function.update_of_ne h ..

/-! ## The proof data of all three calls, and what rides along -/

def pdats : (p : Fin 3) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
  | ⟨2, _⟩ => fun c => dat2 (E3 m) c

abbrev 𝒱₀ : Variants := Variants.none
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)

/-! ## Each call's arrays at its exit are the next contents; everything else is as entered -/

theorem exit0_arr (c : Dev nD) (w : Fin cfg0.W) : (pdats m 0 c).arrAt w cfg0.N = E2 m c (Pipeline.arrRef spec0 w) := by
  match w with
  | ⟨0, _⟩ => exact ((dat0 (E1 m) c).arrAt_in 0 rfl _).trans (E2_of_ne m c main_arg0 (by decide)).symm
  | ⟨1, _⟩ => exact ((dat0 (E1 m) c).arrAt_in 1 rfl _).trans (E2_of_ne m c main_arg2 (by decide)).symm
  | ⟨2, _⟩ => exact (E2_v5 m c).symm
theorem exit0_rest (c : Dev nD) : ∀ b, b ∉ Finset.univ.image (Pipeline.arrRef spec0) → E2 m c b = E1 m c b :=
  fun b hb => E2_of_ne m c b fun e => hb (Finset.mem_image.mpr ⟨2, Finset.mem_univ _, e.symm⟩)

theorem exit1_arr (c : Dev nD) : (fun w => (pdats m 1 c).arrAt w cfg1.N) = fun w => E3 m c (Pipeline.arrRef spec1 w) := by
  funext w
  match w with
  | ⟨0, _⟩ => exact ((dat1 (E2 m) c).arrAt_in 0 rfl _).trans (E3_of_ne m c main_arg1 (by decide)).symm
  | ⟨1, _⟩ => exact ((dat1 (E2 m) c).arrAt_in 1 rfl _).trans (E3_of_ne m c main_v5 (by decide)).symm
  | ⟨2, _⟩ => exact ((dat1 (E2 m) c).arrAt_in 2 rfl _).trans (E3_of_ne m c main_v5 (by decide)).symm
  | ⟨3, _⟩ => exact ((dat1 (E2 m) c).arrAt_in 3 rfl _).trans (E3_of_ne m c main_v3 (by decide)).symm
  | ⟨4, _⟩ => exact ((dat1 (E2 m) c).arrAt_in 4 rfl _).trans (E3_of_ne m c main_arg4 (by decide)).symm
  | ⟨5, _⟩ => exact (E3_v6 m c).symm
theorem exit1_rest (c : Dev nD) : ∀ b, b ∉ Finset.univ.image (Pipeline.arrRef spec1) → E3 m c b = E2 m c b :=
  fun b hb => E3_of_ne m c b fun e => hb (Finset.mem_image.mpr ⟨5, Finset.mem_univ _, e.symm⟩)

theorem exit2_arr (c : Dev nD) : (fun w => (pdats m 2 c).arrAt w cfg2.N) = fun w => E4 m c (Pipeline.arrRef spec2 w) := by
  funext w
  match w with
  | ⟨0, _⟩ => exact ((dat2 (E3 m) c).arrAt_in 0 rfl _).trans (E4_of_ne m c main_arg1 (by decide)).symm
  | ⟨1, _⟩ => exact ((dat2 (E3 m) c).arrAt_in 1 rfl _).trans (E4_of_ne m c main_v6 (by decide)).symm
  | ⟨2, _⟩ => exact ((dat2 (E3 m) c).arrAt_in 2 rfl _).trans (E4_of_ne m c main_v6 (by decide)).symm
  | ⟨3, _⟩ => exact ((dat2 (E3 m) c).arrAt_in 3 rfl _).trans (E4_of_ne m c main_v4 (by decide)).symm
  | ⟨4, _⟩ => exact (E4_v7 m c).symm
theorem exit2_rest (c : Dev nD) : ∀ b, b ∉ Finset.univ.image (Pipeline.arrRef spec2) → E4 m c b = E3 m c b :=
  fun b hb => E4_of_ne m c b fun e => hb (Finset.mem_image.mpr ⟨4, Finset.mem_univ _, e.symm⟩)

/-- A call whose windows may share arrays: its arrays at contents read off `V'` and the rest of the core's unscoped
    buffers at `V`, which agrees with `V'` off the arrays, are the core's unscoped buffers at `V'`. -/
theorem unscopedRest_congr {gr W : Nat} (win : Fin W → Pipeline.WinSpec sig gr) (c : Dev nD)
    (V V' : (b : Ref sig .tc) → Buf (Elt F) ((c : Thread nD τ).loc b))
    (hrest : ∀ b, b ∉ Finset.univ.image (Pipeline.arrRef win) → V' b = V b) :
    (Pipeline.unscopedRest (Ix := Unit) (Name := ℕ) (U := UR sig nD τ) (Lvl := ℕ) win c V : sProp 𝕄) = Pipeline.unscopedRest win c V' := by
  unfold Pipeline.unscopedRest
  exact bigSep_congr fun b hb => by rw [hrest b (Finset.mem_sdiff.mp hb).2]

/-! ## The calls as segments -/

set_option backward.isDefEq.respectTransparency.types false in
/-- The first call over the thread state: entered from what the host stretch left, its three distinct arrays split out
    of the core's unscoped buffers and put back at the exit contents. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(unscopedBufs c (E2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state "every unscoped buffer of the core at the current contents, the generator
    register at some state, nothing owed": at its entry the buffers behind its windows are dealt out as the windows'
    arrays (two windows on one array take half of it each), at its exit they are joined again, the result array now at
    what the write-backs left. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(unscopedBufs c (E2 m c) ∗ R c)
  post c := iprop(unscopedBufs c (E3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄) = iprop(Pipeline.arrBufs spec1 c (E2 m c) ∗ Pipeline.unscopedRest spec1 c (E2 m c)) :=
      Pipeline.unscopedBufs_split₀ cfgs 1 winFacts₀1.arr_unscoped c (E2 m c)
    have harr : (Pipeline.arrBufs spec1 c (E2 m c) : sProp 𝕄) ⊢ (pdats m 1 c).arrays ((pdats m 1 c).arrAt · 0) :=
      (arrays_V1 (E2 m) c (E2 m c)).2
    iintro ⟨⟨Hub, Hp, HO⟩, -, -⟩
    ihave H := (Entails.of_eq hsplit) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit : (unscopedBufs c (E3 m c) : sProp 𝕄) = iprop(Pipeline.arrBufs spec1 c (E3 m c) ∗ Pipeline.unscopedRest spec1 c (E3 m c)) :=
      Pipeline.unscopedBufs_split₀ cfgs 1 winFacts₀1.arr_unscoped c (E3 m c)
    have harr : ((pdats m 1 c).arrays ((pdats m 1 c).arrAt · cfg1.N) : sProp 𝕄) ⊢ Pipeline.arrBufs spec1 c (E3 m c) := by
      rw [exit1_arr m c]; exact (arrays_V1 (E2 m) c (E3 m c)).1
    have hrest := unscopedRest_congr spec1 c (E2 m c) (E3 m c) (exit1_rest m c)
    iintro ⟨Ha, HO, HY, Hrest⟩
    ihave Hb := harr $$ Ha
    ihave Hrest := (Entails.of_eq hrest) $$ Hrest
    imodintro
    isplitl [Hb Hrest]
    · iapply (Entails.of_eq hsplit.symm); isplitl [Hb]; · iexact Hb
      iexact Hrest
    isplitl [HY]; · iexact HY
    unfold Pipeline.Dat.owesAt Pipeline.owesWithin
    icases HO with ⟨%W, -, HO⟩; iexists W; iexact HO

set_option backward.isDefEq.respectTransparency.types false in
/-- The third call over the thread state "every unscoped buffer of the core at the current contents, the generator
    register at some state, nothing owed": at its entry the buffers behind its windows are dealt out as the windows'
    arrays (two windows on one array take half of it each), at its exit they are joined again, the result array now at
    what the write-backs left. -/
def reg2 : RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(unscopedBufs c (E3 m c) ∗ R c)
  post c := iprop(unscopedBufs c (E4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit : (unscopedBufs c (E3 m c) : sProp 𝕄) = iprop(Pipeline.arrBufs spec2 c (E3 m c) ∗ Pipeline.unscopedRest spec2 c (E3 m c)) :=
      Pipeline.unscopedBufs_split₀ cfgs 2 winFacts₀2.arr_unscoped c (E3 m c)
    have harr : (Pipeline.arrBufs spec2 c (E3 m c) : sProp 𝕄) ⊢ (pdats m 2 c).arrays ((pdats m 2 c).arrAt · 0) :=
      (arrays_V2 (E3 m) c (E3 m c)).2
    iintro ⟨⟨Hub, Hp, HO⟩, -, -⟩
    ihave H := (Entails.of_eq hsplit) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hsplit : (unscopedBufs c (E4 m c) : sProp 𝕄) = iprop(Pipeline.arrBufs spec2 c (E4 m c) ∗ Pipeline.unscopedRest spec2 c (E4 m c)) :=
      Pipeline.unscopedBufs_split₀ cfgs 2 winFacts₀2.arr_unscoped c (E4 m c)
    have harr : ((pdats m 2 c).arrays ((pdats m 2 c).arrAt · cfg2.N) : sProp 𝕄) ⊢ Pipeline.arrBufs spec2 c (E4 m c) := by
      rw [exit2_arr m c]; exact (arrays_V2 (E3 m) c (E4 m c)).1
    have hrest := unscopedRest_congr spec2 c (E3 m c) (E4 m c) (exit2_rest m c)
    iintro ⟨Ha, HO, HY, Hrest⟩
    ihave Hb := harr $$ Ha
    ihave Hrest := (Entails.of_eq hrest) $$ Hrest
    imodintro
    isplitl [Hb Hrest]
    · iapply (Entails.of_eq hsplit.symm); isplitl [Hb]; · iexact Hb
      iexact Hrest
    isplitl [HY]; · iexact HY
    unfold Pipeline.Dat.owesAt Pipeline.owesWithin
    icases HO with ⟨%W, -, HO⟩; iexists W; iexact HO

/-! ## @main as segments, and the launch -/

/-- @main's four items in order: the host stretch from the launch contents, then the three calls. -/
abbrev segs : List (Seg (pcfgs (F := F)) Gen.adm (pdats m) () defs₀ 𝒱₀ L lv) :=
  [ .host (Gen.seg0 m 𝒱₀ L lv (fun _ => R)),
    .region (reg0 m),
    .region (reg1 m),
    .region (reg2 m) ]

theorem main_run (c : Dev nD) : main (F := F) c = Seg.run (segs m) := (main_chain c).trans (by chain_rfl)

set_option backward.isDefEq.respectTransparency.types false in
/-- THE RUN. From any memory with zero counters every weakly fair execution of @main on the TensorCores terminates,
    nothing faulting, and every final memory holds each unscoped buffer of each core at the contents after the third
    call. -/
theorem run_all : θ_run defs (onTc (τ := τ) (main (F := F))) ⟨m, fun _ => 0, ρ⟩ (fun r => ∀ c : Dev nD,
      ∀ b : Ref sig .tc, ¬ b.isScoped → r.2.mem ((c.tc : Thread nD τ).loc b) = E4 m c b) :=
  Pipeline.θ_run_regions_kit (pcfgs (F := F)) Gen.adm (pdats m) () cellOf_inj emb₁ defs₀ 𝒱₀ L lv m ρ main (segs m)
    (fun c Q => by rw [main_run m c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(unscopedBufs c (E4 m c) ∗ ∃ r, prngReg c r))
    (hch := ⟨fun _ => .rfl, fun _ => .rfl, fun _ => .rfl, fun _ => .rfl, fun c => by
      show iprop(unscopedBufs c (E4 m c) ∗ R c) ⊢ _
      iintro ⟨Hb, Hp, HO⟩
      isplitl [Hb Hp]
      · isplitl [Hb]; · iexact Hb
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, ¬ b.isScoped → s.mem ((c.tc : Thread nD τ).loc b) = E4 m c b)
    (hfin := fun c s' => by
      iintro ⟨⟨Hh, -⟩, HSI⟩
      unfold unscopedBufs
      ihave Hr := (pointsTo_read_all (Finset.univ.filter fun b : Ref sig .tc => ¬ b.isScoped) (fun b => (c.tc : Thread nD τ).loc b) (E4 m c) s') $$ [Hh HSI]
      · isplitl [Hh] <;> iassumption
      icases Hr with ⟨%h, HSI⟩
      imodintro
      isplitr
      · ipureintro; exact fun b hb => h b (Finset.mem_filter.mpr ⟨Finset.mem_univ _, hb⟩)
      · iexact HSI)
    (hQ := fun s h c => h c)

/-! ## What the run says of the arguments and of the result -/

/-- No item writes an argument: through the three calls and the host stretch it stays at the launch memory. -/
theorem E4_arg (c : Dev nD) (b : Ref sig .tc) (h7 : b ≠ main_v7) (h6 : b ≠ main_v6) (h5 : b ≠ main_v5) (hh : b ∉ Gen.hostOps0_W) :
    E4 m c b = m ((c : Thread nD τ).loc b) :=
  (E4_of_ne m c b h7).trans <| (E3_of_ne m c b h6).trans <| (E2_of_ne m c b h5).trans <| Gen.V1_of m c b hh

end Cert.Kernel.Hand

end
-- ==== Proof.K.Frame.lean ====
/-
  The frame: the run leaves every argument array as launched.
-/
import proofs.«111276_g21131239096597_cont_8to1_6_3_alg».proof.Proof.Gen.Kernel.Launch
import proofs.«111276_g21131239096597_cont_8to1_6_3_alg».proof.Proof.Gen.Kernel.Skeleton
import proofs.«111276_g21131239096597_cont_8to1_6_3_alg».proof.Proof.Gen.Kernel.Points
import proofs.«111276_g21131239096597_cont_8to1_6_3_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, with the six argument arrays unchanged: each is
    an unscoped buffer no host operation writes and no call's result array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0 (by decide)).trans (E4_arg m c main_arg0 (by decide) (by decide) (by decide) (by decide)),
     (h c main_arg1 (by decide)).trans (E4_arg m c main_arg1 (by decide) (by decide) (by decide) (by decide)),
     (h c main_arg2 (by decide)).trans (E4_arg m c main_arg2 (by decide) (by decide) (by decide) (by decide)),
     (h c main_arg3 (by decide)).trans (E4_arg m c main_arg3 (by decide) (by decide) (by decide) (by decide)),
     (h c main_arg4 (by decide)).trans (E4_arg m c main_arg4 (by decide) (by decide) (by decide) (by decide)),
     (h c main_arg5 (by decide)).trans (E4_arg m c main_arg5 (by decide) (by decide) (by decide) (by decide))⟩) (run_all m ρ)

end Cert.Kernel.Hand

end
-- ==== Proof.KI.Body0.lean ====
/-
  The first pallas_call: both stacked inputs times the first weight, written side by side into one bf16 array of
  width 512, five row blocks of 2000. Stated over the core's buffer contents `V` at the call's entry: what a grid
  point finds in its three staging buffers, what the body leaves in the output's buffer (two stores, the left and the
  right half, which together tile it), the body's triple, and the pipeline's proof data.
-/
import proofs.«111276_g21131239096597_cont_8to1_6_3_alg».proof.Proof.Gen.KernelIdeal.Launch
import proofs.«111276_g21131239096597_cont_8to1_6_3_alg».proof.Proof.Gen.KernelIdeal.Skeleton
import proofs.«111276_g21131239096597_cont_8to1_6_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## What a grid point finds -/

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The stacked inputs' staging buffer holds the point's row block (it is fetched at every point). -/
theorem found0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: fetched once, its block index never moves. -/
theorem found0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Input 0's and input 1's planes of the stacked block. -/
abbrev r0_x0 : Rect S2x2000x256 := Rect.unit (s := S2x2000x256) ![0, 0, 0] S1x2000x256.size inb_S2x2000x256_S1x2000x256_0_0_0
abbrev r0_x1 : Rect S2x2000x256 := Rect.unit (s := S2x2000x256) ![1, 0, 0] S1x2000x256.size inb_S2x2000x256_S1x2000x256_1_0_0
/-- The whole weight. -/
abbrev r0_w : Rect S256x256 := Rect.unit (s := S256x256) ![0, 0] S256x256.size inb_S256x256_S256x256_0_0
/-- The output block's left and right halves (columns 0–255 and 256–511). -/
abbrev r0_lo : Rect S2000x512 := Rect.unit (s := S2000x512) ![0, 0] S2000x256.size inb_S2000x512_S2000x256_0_0
abbrev r0_hi : Rect S2000x512 := Rect.unit (s := S2000x512) ![0, 256] S2000x256.size inb_S2000x512_S2000x256_0_256

/-! ## What the body leaves in the output's buffer -/

/-- The output's staging buffer after the body, from the two input blocks: its two stores as pieces, the later first. -/
def out0_2 (x0 : Vec F S2x2000x256 .f32) (x1 : Vec F S256x256 .f32) : Vec F S2000x512 .bf16 :=
  View.canon [⟨r0_hi, k0_pay2 (View.ld x0 r0_x1) (View.ld x1 r0_w)⟩, ⟨r0_lo, k0_pay1 (View.ld x0 r0_x0) (View.ld x1 r0_w)⟩]

/-- The two halves tile the block, so every entry lies in one of them. -/
theorem cover0_2 (p0 p1 : Vec F S2000x256 .bf16) (y : S2000x512.Idx) :
    ∃ pc ∈ ([⟨r0_hi, p1⟩, ⟨r0_lo, p0⟩] : List (View.Piece (Elt F) S2000x512 .bf16)), y ∈ pc.1.set :=
  View.cover_of_tiled [⟨r0_hi, p1⟩, ⟨r0_lo, p0⟩] S2000x256.size (by rfl) y

/-! ## The body's triple -/

set_option maxHeartbeats 1000000 in
/-- The body on whole staging memrefs — the inputs' at contents `x0`, `x1`, the output's at anything — runs to the
    continuation with the inputs' as they were and the output's at `out0_2 x0 x1`. -/
theorem sound_kernel0 (c : Dev nD) (E : Set ℕ) (i : grid0.Coords) (arg1 : Memref sig .tc .vmem S2x2000x256 .f32) (harg1 : arg1.IsWhole)
    (arg2 : Memref sig .tc .vmem S256x256 .f32) (harg2 : arg2.IsWhole) (arg3 : Memref sig .tc .vmem S2000x512 .bf16) (harg3 : arg3.IsWhole)
    (x0 : Vec F S2x2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__v_body i arg1 harg1 arg2 harg2 arg3 harg3) K := by
  simp only [cc0__v_body_eq_skeleton]; unfold cc0__v_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The first call's proof data on core `c`: the arrays as the call finds them; after the body at point `t` each
    input's buffer at its block and the output's at `out0_2` of the two input blocks; nothing of the core's other
    state touched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  found0_0 V (dat0 V c) (A_eq0 V c 0) (after0_0 V c) t d
theorem before0_1 (c : Dev nD) (t : Fin cfg0.N) (d) : (dat0 V c).before 1 t d = iblk0 V c 1 t :=
  found0_1 V (dat0 V c) (A_eq0 V c 1) (after0_1 V c) t d

/-! ## The body obligation at a grid point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second pallas_call: per row block of 200 rows, aggregate the whole first-pass array through the block's rows of
  the incidence matrix, add the block's own rows and the tiled bias, clamp at zero, and project by the second weight.
  The first-pass array enters twice, once whole and once by row blocks; the core's share of it is split between the
  two windows. Stated over the core's buffer contents `V` at the call's entry.
-/
import proofs.«111276_g21131239096597_cont_8to1_6_3_alg».proof.Proof.Gen.KernelIdeal.Launch
import proofs.«111276_g21131239096597_cont_8to1_6_3_alg».proof.Proof.Gen.KernelIdeal.Skeleton
import proofs.«111276_g21131239096597_cont_8to1_6_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## What a grid point finds -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or at an earlier point whose block
    index is the same (the whole first-pass array, the bias and the weight are fetched once; the incidence rows and the
    first-pass rows at every point). -/
theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole staging buffer -/

abbrev r1_0 : Rect S200x10000 := Rect.unit (s := S200x10000) ![0, 0] S200x10000.size inb_S200x10000_S200x10000_0_0
abbrev r1_1 : Rect S10000x512 := Rect.unit (s := S10000x512) ![0, 0] S10000x512.size inb_S10000x512_S10000x512_0_0
abbrev r1_2 : Rect S200x512 := Rect.unit (s := S200x512) ![0, 0] S200x512.size inb_S200x512_S200x512_0_0
abbrev r1_3 : Rect S1x512 := Rect.unit (s := S1x512) ![0, 0] S1x512.size inb_S1x512_S1x512_0_0
abbrev r1_4 : Rect S512x40 := Rect.unit (s := S512x40) ![0, 0] S512x40.size inb_S512x40_S512x40_0_0
abbrev r1_5 : Rect S200x40 := Rect.unit (s := S200x40) ![0, 0] S200x40.size inb_S200x40_S200x40_0_0

/-! ## What the body leaves in the output's buffer -/

/-- The output's staging buffer after the body, from the five input blocks: its one store. -/
def out1_5 (x0 : Vec F S200x10000 .f32) (x1 : Vec F S10000x512 .bf16) (x2 : Vec F S200x512 .bf16) (x3 : Vec F S1x512 .f32)
    (x4 : Vec F S512x40 .f32) : Vec F S200x40 .f32 :=
  View.canon [⟨r1_5, k1_pay1 (View.ld x0 r1_0) (View.ld x1 r1_1) (View.ld x2 r1_2) (View.ld x3 r1_3) (View.ld x4 r1_4)⟩]

theorem cover1_5 (p0 : Vec F S200x40 .f32) (y : S200x40.Idx) :
    ∃ pc ∈ ([⟨r1_5, p0⟩] : List (View.Piece (Elt F) S200x40 .f32)), y ∈ pc.1.set :=
  View.cover_of_tiled [⟨r1_5, p0⟩] S200x40.size (by rfl) y

/-! ## The body's triple -/

set_option maxHeartbeats 1000000 in
/-- The body on whole staging memrefs — the five inputs' at contents `x0 … x4`, the output's at anything — runs to the
    continuation with the inputs' as they were and the output's at `out1_5 x0 … x4`. -/
theorem sound_kernel1 (c : Dev nD) (E : Set ℕ) (i : grid1.Coords) (arg1 : Memref sig .tc .vmem S200x10000 .f32) (harg1 : arg1.IsWhole)
    (arg2 : Memref sig .tc .vmem S10000x512 .bf16) (harg2 : arg2.IsWhole) (arg3 : Memref sig .tc .vmem S200x512 .bf16) (harg3 : arg3.IsWhole)
    (arg4 : Memref sig .tc .vmem S1x512 .f32) (harg4 : arg4.IsWhole) (arg5 : Memref sig .tc .vmem S512x40 .f32) (harg5 : arg5.IsWhole)
    (arg6 : Memref sig .tc .vmem S200x40 .f32) (harg6 : arg6.IsWhole)
    (x0 : Vec F S200x10000 .f32) (x1 : Vec F S10000x512 .bf16) (x2 : Vec F S200x512 .bf16) (x3 : Vec F S1x512 .f32) (x4 : Vec F S512x40 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__uni_body i arg1 harg1 arg2 harg2 arg3 harg3 arg4 harg4 arg5 harg5 arg6 harg6) K := by
  simp only [cc1__uni_body_eq_skeleton]; unfold cc1__uni_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- How the core's hold of each input array is dealt among the windows: the first-pass array is read by two windows,
    each at half of the full share; every other input by one window at the full share. -/
def q1 : Fin cfg1.W → PosShare TreeShare
  | ⟨1, _⟩ => fullShare.left
  | ⟨2, _⟩ => fullShare.right
  | _ => fullShare

/-- The second call's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  found1_0 V (dat1 V c) (A_eq1 V c 0) (after1_0 V c) t d
theorem before1_1 (c : Dev nD) (t : Fin cfg1.N) (d) : (dat1 V c).before 1 t d = iblk1 V c 1 t :=
  found1_1 V (dat1 V c) (A_eq1 V c 1) (after1_1 V c) t d
theorem before1_2 (c : Dev nD) (t : Fin cfg1.N) (d) : (dat1 V c).before 2 t d = iblk1 V c 2 t :=
  found1_2 V (dat1 V c) (A_eq1 V c 2) (after1_2 V c) t d
theorem before1_3 (c : Dev nD) (t : Fin cfg1.N) (d) : (dat1 V c).before 3 t d = iblk1 V c 3 t :=
  found1_3 V (dat1 V c) (A_eq1 V c 3) (after1_3 V c) t d
theorem before1_4 (c : Dev nD) (t : Fin cfg1.N) (d) : (dat1 V c).before 4 t d = iblk1 V c 4 t :=
  found1_4 V (dat1 V c) (A_eq1 V c 4) (after1_4 V c) t d

/-! ## The body obligation at a grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The third pallas_call: per row block of 200 rows, aggregate the whole projected array through the block's rows of the
  incidence matrix, add the block's own rows and the second bias. The projected array enters twice, once whole and once
  by row blocks; the core's share of it is split between the two windows. Stated over the core's buffer contents `V`
  at the call's entry.
-/
import proofs.«111276_g21131239096597_cont_8to1_6_3_alg».proof.Proof.Gen.KernelIdeal.Launch
import proofs.«111276_g21131239096597_cont_8to1_6_3_alg».proof.Proof.Gen.KernelIdeal.Skeleton
import proofs.«111276_g21131239096597_cont_8to1_6_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## What a grid point finds -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block at every point, fetched there or at an earlier point whose block
    index is the same (the whole projected array and the bias are fetched once; the incidence rows and the projected
    rows at every point). -/
theorem found2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem found2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take a whole staging buffer -/

abbrev r2_0 : Rect S200x10000 := Rect.unit (s := S200x10000) ![0, 0] S200x10000.size inb_S200x10000_S200x10000_0_0
abbrev r2_1 : Rect S10000x40 := Rect.unit (s := S10000x40) ![0, 0] S10000x40.size inb_S10000x40_S10000x40_0_0
abbrev r2_2 : Rect S200x40 := Rect.unit (s := S200x40) ![0, 0] S200x40.size inb_S200x40_S200x40_0_0
abbrev r2_3 : Rect S1x40 := Rect.unit (s := S1x40) ![0, 0] S1x40.size inb_S1x40_S1x40_0_0

/-! ## What the body leaves in the output's buffer -/

/-- The output's staging buffer after the body, from the four input blocks: its one store. -/
def out2_4 (x0 : Vec F S200x10000 .f32) (x1 : Vec F S10000x40 .f32) (x2 : Vec F S200x40 .f32) (x3 : Vec F S1x40 .f32) : Vec F S200x40 .f32 :=
  View.canon [⟨r2_2, k2_pay1 (View.ld x0 r2_0) (View.ld x1 r2_1) (View.ld x2 r2_2) (View.ld x3 r2_3)⟩]

theorem cover2_4 (p0 : Vec F S200x40 .f32) (y : S200x40.Idx) :
    ∃ pc ∈ ([⟨r2_2, p0⟩] : List (View.Piece (Elt F) S200x40 .f32)), y ∈ pc.1.set :=
  View.cover_of_tiled [⟨r2_2, p0⟩] S200x40.size (by rfl) y

/-! ## The body's triple -/

set_option maxHeartbeats 1000000 in
/-- The body on whole staging memrefs — the four inputs' at contents `x0 … x3`, the output's at anything — runs to the
    continuation with the inputs' as they were and the output's at `out2_4 x0 … x3`. -/
theorem sound_kernel2 (c : Dev nD) (E : Set ℕ) (i : grid2.Coords) (arg1 : Memref sig .tc .vmem S200x10000 .f32) (harg1 : arg1.IsWhole)
    (arg2 : Memref sig .tc .vmem S10000x40 .f32) (harg2 : arg2.IsWhole) (arg3 : Memref sig .tc .vmem S200x40 .f32) (harg3 : arg3.IsWhole)
    (arg4 : Memref sig .tc .vmem S1x40 .f32) (harg4 : arg4.IsWhole) (arg5 : Memref sig .tc .vmem S200x40 .f32) (harg5 : arg5.IsWhole)
    (x0 : Vec F S200x10000 .f32) (x1 : Vec F S10000x40 .f32) (x2 : Vec F S200x40 .f32) (x3 : Vec F S1x40 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__out_body i arg1 harg1 arg2 harg2 arg3 harg3 arg4 harg4 arg5 harg5) K := by
  simp only [cc2__out_body_eq_skeleton]; unfold cc2__out_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- How the core's hold of each input array is dealt among the windows: the projected array is read by two windows,
    each at half of the full share; every other input by one window at the full share. -/
def q2 : Fin cfg2.W → PosShare TreeShare
  | ⟨1, _⟩ => fullShare.left
  | ⟨2, _⟩ => fullShare.right
  | _ => fullShare

/-- The third call's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  found2_0 V (dat2 V c) (A_eq2 V c 0) (after2_0 V c) t d
theorem before2_1 (c : Dev nD) (t : Fin cfg2.N) (d) : (dat2 V c).before 1 t d = iblk2 V c 1 t :=
  found2_1 V (dat2 V c) (A_eq2 V c 1) (after2_1 V c) t d
theorem before2_2 (c : Dev nD) (t : Fin cfg2.N) (d) : (dat2 V c).before 2 t d = iblk2 V c 2 t :=
  found2_2 V (dat2 V c) (A_eq2 V c 2) (after2_2 V c) t d
theorem before2_3 (c : Dev nD) (t : Fin cfg2.N) (d) : (dat2 V c).before 3 t d = iblk2 V c 3 t :=
  found2_3 V (dat2 V c) (A_eq2 V c 3) (after2_3 V c) t d

/-! ## The body obligation at a grid point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Share.lean ====
/-
  Two windows on one array. The second call reads the first-pass array through two windows and the third call reads the
  projected array through two windows; the pipeline holds each window's array at that window's share, so the core's
  full hold of such an array is dealt out as two halves at the call's entry and joined again at its exit. For each of
  the two calls: its windows' arrays at contents read off a valuation `V'` are exactly the distinct buffers behind them,
  each held whole at `V'`.
-/
import proofs.«111276_g21131239096597_cont_8to1_6_3_alg».proof.Proof.Gen.KernelIdeal.Launch
import proofs.«111276_g21131239096597_cont_8to1_6_3_alg».proof.Proof.Gen.KernelIdeal.Skeleton
import proofs.«111276_g21131239096597_cont_8to1_6_3_alg».proof.Proof.Gen.KernelIdeal.Points
import proofs.«111276_g21131239096597_cont_8to1_6_3_alg».proof.Proof.KI.Body1
import proofs.«111276_g21131239096597_cont_8to1_6_3_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq bigSepL_cons_cons bigSepL_singleton)

-- the contents a call was entered at (they do not matter here: only the shares do) and the contents read
variable (V : (c : Dev nD) → (b : Ref sig .tc) → Buf (Elt F) ((c : Thread nD τ).loc b))

/-- The five distinct buffers behind the second call's six windows. -/
theorem arrRefs1 : Finset.univ.image (Pipeline.arrRef spec1) = ([main_arg1, main_v5, main_v3, main_arg4, main_v6] : List (Ref sig .tc)).toFinset := by
  decide

/-- The four distinct buffers behind the third call's five windows. -/
theorem arrRefs2 : Finset.univ.image (Pipeline.arrRef spec2) = ([main_arg1, main_v6, main_v4, main_v7] : List (Ref sig .tc)).toFinset := by
  decide

theorem arrays_V1 (c : Dev nD) (V' : (b : Ref sig .tc) → Buf (Elt F) ((c : Thread nD τ).loc b)) :
    ((dat1 V c).arrays (fun w => V' (Pipeline.arrRef spec1 w)) : sProp 𝕄) ⊣⊢ Pipeline.arrBufs spec1 c V' := by
  have hb : (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v5) ↦{fullShare} V' main_v5)
        ∗ (((c : Thread nD τ).loc main_v3) ↦{fullShare} V' main_v3) ∗ (((c : Thread nD τ).loc main_arg4) ↦{fullShare} V' main_arg4)
        ∗ (((c : Thread nD τ).loc main_v6) ↦{fullShare} V' main_v6)) := by
    unfold Pipeline.arrBufs; exact bigSep_eq_bigSepL_of_eq _ arrRefs1 (by decide) _
  rw [hb]
  unfold Dat.arrays
  rw [bigSep_W1]
  rw [(arr_whole1 0).set_eq_univ, (arr_whole1 1).set_eq_univ, (arr_whole1 3).set_eq_univ,
    (arr_whole1 4).set_eq_univ, (arr_whole1 5).set_eq_univ]
  rw [show (dat1 V c).share 0 = fullShare from rfl, show (dat1 V c).share 1 = fullShare.left from rfl,
    show (dat1 V c).share 2 = fullShare.right from rfl, show (dat1 V c).share 3 = fullShare from rfl,
    show (dat1 V c).share 4 = fullShare from rfl, show (dat1 V c).share 5 = fullShare from rfl]
  constructor
  · iintro ⟨H0, H1, H2, H3, H4, H5⟩
    isplitl [H0]; · iexact H0
    isplitl [H1 H2]
    · iapply (pointsTo_share (PosShare.mem_left_op_right fullShare)).2
      isplitl [H1]; · iexact H1
      iexact H2
    isplitl [H3]; · iexact H3
    isplitl [H4]; · iexact H4
    iexact H5
  · iintro ⟨H0, H12, H3, H4, H5⟩
    ihave H12 := (pointsTo_share (PosShare.mem_left_op_right fullShare)).1 $$ H12
    icases H12 with ⟨H1, H2⟩
    isplitl [H0]; · iexact H0
    isplitl [H1]; · iexact H1
    isplitl [H2]; · iexact H2
    isplitl [H3]; · iexact H3
    isplitl [H4]; · iexact H4
    iexact H5

theorem arrays_V2 (c : Dev nD) (V' : (b : Ref sig .tc) → Buf (Elt F) ((c : Thread nD τ).loc b)) :
    ((dat2 V c).arrays (fun w => V' (Pipeline.arrRef spec2 w)) : sProp 𝕄) ⊣⊢ Pipeline.arrBufs spec2 c V' := by
  have hb : (Pipeline.arrBufs (Ix := Unit) (Name := ℕ) (U := UR sig nD τ) (Lvl := ℕ) spec2 c V' : sProp 𝕄)
      = iprop((((c : Thread nD τ).loc main_arg1) ↦{fullShare} V' main_arg1) ∗ (((c : Thread nD τ).loc main_v6) ↦{fullShare} V' main_v6)
        ∗ (((c : Thread nD τ).loc main_v4) ↦{fullShare} V' main_v4) ∗ (((c : Thread nD τ).loc main_v7) ↦{fullShare} V' main_v7)) := by
    unfold Pipeline.arrBufs; exact bigSep_eq_bigSepL_of_eq _ arrRefs2 (by decide) _
  rw [hb]
  unfold Dat.arrays
  rw [bigSep_W2]
  rw [(arr_whole2 0).set_eq_univ, (arr_whole2 1).set_eq_univ, (arr_whole2 3).set_eq_univ,
    (arr_whole2 4).set_eq_univ]
  rw [show (dat2 V c).share 0 = fullShare from rfl, show (dat2 V c).share 1 = fullShare.left from rfl,
    show (dat2 V c).share 2 = fullShare.right from rfl, show (dat2 V c).share 3 = fullShare from rfl,
    show (dat2 V c).share 4 = fullShare from rfl]
  constructor
  · iintro ⟨H0, H1, H2, H3, H4⟩
    isplitl [H0]; · iexact H0
    isplitl [H1 H2]
    · iapply (pointsTo_share (PosShare.mem_left_op_right fullShare)).2
      isplitl [H1]; · iexact H1
      iexact H2
    isplitl [H3]; · iexact H3
    iexact H4
  · iintro ⟨H0, H12, H3, H4⟩
    ihave H12 := (pointsTo_share (PosShare.mem_left_op_right fullShare)).1 $$ H12
    icases H12 with ⟨H1, H2⟩
    isplitl [H0]; · iexact H0
    isplitl [H1]; · iexact H1
    isplitl [H2]; · iexact H2
    isplitl [H3]; · iexact H3
    iexact H4

end Cert.KernelIdeal.Hand

end
-- ==== Proof.KI.Run.lean ====
/-
  The whole program as a run: the host stretch, then the three pallas_calls in order, each entered from the buffer
  contents the item before it left. The contents are named call by call — a call changes only its result array, which
  ends at what the pipeline's write-backs leave — and the run ends with every buffer of the core at the last of them.
  From that one statement both the frame (no argument is ever written) and the result's value are read off.
-/
import proofs.«111276_g21131239096597_cont_8to1_6_3_alg».proof.Proof.Gen.KernelIdeal.Launch
import proofs.«111276_g21131239096597_cont_8to1_6_3_alg».proof.Proof.Gen.KernelIdeal.Skeleton
import proofs.«111276_g21131239096597_cont_8to1_6_3_alg».proof.Proof.Gen.KernelIdeal.Points
import proofs.«111276_g21131239096597_cont_8to1_6_3_alg».proof.Proof.Gen.KernelIdeal.Regions
import proofs.«111276_g21131239096597_cont_8to1_6_3_alg».proof.Proof.KI.Body0
import proofs.«111276_g21131239096597_cont_8to1_6_3_alg».proof.Proof.KI.Share
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (HostSeg RegionSeg Seg)

variable (m : (ℓ : Loc nD τ sig) → Buf (Elt F) ℓ) (ρ : Dev nD → PrngReg)

/-! ## The buffer contents between items -/

/-- After the host stretch: what the first call is entered at. -/
abbrev E1 : (c : Dev nD) → (b : Ref sig .tc) → Buf (Elt F) ((c : Thread nD τ).loc b) := fun c b => Gen.V1 m c b
/-- The first call's result array after its last write-back. -/
def X5 (c : Dev nD) : Buf (Elt F) ((c : Thread nD τ).loc main_v5) := (dat0 (E1 m) c).arrAt 2 cfg0.N
/-- After the first call: only its result array has changed. -/
def E2 : (c : Dev nD) → (b : Ref sig .tc) → Buf (Elt F) ((c : Thread nD τ).loc b) := fun c => Function.update (E1 m c) main_v5 (X5 m c)
/-- The second call's result array after its last write-back. -/
def X6 (c : Dev nD) : Buf (Elt F) ((c : Thread nD τ).loc main_v6) := (dat1 (E2 m) c).arrAt 5 cfg1.N
def E3 : (c : Dev nD) → (b : Ref sig .tc) → Buf (Elt F) ((c : Thread nD τ).loc b) := fun c => Function.update (E2 m c) main_v6 (X6 m c)
/-- The third call's result array after its last write-back: the program's result. -/
def X7 (c : Dev nD) : Buf (Elt F) ((c : Thread nD τ).loc main_v7) := (dat2 (E3 m) c).arrAt 4 cfg2.N
def E4 : (c : Dev nD) → (b : Ref sig .tc) → Buf (Elt F) ((c : Thread nD τ).loc b) := fun c => Function.update (E3 m c) main_v7 (X7 m c)

theorem E2_v5 (c : Dev nD) : E2 m c main_v5 = X5 m c := by unfold E2; exact Function.update_self ..
theorem E2_of_ne (c : Dev nD) (b : Ref sig .tc) (h : b ≠ main_v5) : E2 m c b = E1 m c b := by unfold E2; exact Function.update_of_ne h ..
theorem E3_v6 (c : Dev nD) : E3 m c main_v6 = X6 m c := by unfold E3; exact Function.update_self ..
theorem E3_of_ne (c : Dev nD) (b : Ref sig .tc) (h : b ≠ main_v6) : E3 m c b = E2 m c b := by unfold E3; exact Function.update_of_ne h ..
theorem E4_v7 (c : Dev nD) : E4 m c main_v7 = X7 m c := by unfold E4; exact Function.update_self ..
theorem E4_of_ne (c : Dev nD) (b : Ref sig .tc) (h : b ≠ main_v7) : E4 m c b = E3 m c b := by unfold E4; exact Function.update_of_ne h ..

/-! ## The proof data of all three calls, and what rides along -/

def pdats : (p : Fin 3) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
  | ⟨2, _⟩ => fun c => dat2 (E3 m) c

abbrev 𝒱₀ : Variants := Variants.none
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)

/-! ## Each call's arrays at its exit are the next contents; everything else is as entered -/

theorem exit0_arr (c : Dev nD) (w : Fin cfg0.W) : (pdats m 0 c).arrAt w cfg0.N = E2 m c (Pipeline.arrRef spec0 w) := by
  match w with
  | ⟨0, _⟩ => exact ((dat0 (E1 m) c).arrAt_in 0 rfl _).trans (E2_of_ne m c main_arg0 (by decide)).symm
  | ⟨1, _⟩ => exact ((dat0 (E1 m) c).arrAt_in 1 rfl _).trans (E2_of_ne m c main_arg2 (by decide)).symm
  | ⟨2, _⟩ => exact (E2_v5 m c).symm
theorem exit0_rest (c : Dev nD) : ∀ b, b ∉ Finset.univ.image (Pipeline.arrRef spec0) → E2 m c b = E1 m c b :=
  fun b hb => E2_of_ne m c b fun e => hb (Finset.mem_image.mpr ⟨2, Finset.mem_univ _, e.symm⟩)

theorem exit1_arr (c : Dev nD) : (fun w => (pdats m 1 c).arrAt w cfg1.N) = fun w => E3 m c (Pipeline.arrRef spec1 w) := by
  funext w
  match w with
  | ⟨0, _⟩ => exact ((dat1 (E2 m) c).arrAt_in 0 rfl _).trans (E3_of_ne m c main_arg1 (by decide)).symm
  | ⟨1, _⟩ => exact ((dat1 (E2 m) c).arrAt_in 1 rfl _).trans (E3_of_ne m c main_v5 (by decide)).symm
  | ⟨2, _⟩ => exact ((dat1 (E2 m) c).arrAt_in 2 rfl _).trans (E3_of_ne m c main_v5 (by decide)).symm
  | ⟨3, _⟩ => exact ((dat1 (E2 m) c).arrAt_in 3 rfl _).trans (E3_of_ne m c main_v3 (by decide)).symm
  | ⟨4, _⟩ => exact ((dat1 (E2 m) c).arrAt_in 4 rfl _).trans (E3_of_ne m c main_arg4 (by decide)).symm
  | ⟨5, _⟩ => exact (E3_v6 m c).symm
theorem exit1_rest (c : Dev nD) : ∀ b, b ∉ Finset.univ.image (Pipeline.arrRef spec1) → E3 m c b = E2 m c b :=
  fun b hb => E3_of_ne m c b fun e => hb (Finset.mem_image.mpr ⟨5, Finset.mem_univ _, e.symm⟩)

theorem exit2_arr (c : Dev nD) : (fun w => (pdats m 2 c).arrAt w cfg2.N) = fun w => E4 m c (Pipeline.arrRef spec2 w) := by
  funext w
  match w with
  | ⟨0, _⟩ => exact ((dat2 (E3 m) c).arrAt_in 0 rfl _).trans (E4_of_ne m c main_arg1 (by decide)).symm
  | ⟨1, _⟩ => exact ((dat2 (E3 m) c).arrAt_in 1 rfl _).trans (E4_of_ne m c main_v6 (by decide)).symm
  | ⟨2, _⟩ => exact ((dat2 (E3 m) c).arrAt_in 2 rfl _).trans (E4_of_ne m c main_v6 (by decide)).symm
  | ⟨3, _⟩ => exact ((dat2 (E3 m) c).arrAt_in 3 rfl _).trans (E4_of_ne m c main_v4 (by decide)).symm
  | ⟨4, _⟩ => exact (E4_v7 m c).symm
theorem exit2_rest (c : Dev nD) : ∀ b, b ∉ Finset.univ.image (Pipeline.arrRef spec2) → E4 m c b = E3 m c b :=
  fun b hb => E4_of_ne m c b fun e => hb (Finset.mem_image.mpr ⟨4, Finset.mem_univ _, e.symm⟩)

/-- A call whose windows may share arrays: its arrays at contents read off `V'` and the rest of the core's unscoped
    buffers at `V`, which agrees with `V'` off the arrays, are the core's unscoped buffers at `V'`. -/
theorem unscopedRest_congr {gr W : Nat} (win : Fin W → Pipeline.WinSpec sig gr) (c : Dev nD)
    (V V' : (b : Ref sig .tc) → Buf (Elt F) ((c : Thread nD τ).loc b))
    (hrest : ∀ b, b ∉ Finset.univ.image (Pipeline.arrRef win) → V' b = V b) :
    (Pipeline.unscopedRest (Ix := Unit) (Name := ℕ) (U := UR sig nD τ) (Lvl := ℕ) win c V : sProp 𝕄) = Pipeline.unscopedRest win c V' := by
  unfold Pipeline.unscopedRest
  exact bigSep_congr fun b hb => by rw [hrest b (Finset.mem_sdiff.mp hb).2]

/-! ## The calls as segments -/

set_option backward.isDefEq.respectTransparency.types false in
/-- The first call over the thread state: entered from what the host stretch left, its three distinct arrays split out
    of the core's unscoped buffers and put back at the exit contents. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(unscopedBufs c (E2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state "every unscoped buffer of the core at the current contents, the generator
    register at some state, nothing owed": at its entry the buffers behind its windows are dealt out as the windows'
    arrays (two windows on one array take half of it each), at its exit they are joined again, the result array now at
    what the write-backs left. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(unscopedBufs c (E2 m c) ∗ R c)
  post c := iprop(unscopedBufs c (E3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄) = iprop(Pipeline.arrBufs spec1 c (E2 m c) ∗ Pipeline.unscopedRest spec1 c (E2 m c)) :=
      Pipeline.unscopedBufs_split₀ cfgs 1 winFacts₀1.arr_unscoped c (E2 m c)
    have harr : (Pipeline.arrBufs spec1 c (E2 m c) : sProp 𝕄) ⊢ (pdats m 1 c).arrays ((pdats m 1 c).arrAt · 0) :=
      (arrays_V1 (E2 m) c (E2 m c)).2
    iintro ⟨⟨Hub, Hp, HO⟩, -, -⟩
    ihave H := (Entails.of_eq hsplit) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit : (unscopedBufs c (E3 m c) : sProp 𝕄) = iprop(Pipeline.arrBufs spec1 c (E3 m c) ∗ Pipeline.unscopedRest spec1 c (E3 m c)) :=
      Pipeline.unscopedBufs_split₀ cfgs 1 winFacts₀1.arr_unscoped c (E3 m c)
    have harr : ((pdats m 1 c).arrays ((pdats m 1 c).arrAt · cfg1.N) : sProp 𝕄) ⊢ Pipeline.arrBufs spec1 c (E3 m c) := by
      rw [exit1_arr m c]; exact (arrays_V1 (E2 m) c (E3 m c)).1
    have hrest := unscopedRest_congr spec1 c (E2 m c) (E3 m c) (exit1_rest m c)
    iintro ⟨Ha, HO, HY, Hrest⟩
    ihave Hb := harr $$ Ha
    ihave Hrest := (Entails.of_eq hrest) $$ Hrest
    imodintro
    isplitl [Hb Hrest]
    · iapply (Entails.of_eq hsplit.symm); isplitl [Hb]; · iexact Hb
      iexact Hrest
    isplitl [HY]; · iexact HY
    unfold Pipeline.Dat.owesAt Pipeline.owesWithin
    icases HO with ⟨%W, -, HO⟩; iexists W; iexact HO

set_option backward.isDefEq.respectTransparency.types false in
/-- The third call over the thread state "every unscoped buffer of the core at the current contents, the generator
    register at some state, nothing owed": at its entry the buffers behind its windows are dealt out as the windows'
    arrays (two windows on one array take half of it each), at its exit they are joined again, the result array now at
    what the write-backs left. -/
def reg2 : RegionSeg (pcfgs (F := F)) Gen.adm (pdats m) () defs₀ 𝒱₀ L lv 2 where
  win := winFacts₀2
  block_pos := block_pos2
  stage_whole := stage_whole2
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(unscopedBufs c (E3 m c) ∗ R c)
  post c := iprop(unscopedBufs c (E4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit : (unscopedBufs c (E3 m c) : sProp 𝕄) = iprop(Pipeline.arrBufs spec2 c (E3 m c) ∗ Pipeline.unscopedRest spec2 c (E3 m c)) :=
      Pipeline.unscopedBufs_split₀ cfgs 2 winFacts₀2.arr_unscoped c (E3 m c)
    have harr : (Pipeline.arrBufs spec2 c (E3 m c) : sProp 𝕄) ⊢ (pdats m 2 c).arrays ((pdats m 2 c).arrAt · 0) :=
      (arrays_V2 (E3 m) c (E3 m c)).2
    iintro ⟨⟨Hub, Hp, HO⟩, -, -⟩
    ihave H := (Entails.of_eq hsplit) $$ Hub
    icases H with ⟨Hb, Hrest⟩
    ihave Ha := harr $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hsplit : (unscopedBufs c (E4 m c) : sProp 𝕄) = iprop(Pipeline.arrBufs spec2 c (E4 m c) ∗ Pipeline.unscopedRest spec2 c (E4 m c)) :=
      Pipeline.unscopedBufs_split₀ cfgs 2 winFacts₀2.arr_unscoped c (E4 m c)
    have harr : ((pdats m 2 c).arrays ((pdats m 2 c).arrAt · cfg2.N) : sProp 𝕄) ⊢ Pipeline.arrBufs spec2 c (E4 m c) := by
      rw [exit2_arr m c]; exact (arrays_V2 (E3 m) c (E4 m c)).1
    have hrest := unscopedRest_congr spec2 c (E3 m c) (E4 m c) (exit2_rest m c)
    iintro ⟨Ha, HO, HY, Hrest⟩
    ihave Hb := harr $$ Ha
    ihave Hrest := (Entails.of_eq hrest) $$ Hrest
    imodintro
    isplitl [Hb Hrest]
    · iapply (Entails.of_eq hsplit.symm); isplitl [Hb]; · iexact Hb
      iexact Hrest
    isplitl [HY]; · iexact HY
    unfold Pipeline.Dat.owesAt Pipeline.owesWithin
    icases HO with ⟨%W, -, HO⟩; iexists W; iexact HO

/-! ## @main as segments, and the launch -/

/-- @main's four items in order: the host stretch from the launch contents, then the three calls. -/
abbrev segs : List (Seg (pcfgs (F := F)) Gen.adm (pdats m) () defs₀ 𝒱₀ L lv) :=
  [ .host (Gen.seg0 m 𝒱₀ L lv (fun _ => R)),
    .region (reg0 m),
    .region (reg1 m),
    .region (reg2 m) ]

theorem main_run (c : Dev nD) : main (F := F) c = Seg.run (segs m) := (main_chain c).trans (by chain_rfl)

set_option backward.isDefEq.respectTransparency.types false in
/-- THE RUN. From any memory with zero counters every weakly fair execution of @main on the TensorCores terminates,
    nothing faulting, and every final memory holds each unscoped buffer of each core at the contents after the third
    call. -/
theorem run_all : θ_run defs (onTc (τ := τ) (main (F := F))) ⟨m, fun _ => 0, ρ⟩ (fun r => ∀ c : Dev nD,
      ∀ b : Ref sig .tc, ¬ b.isScoped → r.2.mem ((c.tc : Thread nD τ).loc b) = E4 m c b) :=
  Pipeline.θ_run_regions_kit (pcfgs (F := F)) Gen.adm (pdats m) () cellOf_inj emb₁ defs₀ 𝒱₀ L lv m ρ main (segs m)
    (fun c Q => by rw [main_run m c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(unscopedBufs c (E4 m c) ∗ ∃ r, prngReg c r))
    (hch := ⟨fun _ => .rfl, fun _ => .rfl, fun _ => .rfl, fun _ => .rfl, fun c => by
      show iprop(unscopedBufs c (E4 m c) ∗ R c) ⊢ _
      iintro ⟨Hb, Hp, HO⟩
      isplitl [Hb Hp]
      · isplitl [Hb]; · iexact Hb
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, ¬ b.isScoped → s.mem ((c.tc : Thread nD τ).loc b) = E4 m c b)
    (hfin := fun c s' => by
      iintro ⟨⟨Hh, -⟩, HSI⟩
      unfold unscopedBufs
      ihave Hr := (pointsTo_read_all (Finset.univ.filter fun b : Ref sig .tc => ¬ b.isScoped) (fun b => (c.tc : Thread nD τ).loc b) (E4 m c) s') $$ [Hh HSI]
      · isplitl [Hh] <;> iassumption
      icases Hr with ⟨%h, HSI⟩
      imodintro
      isplitr
      · ipureintro; exact fun b hb => h b (Finset.mem_filter.mpr ⟨Finset.mem_univ _, hb⟩)
      · iexact HSI)
    (hQ := fun s h c => h c)

/-! ## What the run says of the arguments and of the result -/

/-- No item writes an argument: through the three calls and the host stretch it stays at the launch memory. -/
theorem E4_arg (c : Dev nD) (b : Ref sig .tc) (h7 : b ≠ main_v7) (h6 : b ≠ main_v6) (h5 : b ≠ main_v5) (hh : b ∉ Gen.hostOps0_W) :
    E4 m c b = m ((c : Thread nD τ).loc b) :=
  (E4_of_ne m c b h7).trans <| (E3_of_ne m c b h6).trans <| (E2_of_ne m c b h5).trans <| Gen.V1_of m c b hh

end Cert.KernelIdeal.Hand

end
-- ==== Proof.KI.Frame.lean ====
/-
  The frame: the run leaves every argument array as launched.
-/
import proofs.«111276_g21131239096597_cont_8to1_6_3_alg».proof.Proof.Gen.KernelIdeal.Launch
import proofs.«111276_g21131239096597_cont_8to1_6_3_alg».proof.Proof.Gen.KernelIdeal.Skeleton
import proofs.«111276_g21131239096597_cont_8to1_6_3_alg».proof.Proof.Gen.KernelIdeal.Points
import proofs.«111276_g21131239096597_cont_8to1_6_3_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, nothing faulting, with the six argument arrays unchanged: each is
    an unscoped buffer no host operation writes and no call's result array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0 (by decide)).trans (E4_arg m c main_arg0 (by decide) (by decide) (by decide) (by decide)),
     (h c main_arg1 (by decide)).trans (E4_arg m c main_arg1 (by decide) (by decide) (by decide) (by decide)),
     (h c main_arg2 (by decide)).trans (E4_arg m c main_arg2 (by decide) (by decide) (by decide) (by decide)),
     (h c main_arg3 (by decide)).trans (E4_arg m c main_arg3 (by decide) (by decide) (by decide) (by decide)),
     (h c main_arg4 (by decide)).trans (E4_arg m c main_arg4 (by decide) (by decide) (by decide) (by decide)),
     (h c main_arg5 (by decide)).trans (E4_arg m c main_arg5 (by decide) (by decide) (by decide) (by decide))⟩) (run_all m ρ)

end Cert.KernelIdeal.Hand

end
-- ==== Proof.KI.Pay.lean ====
/-
  The three kernel bodies' stored values, read at one entry on the extended reals: a matrix product into a zero
  accumulator is a plain finite sum, the changes of float format are the identity, the clamp is `max · 0`.
-/
import proofs.«111276_g21131239096597_cont_8to1_6_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The four matrix products at an entry

Each product contracts the left operand's axis 1 with the right operand's axis 0 and has no batch axis, so the
operand indices at output `(i, j)` and contraction coordinate `k` are `(i, k)` and `(k, j)`; the sum over the one-axis
contraction index set is re-indexed by its coordinate. -/

/-! ### The product `[2000,256] × [256,256]` -/

/-- The left operand's row coordinate is the output's row. -/
theorem lhs_a_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the contraction index. -/
theorem lhs_a_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row coordinate is the contraction index. -/
theorem rhs_a_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column coordinate is the output's column. -/
theorem rhs_a_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Into a zero accumulator the product at `(i, j)` is `∑ k, a (i, k) * b (k, j)`. -/
theorem mm_a_apply {φ₁ φ₂ : FTy} (a : FVec Ideal S2000x256 φ₁) (b : FVec Ideal S256x256 φ₂) (i : Fin 2000) (j : Fin 256) :
    matmul (F := Ideal) dot_S2000x256_S256x256_S2000x256_1_0_0_1_n_n none a b (constant (F := Ideal) S2000x256 .f32 0x00000000#32) (ix2 i j)
      = ∑ k : Fin 256, a (ix2 i k) * b (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 i j) ((contrEquiv1 dot_S2000x256_S256x256_S2000x256_1_0_0_1_n_n 256 rfl rfl).symm k) = ix2 i k := funext fun x => Fin.ext (by
    match x with
    | ⟨0, _⟩ => exact lhs_a_0 _ _
    | ⟨1, _⟩ => exact (lhs_a_1 _ _).trans hk)
  have er : dot_S2000x256_S256x256_S2000x256_1_0_0_1_n_n.rhsIdx (ix2 i j) ((contrEquiv1 dot_S2000x256_S256x256_S2000x256_1_0_0_1_n_n 256 rfl rfl).symm k) = ix2 k j := funext fun x => Fin.ext (by
    match x with
    | ⟨0, _⟩ => exact (rhs_a_0 _ _).trans hk
    | ⟨1, _⟩ => exact rhs_a_1 _ _)
  rw [el, er]

/-! ### The product `[200,10000] × [10000,512]` -/

/-- The left operand's row coordinate is the output's row. -/
theorem lhs_b_0 (i : S200x512.Idx) (q : dot_S200x10000_S10000x512_S200x512_1_0_0_1_n_n.contr.Idx) :
    (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide), dif_pos (show (0 : Fin S200x10000.rank) ∈ dot_S200x10000_S10000x512_S200x512_1_0_0_1_n_n.lhsNonContracting by decide)]
  rfl
/-- The left operand's column coordinate is the contraction index. -/
theorem lhs_b_1 (i : S200x512.Idx) (q : dot_S200x10000_S10000x512_S200x512_1_0_0_1_n_n.contr.Idx) :
    (dot_S200x10000_S10000x512_S200x512_1_0_0_1_n_n.lhsIdx i q 1).val = (q ⟨0, by decide⟩).val :=
  dot_S200x10000_S10000x512_S200x512_1_0_0_1_n_n.lhsIdx_val_of_single rfl i q
/-- The right operand's row coordinate is the contraction index. -/
theorem rhs_b_0 (i : S200x512.Idx) (q : dot_S200x10000_S10000x512_S200x512_1_0_0_1_n_n.contr.Idx) :
    (dot_S200x10000_S10000x512_S200x512_1_0_0_1_n_n.rhsIdx i q 0).val = (q ⟨0, by decide⟩).val :=
  dot_S200x10000_S10000x512_S200x512_1_0_0_1_n_n.rhsIdx_val_of_single rfl i q
/-- The right operand's column coordinate is the output's column. -/
theorem rhs_b_1 (i : S200x512.Idx) (q : dot_S200x10000_S10000x512_S200x512_1_0_0_1_n_n.contr.Idx) :
    (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide), dif_pos (show (1 : Fin S10000x512.rank) ∈ dot_S200x10000_S10000x512_S200x512_1_0_0_1_n_n.rhsNonContracting by decide)]
  rfl

/-- Into a zero accumulator the product at `(i, j)` is `∑ k, a (i, k) * b (k, j)`. -/
theorem mm_b_apply {φ₁ φ₂ : FTy} (a : FVec Ideal S200x10000 φ₁) (b : FVec Ideal S10000x512 φ₂) (i : Fin 200) (j : Fin 512) :
    matmul (F := Ideal) dot_S200x10000_S10000x512_S200x512_1_0_0_1_n_n none a b (constant (F := Ideal) S200x512 .f32 0x00000000#32) (ix2 i j)
      = ∑ k : Fin 10000, a (ix2 i k) * b (ix2 k j) := by
  simp only [matmul]
  rw [Ideal.matmul_constant_zero_apply, ← Equiv.sum_comp (contrEquiv1 dot_S200x10000_S10000x512_S200x512_1_0_0_1_n_n 10000 rfl rfl).symm]
  refine Finset.sum_congr rfl fun k _ => ?_
  have hk := contrEquiv1_symm_val dot_S200x10000_S10000x512_S200x512_1_0_0_1_n_n 10000 rfl rfl k
  have el : dot_S200x10000_S10000x512_S200x512_1_0_0_1_n_n.lhsIdx (ix2 i j) ((contrEquiv1 dot_S200x10000_S10000x512_S200x512_1_0_0_1_n_n 10000 rfl rfl).symm k) = ix2 i k := funext fun x => Fin.ext (by
    match x with
    | ⟨0, _⟩ => exact lhs_b_0 _ _
    | ⟨1, _⟩ => exact (lhs_b_1 _ _).trans hk)
  have er : dot_S200x10000_S10000x512_S200x512_1_0_0_1_n_n.rhsIdx (ix2 i j) ((contrEquiv1 dot_S200x10000_S10000x512_S200x512_1_0_0_1_n_n 10000 rfl rfl).symm k) = ix2 k j := funext fun x => Fin.ext (by
    match x with
    | ⟨0, _⟩ => exact (rhs_b_0 _ _).trans hk
    | ⟨1, _⟩ => exact rhs_b_1 _ _)
  rw [el, er]

/-! ### The product `[200,512] × [512,40]` -/

/-- The left operand's row coordinate is the output's row. -/
theorem lhs_c_0 (i : S200x40.Idx) (q : dot_S200x512_S512x40_S200x40_1_0_0_1_n_n.contr.Idx) :
    (dot_S200x512_S512x40_S200x40_1_0_0_1_n_n.lhsIdx i q 0).val = (i 0).val := by
  unfold DotDims.lhsIdx
  rw [dif_neg (show ¬(0 : Fin S200x512.rank) ∈ dot_S200x512_S512x40_S200x40_1_0_0_1_n_n.lhsBatch by decide), dif_pos (show (0 : Fin S200x512.rank) ∈ dot_S200x512_S512x40_S200x40_1_0_0_1_n_n.lhsNonContracting by decide)]
  rfl
/-- The left operand's column coordinate is the contraction index. -/
theorem lhs_c_1 (i : S200x40.Idx) (q : dot_S200x512_S512x40_S200x40_1_0_0_1_n_n.contr.Idx) :
    (dot_S200x512_S512x40_S200x40_1_0_0_1_n_n.lhsIdx i q 1).val = (q ⟨0, by decide⟩).val :=
  dot_S200x512_S512x40_S200x40_1_0_0_1_n_n.lhsIdx_val_of_single rfl i q
/-- The right operand's row coordinate is the contraction index. -/
theorem rhs_c_0 (i : S200x40.Idx) (q : dot_S200x512_S512x40_S200x40_1_0_0_1_n_n.contr.Idx) :
    (dot_S200x512_S512x40_S200x40_1_0_0_1_n_n.rhsIdx i q 0).val = (q ⟨0, by decide⟩).val :=
  dot_S200x512_S512x40_S200x40_1_0_0_1_n_n.rhsIdx_val_of_single rfl i q
/-- The right operand's column coordinate is the output's column. -/
theorem rhs_c_1 (i : S200x40.Idx) (q : dot_S200x512_S512x40_S200x40_1_0_0_1_n_n.contr.Idx) :
    (dot_S200x512_S512x40_S200x40_1_0_0_1_n_n.rhsIdx i q 1).val = (i 1).val := by
  unfold DotDims.rhsIdx
  rw [dif_neg (show ¬(1 : Fin S512x40.rank) ∈ dot_S200x512_S512x40_S200x40_1_0_0_1_n_n.rhsBatch by decide), dif_pos (show (1 : Fin S512x40.rank) ∈ dot_S200x512_S512x40_S200x40_1_0_0_1_n_n.rhsNonContracting by decide)]
  rfl

/-- Into a zero accumulator the product at `(i, j)` is `∑ k, a (i, k) * b (k, j)`. -/
theorem mm_c_apply {φ₁ φ₂ : FTy} (a : FVec Ideal S200x512 φ₁) (b : FVec Ideal S512x40 φ₂) (i : Fin 200) (j : Fin 40) :
    matmul (F := Ideal) dot_S200x512_S512x40_S200x40_1_0_0_1_n_n none a b (constant (F := Ideal) S200x40 .f32 0x00000000#32) (ix2 i j)
      = ∑ k : Fin 512, a (ix2 i k) * b (ix2 k j) := by
  simp only [matmul]
  rw [Ideal.matmul_constant_zero_apply, ← Equiv.sum_comp (contrEquiv1 dot_S200x512_S512x40_S200x40_1_0_0_1_n_n 512 rfl rfl).symm]
  refine Finset.sum_congr rfl fun k _ => ?_
  have hk := contrEquiv1_symm_val dot_S200x512_S512x40_S200x40_1_0_0_1_n_n 512 rfl rfl k
  have el : dot_S200x512_S512x40_S200x40_1_0_0_1_n_n.lhsIdx (ix2 i j) ((contrEquiv1 dot_S200x512_S512x40_S200x40_1_0_0_1_n_n 512 rfl rfl).symm k) = ix2 i k := funext fun x => Fin.ext (by
    match x with
    | ⟨0, _⟩ => exact lhs_c_0 _ _
    | ⟨1, _⟩ => exact (lhs_c_1 _ _).trans hk)
  have er : dot_S200x512_S512x40_S200x40_1_0_0_1_n_n.rhsIdx (ix2 i j) ((contrEquiv1 dot_S200x512_S512x40_S200x40_1_0_0_1_n_n 512 rfl rfl).symm k) = ix2 k j := funext fun x => Fin.ext (by
    match x with
    | ⟨0, _⟩ => exact (rhs_c_0 _ _).trans hk
    | ⟨1, _⟩ => exact rhs_c_1 _ _)
  rw [el, er]

/-! ### The product `[200,10000] × [10000,40]` -/

/-- The left operand's row coordinate is the output's row. -/
theorem lhs_d_0 (i : S200x40.Idx) (q : dot_S200x10000_S10000x40_S200x40_1_0_0_1_n_n.contr.Idx) :
    (dot_S200x10000_S10000x40_S200x40_1_0_0_1_n_n.lhsIdx i q 0).val = (i 0).val := by
  unfold DotDims.lhsIdx
  rw [dif_neg (show ¬(0 : Fin S200x10000.rank) ∈ dot_S200x10000_S10000x40_S200x40_1_0_0_1_n_n.lhsBatch by decide), dif_pos (show (0 : Fin S200x10000.rank) ∈ dot_S200x10000_S10000x40_S200x40_1_0_0_1_n_n.lhsNonContracting by decide)]
  rfl
/-- The left operand's column coordinate is the contraction index. -/
theorem lhs_d_1 (i : S200x40.Idx) (q : dot_S200x10000_S10000x40_S200x40_1_0_0_1_n_n.contr.Idx) :
    (dot_S200x10000_S10000x40_S200x40_1_0_0_1_n_n.lhsIdx i q 1).val = (q ⟨0, by decide⟩).val :=
  dot_S200x10000_S10000x40_S200x40_1_0_0_1_n_n.lhsIdx_val_of_single rfl i q
/-- The right operand's row coordinate is the contraction index. -/
theorem rhs_d_0 (i : S200x40.Idx) (q : dot_S200x10000_S10000x40_S200x40_1_0_0_1_n_n.contr.Idx) :
    (dot_S200x10000_S10000x40_S200x40_1_0_0_1_n_n.rhsIdx i q 0).val = (q ⟨0, by decide⟩).val :=
  dot_S200x10000_S10000x40_S200x40_1_0_0_1_n_n.rhsIdx_val_of_single rfl i q
/-- The right operand's column coordinate is the output's column. -/
theorem rhs_d_1 (i : S200x40.Idx) (q : dot_S200x10000_S10000x40_S200x40_1_0_0_1_n_n.contr.Idx) :
    (dot_S200x10000_S10000x40_S200x40_1_0_0_1_n_n.rhsIdx i q 1).val = (i 1).val := by
  unfold DotDims.rhsIdx
  rw [dif_neg (show ¬(1 : Fin S10000x40.rank) ∈ dot_S200x10000_S10000x40_S200x40_1_0_0_1_n_n.rhsBatch by decide), dif_pos (show (1 : Fin S10000x40.rank) ∈ dot_S200x10000_S10000x40_S200x40_1_0_0_1_n_n.rhsNonContracting by decide)]
  rfl

/-- Into a zero accumulator the product at `(i, j)` is `∑ k, a (i, k) * b (k, j)`. -/
theorem mm_d_apply {φ₁ φ₂ : FTy} (a : FVec Ideal S200x10000 φ₁) (b : FVec Ideal S10000x40 φ₂) (i : Fin 200) (j : Fin 40) :
    matmul (F := Ideal) dot_S200x10000_S10000x40_S200x40_1_0_0_1_n_n none a b (constant (F := Ideal) S200x40 .f32 0x00000000#32) (ix2 i j)
      = ∑ k : Fin 10000, a (ix2 i k) * b (ix2 k j) := by
  simp only [matmul]
  rw [Ideal.matmul_constant_zero_apply, ← Equiv.sum_comp (contrEquiv1 dot_S200x10000_S10000x40_S200x40_1_0_0_1_n_n 10000 rfl rfl).symm]
  refine Finset.sum_congr rfl fun k _ => ?_
  have hk := contrEquiv1_symm_val dot_S200x10000_S10000x40_S200x40_1_0_0_1_n_n 10000 rfl rfl k
  have el : dot_S200x10000_S10000x40_S200x40_1_0_0_1_n_n.lhsIdx (ix2 i j) ((contrEquiv1 dot_S200x10000_S10000x40_S200x40_1_0_0_1_n_n 10000 rfl rfl).symm k) = ix2 i k := funext fun x => Fin.ext (by
    match x with
    | ⟨0, _⟩ => exact lhs_d_0 _ _
    | ⟨1, _⟩ => exact (lhs_d_1 _ _).trans hk)
  have er : dot_S200x10000_S10000x40_S200x40_1_0_0_1_n_n.rhsIdx (ix2 i j) ((contrEquiv1 dot_S200x10000_S10000x40_S200x40_1_0_0_1_n_n 10000 rfl rfl).symm k) = ix2 k j := funext fun x => Fin.ext (by
    match x with
    | ⟨0, _⟩ => exact (rhs_d_0 _ _).trans hk
    | ⟨1, _⟩ => exact rhs_d_1 _ _)
  rw [el, er]

/-! ## The stored values at an entry -/

/-- First call, either half: row `r` of one input plane against column `h` of the weight. -/
theorem pay0_1_apply (v0 : Vec Ideal S1x2000x256 .f32) (v2 : Vec Ideal S256x256 .f32) (r : Fin 2000) (h : Fin 256) :
    k0_pay1 (F := Ideal) v0 v2 (ix2 r h) = ∑ f : Fin 256, v0 (ix3 (0 : Fin 1) r f) * v2 (ix2 f h) := by
  unfold k0_pay1
  rw [truncf_apply, mm_a_apply]
  refine Finset.sum_congr rfl fun f _ => ?_
  rw [shapeCast_1ab_ab_apply]

theorem pay0_2_apply (v6 : Vec Ideal S1x2000x256 .f32) (v8 : Vec Ideal S256x256 .f32) (r : Fin 2000) (h : Fin 256) :
    k0_pay2 (F := Ideal) v6 v8 (ix2 r h) = ∑ f : Fin 256, v6 (ix3 (0 : Fin 1) r f) * v8 (ix2 f h) := by
  unfold k0_pay2
  rw [truncf_apply, mm_a_apply]
  refine Finset.sum_congr rfl fun f _ => ?_
  rw [shapeCast_1ab_ab_apply]

/-- Second call: aggregate over all rows, add the row's own entry and the bias, clamp, project. -/
theorem pay1_1_apply (v0 : Vec Ideal S200x10000 .f32) (v2 : Vec Ideal S10000x512 .bf16) (v5 : Vec Ideal S200x512 .bf16)
    (v9 : Vec Ideal S1x512 .f32) (v15 : Vec Ideal S512x40 .f32) (r : Fin 200) (o : Fin 40) :
    k1_pay1 (F := Ideal) v0 v2 v5 v9 v15 (ix2 r o)
      = ∑ q : Fin 512, max (((∑ n' : Fin 10000, v0 (ix2 r n') * v2 (ix2 n' q)) + v5 (ix2 r q)) + v9 (ix2 (0 : Fin 1) q)) 0 * v15 (ix2 q o) := by
  unfold k1_pay1
  rw [mm_c_apply]
  refine Finset.sum_congr rfl fun q _ => ?_
  rw [maximumf_apply, addf_apply, addf_apply, mm_b_apply, extf_apply, broadcast_apply, broadcastTo_1b_ab_apply,
    shapeCast_self, shapeCast_self, shapeCast_self]
  have hz : (FloatOps.ofBits .f32 0x00000000#32 : Ideal .f32) = 0 := Ideal.ofBits_zero_f32
  rw [hz]
  simp only [truncf_apply]

/-- Third call: aggregate over all rows, add the row's own entry and the bias. -/
theorem pay2_1_apply (v0 : Vec Ideal S200x10000 .f32) (v2 : Vec Ideal S10000x40 .f32) (v6 : Vec Ideal S200x40 .f32)
    (v9 : Vec Ideal S1x40 .f32) (r : Fin 200) (o : Fin 40) :
    k2_pay1 (F := Ideal) v0 v2 v6 v9 (ix2 r o)
      = ((∑ n' : Fin 10000, v0 (ix2 r n') * v2 (ix2 n' o)) + v6 (ix2 r o)) + v9 (ix2 (0 : Fin 1) o) := by
  unfold k2_pay1
  rw [addf_apply, addf_apply, mm_d_apply, broadcastTo_1b_ab_apply, shapeCast_self, shapeCast_self, shapeCast_self]
  simp only [truncf_apply]

end Cert.KernelIdeal.Hand

end
-- ==== Proof.Spec.lean ====
/-
  The two programs as functions of the six argument arrays, entry by entry, on the extended reals.

  Notation: x[k,n,f] (2 × 10000 × 256), hg[n,n'] (10000 × 10000), w1[f,h] (256 × 256), b1[h], w2[q,o] (512 × 40), b2[o];
  a column q < 512 of the concatenated hidden width splits as q = 256·k + h with k = q / 256, h = q % 256.

  Kernel side (three passes):
    v[n,q]   = Σ_f x[k,n,f] · w1[f,h]
    u[n,o]   = Σ_q max (((Σ_n' hg[n,n'] · v[n',q]) + v[n,q]) + b1[h]) 0 · w2[q,o]
    out[n,o] = ((Σ_n' hg[n,n'] · u[n',o]) + u[n,o]) + b2[o]
  Reference side (two hypergraph convolutions):
    c[n,q]   = max ((Σ_f (x[k,n,f] + Σ_n' hg[n,n'] · x[k,n',f]) · w1[f,h]) + b1[h]) 0
    ref[n,o] = (Σ_q (c[n,q] + Σ_n' hg[n,n'] · c[n',q]) · w2[q,o]) + b2[o]
-/
import Idealize.ShloMosaic.PureOps.Ideal
import Idealize.ShloMosaic.Lib.ValueIdx

noncomputable section

open scoped BigOperators

namespace Cert.Spec

open Idealize.ShloMosaic Idealize.ShloMosaic.ValueIdx

/-- Which of the two stacked inputs a hidden column belongs to. -/
def kOf (q : Fin 512) : Fin 2 := ⟨q.val / 256, by have := q.isLt; omega⟩
/-- The column inside that input's hidden block. -/
def hOf (q : Fin 512) : Fin 256 := ⟨q.val % 256, Nat.mod_lt _ (by decide)⟩

abbrev XIdx := (⟨3, ![2, 10000, 256]⟩ : Shape).Idx
abbrev HgIdx := (⟨2, ![10000, 10000]⟩ : Shape).Idx
abbrev W1Idx := (⟨2, ![256, 256]⟩ : Shape).Idx
abbrev B1Idx := (⟨1, ![256]⟩ : Shape).Idx
abbrev W2Idx := (⟨2, ![512, 40]⟩ : Shape).Idx
abbrev B2Idx := (⟨1, ![40]⟩ : Shape).Idx
abbrev VIdx := (⟨2, ![10000, 512]⟩ : Shape).Idx
abbrev OIdx := (⟨2, ![10000, 40]⟩ : Shape).Idx

variable (x : XIdx → EReal) (hg : HgIdx → EReal) (w1 : W1Idx → EReal) (b1 : B1Idx → EReal)
  (w2 : W2Idx → EReal) (b2 : B2Idx → EReal)

/-- Every entry of an array of extended reals is a real number (neither infinity). -/
def IsReal {ι : Type} (a : ι → EReal) : Prop := ∀ i, ∃ r : ℝ, a i = (r : EReal)

/-! ## The kernel's three passes -/

/-- First pass: both inputs times the first weight, side by side. -/
def vAt (n : Fin 10000) (q : Fin 512) : EReal := ∑ f : Fin 256, x (ix3 (kOf q) n f) * w1 (ix2 f (hOf q))
def vArr : VIdx → EReal := fun j => vAt x w1 (j 0) (j 1)

/-- The first bias laid out over the concatenated width. -/
def b1cAt (q : Fin 512) : EReal := b1 (ix1 (hOf q))

/-- Second pass, before the second weight: aggregate, add self and bias, clamp at zero. -/
def hidAt (v : VIdx → EReal) (n : Fin 10000) (q : Fin 512) : EReal :=
  max (((∑ n' : Fin 10000, hg (ix2 n n') * v (ix2 n' q)) + v (ix2 n q)) + b1cAt b1 q) 0
def uAt (v : VIdx → EReal) (n : Fin 10000) (o : Fin 40) : EReal := ∑ q : Fin 512, hidAt hg b1 v n q * w2 (ix2 q o)
def uArr (v : VIdx → EReal) : OIdx → EReal := fun j => uAt hg b1 w2 v (j 0) (j 1)

/-- Third pass: aggregate the projected rows, add self and the second bias. -/
def outAt (u : OIdx → EReal) (n : Fin 10000) (o : Fin 40) : EReal :=
  ((∑ n' : Fin 10000, hg (ix2 n n') * u (ix2 n' o)) + u (ix2 n o)) + b2 (ix1 o)
def outArr (u : OIdx → EReal) : OIdx → EReal := fun j => outAt hg b2 u (j 0) (j 1)

/-- The kernel's result as one function of the six arguments. -/
def kernelOut : OIdx → EReal := outArr hg b2 (uArr hg b1 w2 (vArr x w1))

/-! ## The reference's two convolutions -/

/-- One hidden unit of the first convolution on input `k`. -/
def refHidAt (k : Fin 2) (n : Fin 10000) (h : Fin 256) : EReal :=
  max ((∑ f : Fin 256, (x (ix3 k n f) + ∑ n' : Fin 10000, hg (ix2 n n') * x (ix3 k n' f)) * w1 (ix2 f h)) + b1 (ix1 h)) 0
/-- The two hidden blocks concatenated along the width. -/
def refCatAt (n : Fin 10000) (q : Fin 512) : EReal := refHidAt x hg w1 b1 (kOf q) n (hOf q)
def refOutAt (n : Fin 10000) (o : Fin 40) : EReal :=
  (∑ q : Fin 512, (refCatAt x hg w1 b1 n q + ∑ n' : Fin 10000, hg (ix2 n n') * refCatAt x hg w1 b1 n' q) * w2 (ix2 q o)) + b2 (ix1 o)
/-- The reference's result as one function of the six arguments. -/
def referenceOut : OIdx → EReal := fun j => refOutAt x hg w1 b1 w2 b2 (j 0) (j 1)

end Cert.Spec

end
-- ==== Proof.KI.Val0.lean ====
/-
  What the first pallas_call leaves in its result array, on the extended reals: the five row blocks written back cover
  the array, and entry (n, q) is row n of input q / 256 against column q % 256 of the first weight.
-/
import proofs.«111276_g21131239096597_cont_8to1_6_3_alg».proof.Proof.KI.Body0
import proofs.«111276_g21131239096597_cont_8to1_6_3_alg».proof.Proof.KI.Pay
import proofs.«111276_g21131239096597_cont_8to1_6_3_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the core's buffer contents when the call is entered, on the extended reals
variable (V : (c : Dev nD) → (b : Ref sig .tc) → Buf (Elt Ideal) ((c : Thread nD τ).loc b))

/-! ## The block indices over the grid -/

/-- At point t the stacked inputs' block index is (0, t, 0), the weight's (0, 0), the output's (t, 0); there are
    five points. -/
theorem idx0 : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-! ## The input blocks as parts of their arrays -/

/-- The stacked inputs' block at point t holds rows 2000 t … 2000 t + 1999 of both planes. -/
theorem iblk0_0_apply (c : Dev nD) (t : Fin cfg0.N) (y : S2x2000x256.Idx) (k : S2x10000x256.Idx)
    (h0 : (k 0).val = (y 0).val) (h1 : (k 1).val = 2000 * t.val + (y 1).val) (h2 : (k 2).val = (y 2).val) :
    (iblk0 V c 0 t : Vec Ideal S2x2000x256 .f32) y = (V c main_arg0 : S2x10000x256.Idx → EReal) k := by
  obtain ⟨e0, e1, e2, -⟩ := idx0 t
  unfold iblk0
  rw [View.read_apply]
  show V c main_arg0 _ = V c main_arg0 _
  refine congrArg _ ?_
  funext a
  apply Fin.ext
  match a with
  | ⟨0, _⟩ => show win0_0.index t (0 : Fin 3) * 2 + 1 * (y 0).val = (k 0).val; rw [e0, h0]; omega
  | ⟨1, _⟩ => show win0_0.index t (1 : Fin 3) * 2000 + 1 * (y 1).val = (k 1).val; rw [e1, h1]; omega
  | ⟨2, _⟩ => show win0_0.index t (2 : Fin 3) * 256 + 1 * (y 2).val = (k 2).val; rw [e2, h2]; omega

/-- The weight's block at every point is the whole weight. -/
theorem iblk0_1_apply (c : Dev nD) (t : Fin cfg0.N) (y : S256x256.Idx) :
    (iblk0 V c 1 t : Vec Ideal S256x256 .f32) y = (V c main_arg2 : S256x256.Idx → EReal) y := by
  obtain ⟨-, -, -, e0, e1, -⟩ := idx0 t
  unfold iblk0
  rw [View.read_apply]
  show V c main_arg2 _ = V c main_arg2 _
  refine congrArg _ ?_
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-! ## The output block after the body, entry by entry -/

/-- The whole weight's rectangle starts at the origin. -/
theorem r0_w_off : (![0, 0] : Fin 2 → Nat) = fun _ => 0 := funext fun a => by fin_cases a <;> rfl

/-- An entry of the left half: plane 0's row against the weight's column. -/
theorem out0_2_lo (x0 : Vec Ideal S2x2000x256 .f32) (x1 : Vec Ideal S256x256 .f32) (r : Fin 2000) (h : Fin 256) :
    out0_2 x0 x1 (r0_lo.emb (ix2 r h)) = ∑ f : Fin 256, x0 (ix3 (0 : Fin 2) r f) * x1 (ix2 f h) := by
  have hn : r0_lo.emb (ix2 r h) ∉ r0_hi.set := by
    rw [Rect.mem_set_unit]
    intro hm
    have h1 : (256 : Nat) ≤ 0 + 1 * h.val := (hm 1).1
    have := h.isLt
    omega
  unfold out0_2
  rw [View.canon_cons_of_not_mem ⟨r0_hi, _⟩ _ hn, View.canon_cons_emb, pay0_1_apply]
  refine Finset.sum_congr rfl fun f _ => ?_
  rw [View.ld_unit_zero r0_w_off]
  refine congrArg (· * _) (congrArg x0 ?_)
  funext a
  apply Fin.ext
  match a with
  | ⟨0, _⟩ => rfl
  | ⟨1, _⟩ => show 0 + 1 * r.val = r.val; omega
  | ⟨2, _⟩ => show 0 + 1 * f.val = f.val; omega

/-- An entry of the right half: plane 1's row against the weight's column. -/
theorem out0_2_hi (x0 : Vec Ideal S2x2000x256 .f32) (x1 : Vec Ideal S256x256 .f32) (r : Fin 2000) (h : Fin 256) :
    out0_2 x0 x1 (r0_hi.emb (ix2 r h)) = ∑ f : Fin 256, x0 (ix3 (1 : Fin 2) r f) * x1 (ix2 f h) := by
  unfold out0_2
  rw [View.canon_cons_emb, pay0_2_apply]
  refine Finset.sum_congr rfl fun f _ => ?_
  rw [View.ld_unit_zero r0_w_off]
  refine congrArg (· * _) (congrArg x0 ?_)
  funext a
  apply Fin.ext
  match a with
  | ⟨0, _⟩ => rfl
  | ⟨1, _⟩ => show 0 + 1 * r.val = r.val; omega
  | ⟨2, _⟩ => show 0 + 1 * f.val = f.val; omega

/-- The output block after the body, entry by entry: column q belongs to input q / 256 and weight column q % 256. -/
theorem out0_2_apply (x0 : Vec Ideal S2x2000x256 .f32) (x1 : Vec Ideal S256x256 .f32) (r : Fin 2000) (q : Fin 512) :
    out0_2 x0 x1 (ix2 r q) = ∑ f : Fin 256, x0 (ix3 (Cert.Spec.kOf q) r f) * x1 (ix2 f (Cert.Spec.hOf q)) := by
  by_cases hq : q.val < 256
  · have e : (ix2 r q : S2000x512.Idx) = r0_lo.emb (ix2 r (⟨q.val, hq⟩ : Fin 256)) := funext fun a => Fin.ext (by
      match a with
      | ⟨0, _⟩ => show r.val = 0 + 1 * r.val; omega
      | ⟨1, _⟩ => show q.val = 0 + 1 * q.val; omega)
    have ek : Cert.Spec.kOf q = (0 : Fin 2) := Fin.ext (by show q.val / 256 = 0; omega)
    have eh : Cert.Spec.hOf q = (⟨q.val, hq⟩ : Fin 256) := Fin.ext (by show q.val % 256 = q.val; omega)
    rw [e, out0_2_lo, ek, eh]
  · have hq' : q.val - 256 < 256 := by have := q.isLt; omega
    have e : (ix2 r q : S2000x512.Idx) = r0_hi.emb (ix2 r (⟨q.val - 256, hq'⟩ : Fin 256)) := funext fun a => Fin.ext (by
      match a with
      | ⟨0, _⟩ => show r.val = 0 + 1 * r.val; omega
      | ⟨1, _⟩ => show q.val = 256 + 1 * (q.val - 256); omega)
    have ek : Cert.Spec.kOf q = (1 : Fin 2) := Fin.ext (by show q.val / 256 = 1; have := q.isLt; omega)
    have eh : Cert.Spec.hOf q = (⟨q.val - 256, hq'⟩ : Fin 256) := Fin.ext (by show q.val % 256 = q.val - 256; omega)
    rw [e, out0_2_hi, ek, eh]

/-! ## From the blocks to the array -/

/-- What point t writes back is block t of the first-pass array. -/
theorem flushed0_2_eq (c : Dev nD) (t : Fin cfg0.N) :
    (dat0 (F := Ideal) V c).flushed 2 t
      = ((cfg0.win 2).blk t).view.read (Elt Ideal) (Cert.Spec.vArr (V c main_arg0) (V c main_arg2)) := by
  show (cfg0.win 2).cut (grid0.coords t) ((dat0 V c).after 2 t) = _
  rw [after0_2]
  obtain ⟨-, -, -, -, -, e0, e1, ht⟩ := idx0 t
  funext j
  obtain ⟨r, q, rfl⟩ : ∃ (r : Fin 2000) (q : Fin 512), j = ix2 r q := ⟨j 0, j 1, eq_ix2 j⟩
  have hn : 2000 * t.val + r.val < 10000 := by have := r.isLt; omega
  have hE : ((cfg0.win 2).blk t).view.emb (ix2 r q) = (ix2 (⟨2000 * t.val + r.val, hn⟩ : Fin 10000) q : S10000x512.Idx) := by
    funext a
    apply Fin.ext
    match a with
    | ⟨0, _⟩ => show win0_2.index t (0 : Fin 2) * 2000 + 1 * r.val = 2000 * t.val + r.val; rw [e0]; omega
    | ⟨1, _⟩ => show win0_2.index t (1 : Fin 2) * 512 + 1 * q.val = q.val; rw [e1]; omega
  show out0_2 (iblk0 V c 0 t) (iblk0 V c 1 t) (ix2 r q)
    = Cert.Spec.vArr (V c main_arg0) (V c main_arg2) (((cfg0.win 2).blk t).view.emb (ix2 r q))
  rw [hE, out0_2_apply]
  show _ = Cert.Spec.vAt (V c main_arg0) (V c main_arg2) (⟨2000 * t.val + r.val, hn⟩ : Fin 10000) q
  unfold Cert.Spec.vAt
  refine Finset.sum_congr rfl fun f _ => ?_
  rw [iblk0_1_apply, iblk0_0_apply V c t (ix3 (Cert.Spec.kOf q) r f)
    (ix3 (Cert.Spec.kOf q) (⟨2000 * t.val + r.val, hn⟩ : Fin 10000) f) rfl rfl rfl]

/-- An index of the array is in point t's block iff each coordinate is in the block's range on its axis. -/
theorem mem_blk0_2 (t : Fin cfg0.N) (i : S10000x512.Idx) :
    i ∈ ((cfg0.win 2).blk t).view.set
      ↔ ∀ a : Fin 2, win0_2.index t a * S2000x512.size a ≤ (i a).val
          ∧ (i a).val < win0_2.index t a * S2000x512.size a + S2000x512.size a := by
  show i ∈ ((View.whole main_v5).slice (win0_2.rect t)).set ↔ _
  rw [View.set_slice_whole, Rect.mem_set_unit]
  exact Iff.rfl

/-- Row n of the array lies in the block of point n / 2000. -/
theorem cover0_2_arr (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 5 := N_0
  let t : Fin cfg0.N := ⟨(i 0).val / 2000, by rw [hN]; omega⟩
  obtain ⟨-, -, -, -, -, e0, e1, -⟩ := idx0 t
  have tv : t.val = (i 0).val / 2000 := rfl
  refine ⟨t, flush0_2 t, ?_⟩
  rw [mem_blk0_2]
  intro a
  match a with
  | ⟨0, _⟩ =>
    show win0_2.index t (0 : Fin 2) * 2000 ≤ (i 0).val ∧ (i 0).val < win0_2.index t (0 : Fin 2) * 2000 + 2000
    rw [e0, tv]; omega
  | ⟨1, _⟩ =>
    show win0_2.index t (1 : Fin 2) * 512 ≤ (i 1).val ∧ (i 1).val < win0_2.index t (1 : Fin 2) * 512 + 512
    rw [e1]; omega

/-- The first call's result array after its last grid point is the first-pass array of the entry contents. -/
theorem arr0_eq (c : Dev nD) :
    (dat0 (F := Ideal) V c).arrAt 2 cfg0.N = Cert.Spec.vArr (V c main_arg0) (V c main_arg2) :=
  (dat0 (F := Ideal) V c).arrAt_eq_of_cover 2 (Cert.Spec.vArr (V c main_arg0) (V c main_arg2))
    (fun t _ => flushed0_2_eq V c t) cover0_2_arr

end Cert.KernelIdeal.Hand

end
-- ==== Proof.KI.Val1.lean ====
/-
  What the second pallas_call leaves in its result array, on the extended reals: the fifty row blocks written back cover
  the array, and entry (n, o) aggregates the whole first-pass array through row n of the incidence matrix, adds row n
  itself and the tiled bias, clamps at zero and projects by column o of the second weight.
-/
import proofs.«111276_g21131239096597_cont_8to1_6_3_alg».proof.Proof.KI.Body1
import proofs.«111276_g21131239096597_cont_8to1_6_3_alg».proof.Proof.KI.Pay
import proofs.«111276_g21131239096597_cont_8to1_6_3_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the core's buffer contents when the call is entered, on the extended reals
variable (V : (c : Dev nD) → (b : Ref sig .tc) → Buf (Elt Ideal) ((c : Thread nD τ).loc b))

/-- The offset vector of a whole-buffer access is the zero vector. -/
theorem offs1_zero : (![0, 0] : Fin 2 → Nat) = fun _ => 0 := funext fun a => by
  match a with
  | ⟨0, _⟩ => rfl
  | ⟨1, _⟩ => rfl

/-- The six index maps over the fifty grid points: the incidence rows, the first-pass rows and the output rows move with
    the point (block row `t`, block column 0); the whole first-pass array, the bias row and the weight stay at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block as entries of its array -/

/-- Block `t` of the incidence matrix is its rows `200 t … 200 t + 199`. -/
theorem iblk1_0_apply (c : Dev nD) (t : Fin cfg1.N) (x : S200x10000.Idx) (k : S10000x10000.Idx)
    (hk0 : (k 0).val = 200 * t.val + (x 0).val) (hk1 : (k 1).val = (x 1).val) :
    (iblk1 V c 0 t : Vec Ideal S200x10000 .f32) x = (V c main_arg1 : S10000x10000.Idx → Elt Ideal .f32) k := by
  obtain ⟨e0, e1, -⟩ := idx_facts1 t
  unfold iblk1
  rw [View.read_apply]
  show V c main_arg1 _ = V c main_arg1 _
  congr 1
  funext a
  apply Fin.ext
  match a with
  | ⟨0, _⟩ => show win1_0.index t 0 * 200 + 1 * (x 0).val = (k 0).val; rw [e0, hk0]; omega
  | ⟨1, _⟩ => show win1_0.index t 1 * 10000 + 1 * (x 1).val = (k 1).val; rw [e1, hk1]; omega

/-- The second window's block is the whole first-pass array at every point. -/
theorem iblk1_1_apply (c : Dev nD) (t : Fin cfg1.N) (x : S10000x512.Idx) :
    (iblk1 V c 1 t : Vec Ideal S10000x512 .bf16) x = (V c main_v5 : S10000x512.Idx → Elt Ideal .bf16) x := by
  obtain ⟨-, -, e0, e1, -⟩ := idx_facts1 t
  unfold iblk1
  rw [View.read_apply]
  show V c main_v5 _ = V c main_v5 _
  congr 1
  funext a
  apply Fin.ext
  match a with
  | ⟨0, _⟩ => show win1_1.index t 0 * 10000 + 1 * (x 0).val = (x 0).val; rw [e0]; omega
  | ⟨1, _⟩ => show win1_1.index t 1 * 512 + 1 * (x 1).val = (x 1).val; rw [e1]; omega

/-- The third window's block `t` is rows `200 t … 200 t + 199` of the first-pass array. -/
theorem iblk1_2_apply (c : Dev nD) (t : Fin cfg1.N) (x : S200x512.Idx) (k : S10000x512.Idx)
    (hk0 : (k 0).val = 200 * t.val + (x 0).val) (hk1 : (k 1).val = (x 1).val) :
    (iblk1 V c 2 t : Vec Ideal S200x512 .bf16) x = (V c main_v5 : S10000x512.Idx → Elt Ideal .bf16) k := by
  obtain ⟨-, -, -, -, e0, e1, -⟩ := idx_facts1 t
  unfold iblk1
  rw [View.read_apply]
  show V c main_v5 _ = V c main_v5 _
  congr 1
  funext a
  apply Fin.ext
  match a with
  | ⟨0, _⟩ => show win1_2.index t 0 * 200 + 1 * (x 0).val = (k 0).val; rw [e0, hk0]; omega
  | ⟨1, _⟩ => show win1_2.index t 1 * 512 + 1 * (x 1).val = (k 1).val; rw [e1, hk1]; omega

/-- The fourth window's block is the whole bias row at every point. -/
theorem iblk1_3_apply (c : Dev nD) (t : Fin cfg1.N) (x : S1x512.Idx) :
    (iblk1 V c 3 t : Vec Ideal S1x512 .f32) x = (V c main_v3 : S1x512.Idx → Elt Ideal .f32) x := by
  obtain ⟨-, -, -, -, -, -, e0, e1, -⟩ := idx_facts1 t
  unfold iblk1
  rw [View.read_apply]
  show V c main_v3 _ = V c main_v3 _
  congr 1
  funext a
  apply Fin.ext
  match a with
  | ⟨0, _⟩ => show win1_3.index t 0 * 1 + 1 * (x 0).val = (x 0).val; rw [e0]; omega
  | ⟨1, _⟩ => show win1_3.index t 1 * 512 + 1 * (x 1).val = (x 1).val; rw [e1]; omega

/-- The fifth window's block is the whole second weight at every point. -/
theorem iblk1_4_apply (c : Dev nD) (t : Fin cfg1.N) (x : S512x40.Idx) :
    (iblk1 V c 4 t : Vec Ideal S512x40 .f32) x = (V c main_arg4 : S512x40.Idx → Elt Ideal .f32) x := by
  obtain ⟨-, -, -, -, -, -, -, -, e0, e1, -⟩ := idx_facts1 t
  unfold iblk1
  rw [View.read_apply]
  show V c main_arg4 _ = V c main_arg4 _
  congr 1
  funext a
  apply Fin.ext
  match a with
  | ⟨0, _⟩ => show win1_4.index t 0 * 512 + 1 * (x 0).val = (x 0).val; rw [e0]; omega
  | ⟨1, _⟩ => show win1_4.index t 1 * 40 + 1 * (x 1).val = (x 1).val; rw [e1]; omega

/-! ## The stored block is a block of the specification -/

/-- The payload of five blocks that are, entry by entry, the rows `n` of the incidence matrix and of the first-pass array,
    the whole first-pass array, the tiled bias and the weight, is at `(r, o)` the specification's entry `(n r, o)`. -/
theorem pay1_is_uAt (x0 : Vec Ideal S200x10000 .f32) (x1 : Vec Ideal S10000x512 .bf16) (x2 : Vec Ideal S200x512 .bf16)
    (x3 : Vec Ideal S1x512 .f32) (x4 : Vec Ideal S512x40 .f32)
    (hg : Cert.Spec.HgIdx → EReal) (b1 : Cert.Spec.B1Idx → EReal) (w2 : Cert.Spec.W2Idx → EReal) (v : Cert.Spec.VIdx → EReal)
    (r : Fin 200) (o : Fin 40) (n : Fin 10000)
    (h0 : ∀ n' : Fin 10000, x0 (ix2 r n') = hg (ix2 n n'))
    (h1 : ∀ (n' : Fin 10000) (q : Fin 512), x1 (ix2 n' q) = v (ix2 n' q))
    (h2 : ∀ q : Fin 512, x2 (ix2 r q) = v (ix2 n q))
    (h3 : ∀ q : Fin 512, x3 (ix2 (0 : Fin 1) q) = Cert.Spec.b1cAt b1 q)
    (h4 : ∀ q : Fin 512, x4 (ix2 q o) = w2 (ix2 q o)) :
    k1_pay1 (F := Ideal) x0 x1 x2 x3 x4 (ix2 r o) = Cert.Spec.uAt hg b1 w2 v n o := by
  rw [pay1_1_apply]
  unfold Cert.Spec.uAt Cert.Spec.hidAt
  refine Finset.sum_congr rfl fun q _ => ?_
  rw [h2, h3, h4, Finset.sum_congr rfl fun n' _ => by rw [h0 n', h1 n' q]]

/-- What point `t` stores, at block entry `(r, o)`, is the specification's entry `(200 t + r, o)`. -/
theorem stored1_apply (c : Dev nD) (b1 : Cert.Spec.B1Idx → EReal)
    (hb : ∀ q : Fin 512, V c main_v3 (ix2 (0 : Fin 1) q) = Cert.Spec.b1cAt b1 q)
    (t : Fin cfg1.N) (j : S200x40.Idx) (i : S10000x40.Idx)
    (hi0 : (i 0).val = 200 * t.val + (j 0).val) (hi1 : (i 1).val = (j 1).val) :
    k1_pay1 (F := Ideal) (iblk1 V c 0 t) (iblk1 V c 1 t) (iblk1 V c 2 t) (iblk1 V c 3 t) (iblk1 V c 4 t) j
      = Cert.Spec.uArr (V c main_arg1) b1 (V c main_arg4) (V c main_v5) i := by
  obtain ⟨r, o, rfl⟩ : ∃ (r : Fin 200) (o : Fin 40), j = ix2 r o := ⟨j 0, j 1, eq_ix2 j⟩
  obtain ⟨n, o', rfl⟩ : ∃ (n : Fin 10000) (o' : Fin 40), i = ix2 n o' := ⟨i 0, i 1, eq_ix2 i⟩
  have hn : n.val = 200 * t.val + r.val := hi0
  have ho : o' = o := Fin.ext hi1
  rw [ho]
  show _ = Cert.Spec.uAt (V c main_arg1) b1 (V c main_arg4) (V c main_v5) n o
  refine pay1_is_uAt _ _ _ _ _ _ b1 _ _ r o n ?_ ?_ ?_ ?_ ?_
  · intro n'
    exact iblk1_0_apply V c t (ix2 r n') (ix2 n n') hn rfl
  · intro n' q
    exact iblk1_1_apply V c t (ix2 n' q)
  · intro q
    exact iblk1_2_apply V c t (ix2 r q) (ix2 n q) hn rfl
  · intro q
    exact (iblk1_3_apply V c t (ix2 (0 : Fin 1) q)).trans (hb q)
  · intro q
    exact iblk1_4_apply V c t (ix2 q o)

/-- What point `t` writes back is block `t` of the specification's array. -/
theorem flushed1_5_eq (c : Dev nD) (b1 : Cert.Spec.B1Idx → EReal)
    (hb : ∀ q : Fin 512, V c main_v3 (ix2 (0 : Fin 1) q) = Cert.Spec.b1cAt b1 q) (t : Fin cfg1.N) :
    (dat1 (F := Ideal) V c).flushed 5 t
      = ((cfg1.win 5).blk t).view.read (Elt Ideal) (Cert.Spec.uArr (V c main_arg1) b1 (V c main_arg4) (V c main_v5)) := by
  show (cfg1.win 5).cut (grid1.coords t) ((dat1 V c).after 5 t) = _
  rw [after1_5]
  unfold out1_5
  rw [View.canon_unit_zero offs1_zero]
  simp only [View.ld_unit_zero (S := S200x10000) offs1_zero, View.ld_unit_zero (S := S10000x512) offs1_zero,
    View.ld_unit_zero (S := S200x512) offs1_zero, View.ld_unit_zero (S := S1x512) offs1_zero, View.ld_unit_zero (S := S512x40) offs1_zero]
  obtain ⟨-, -, -, -, -, -, -, -, -, -, e0, e1⟩ := idx_facts1 t
  funext j
  rw [View.read_apply]
  refine stored1_apply V c b1 hb t _ _ ?_ ?_
  · show win1_5.index t 0 * 200 + 1 * (j 0).val = 200 * t.val + (j 0).val
    rw [e0]; omega
  · show win1_5.index t 1 * 40 + 1 * (j 1).val = (j 1).val
    rw [e1]; omega

/-! ## The fifty blocks cover the array -/

/-- An entry is in point `t`'s block iff each coordinate is in the block's range on its axis. -/
theorem mem_blk1_5 (t : Fin cfg1.N) (i : S10000x40.Idx) :
    i ∈ ((cfg1.win 5).blk t).view.set
      ↔ ∀ a : Fin 2, win1_5.index t a * S200x40.size a ≤ (i a).val ∧ (i a).val < win1_5.index t a * S200x40.size a + S200x40.size a := by
  show i ∈ ((View.whole main_v6).slice (win1_5.rect t)).set ↔ _
  rw [View.set_slice_whole, Rect.mem_set_unit]
  exact Iff.rfl

/-- Row `n` lies in the block of point `n / 200`. -/
theorem cover1_5_arr (i : S10000x40.Idx) :
    ∃ t : Fin cfg1.N, (cfg1.win 5).flush t = true ∧ i ∈ ((cfg1.win 5).blk t).view.set := by
  have h0 : (i 0).val < 10000 := (i 0).isLt
  have h1 : (i 1).val < 40 := (i 1).isLt
  have hN : cfg1.N = 50 := N_1
  let t : Fin cfg1.N := ⟨(i 0).val / 200, by rw [hN]; omega⟩
  have ht : t.val = (i 0).val / 200 := rfl
  obtain ⟨-, -, -, -, -, -, -, -, -, -, e0, e1⟩ := idx_facts1 t
  refine ⟨t, flush1_5 t, ?_⟩
  rw [mem_blk1_5]
  intro a
  match a with
  | ⟨0, _⟩ =>
    show win1_5.index t 0 * 200 ≤ (i 0).val ∧ (i 0).val < win1_5.index t 0 * 200 + 200
    rw [e0, ht]; omega
  | ⟨1, _⟩ =>
    show win1_5.index t 1 * 40 ≤ (i 1).val ∧ (i 1).val < win1_5.index t 1 * 40 + 40
    rw [e1]; omega

/-- The second call's result array after its last grid point, when the bias row it was handed is the first bias tiled
    over the concatenated width. -/
theorem arr1_eq (c : Dev nD) (b1 : Cert.Spec.B1Idx → EReal)
    (hb : ∀ q : Fin 512, V c main_v3 (ix2 (0 : Fin 1) q) = Cert.Spec.b1cAt b1 q) :
    (dat1 (F := Ideal) V c).arrAt 5 cfg1.N = Cert.Spec.uArr (V c main_arg1) b1 (V c main_arg4) (V c main_v5) :=
  (dat1 (F := Ideal) V c).arrAt_eq_of_cover 5 (Cert.Spec.uArr (V c main_arg1) b1 (V c main_arg4) (V c main_v5))
    (fun t _ => flushed1_5_eq V c b1 hb t) cover1_5_arr

end Cert.KernelIdeal.Hand

end
-- ==== Proof.KI.Val2.lean ====
/-
  What the third pallas_call leaves in its result array, on the extended reals: the fifty row blocks written back cover
  the array, and entry (n, o) aggregates the whole projected array through row n of the incidence matrix, adds row n
  itself and the second bias.
-/
import proofs.«111276_g21131239096597_cont_8to1_6_3_alg».proof.Proof.KI.Body2
import proofs.«111276_g21131239096597_cont_8to1_6_3_alg».proof.Proof.KI.Pay
import proofs.«111276_g21131239096597_cont_8to1_6_3_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the core's buffer contents when the call is entered, on the extended reals
variable (V : (c : Dev nD) → (b : Ref sig .tc) → Buf (Elt Ideal) ((c : Thread nD τ).loc b))

/-! ## Where each window's block sits at a grid point -/

/-- The body's loads and its store start at the origin of their staging buffers. -/
theorem off2_zero : (![0, 0] : Fin 2 → Nat) = fun _ => 0 := funext fun a => by fin_cases a <;> rfl

/-- The block indices at grid point `t`, decided over the fifty points: the incidence rows, the projected rows and the
    result rows are at row block `t`; the whole projected array and the bias row are at block (0, 0). -/
theorem index2_facts : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = t.val ∧ win2_2.index t (1 : Fin 2) = 0
  ∧ win2_3.index t (0 : Fin 2) = 0 ∧ win2_3.index t (1 : Fin 2) = 0
  ∧ win2_4.index t (0 : Fin 2) = t.val ∧ win2_4.index t (1 : Fin 2) = 0 :=
  (by decide +kernel : ∀ t : Fin grid2.N, _)

/-- Window 0's block at point `t` is rows 200·t … 200·t + 199 of the incidence matrix: block entry `y` is the matrix's
    entry `i` whenever `i` is `y` shifted down by 200·t rows. -/
theorem iblk2_0_rows (c : Dev nD) (t : Fin cfg2.N) (y : S200x10000.Idx) (i : S10000x10000.Idx)
    (hi0 : (i 0).val = t.val * 200 + (y 0).val) (hi1 : (i 1).val = (y 1).val) :
    (iblk2 V c 0 t : Vec Ideal S200x10000 .f32) y = (V c main_arg1 : S10000x10000.Idx → EReal) i := by
  obtain ⟨e00, e01, -⟩ := index2_facts t
  unfold iblk2
  rw [View.read_apply]
  show V c main_arg1 _ = V c main_arg1 _
  congr 1
  funext a; apply Fin.ext
  match a with
  | ⟨0, _⟩ => show win2_0.index t 0 * 200 + 1 * (y 0).val = (i 0).val; rw [e00, hi0]; omega
  | ⟨1, _⟩ => show win2_0.index t 1 * 10000 + 1 * (y 1).val = (i 1).val; rw [e01, hi1]; omega

/-- Window 1's block at every point is the whole projected array. -/
theorem iblk2_1_whole (c : Dev nD) (t : Fin cfg2.N) (y : S10000x40.Idx) :
    (iblk2 V c 1 t : Vec Ideal S10000x40 .f32) y = (V c main_v6 : S10000x40.Idx → EReal) y := by
  obtain ⟨-, -, e10, e11, -⟩ := index2_facts t
  unfold iblk2
  rw [View.read_apply]
  show V c main_v6 _ = V c main_v6 _
  congr 1
  funext a; apply Fin.ext
  match a with
  | ⟨0, _⟩ => show win2_1.index t 0 * 10000 + 1 * (y 0).val = (y 0).val; rw [e10]; omega
  | ⟨1, _⟩ => show win2_1.index t 1 * 40 + 1 * (y 1).val = (y 1).val; rw [e11]; omega

/-- Window 2's block at point `t` is rows 200·t … 200·t + 199 of the projected array. -/
theorem iblk2_2_rows (c : Dev nD) (t : Fin cfg2.N) (y : S200x40.Idx) (i : S10000x40.Idx)
    (hi0 : (i 0).val = t.val * 200 + (y 0).val) (hi1 : (i 1).val = (y 1).val) :
    (iblk2 V c 2 t : Vec Ideal S200x40 .f32) y = (V c main_v6 : S10000x40.Idx → EReal) i := by
  obtain ⟨-, -, -, -, e20, e21, -⟩ := index2_facts t
  unfold iblk2
  rw [View.read_apply]
  show V c main_v6 _ = V c main_v6 _
  congr 1
  funext a; apply Fin.ext
  match a with
  | ⟨0, _⟩ => show win2_2.index t 0 * 200 + 1 * (y 0).val = (i 0).val; rw [e20, hi0]; omega
  | ⟨1, _⟩ => show win2_2.index t 1 * 40 + 1 * (y 1).val = (i 1).val; rw [e21, hi1]; omega

/-- Window 3's block at every point is the whole bias row. -/
theorem iblk2_3_whole (c : Dev nD) (t : Fin cfg2.N) (y : S1x40.Idx) :
    (iblk2 V c 3 t : Vec Ideal S1x40 .f32) y = (V c main_v4 : S1x40.Idx → EReal) y := by
  obtain ⟨-, -, -, -, -, -, e30, e31, -⟩ := index2_facts t
  unfold iblk2
  rw [View.read_apply]
  show V c main_v4 _ = V c main_v4 _
  congr 1
  funext a; apply Fin.ext
  match a with
  | ⟨0, _⟩ => show win2_3.index t 0 * 1 + 1 * (y 0).val = (y 0).val; rw [e30]; omega
  | ⟨1, _⟩ => show win2_3.index t 1 * 40 + 1 * (y 1).val = (y 1).val; rw [e31]; omega

/-! ## One stored entry as the whole-array function -/

/-- The stored value at block row `r`, column `o`, when block row `r` of the incidence block is row `n` of the matrix
    `hg`, the whole-array operand is `u`, block row `r` of the row operand is row `n` of `u`, and the bias row is `b2`:
    the third pass at `(n, o)`. -/
theorem pay2_rows (hg : Cert.Spec.HgIdx → EReal) (u : Cert.Spec.OIdx → EReal) (b2 : Cert.Spec.B2Idx → EReal)
    (x0 : Vec Ideal S200x10000 .f32) (x1 : Vec Ideal S10000x40 .f32) (x2 : Vec Ideal S200x40 .f32) (x3 : Vec Ideal S1x40 .f32)
    (r : Fin 200) (o : Fin 40) (n : Fin 10000)
    (h0 : ∀ k : Fin 10000, x0 (ix2 r k) = hg (ix2 n k))
    (h1 : ∀ k : Fin 10000, x1 (ix2 k o) = u (ix2 k o))
    (h2 : x2 (ix2 r o) = u (ix2 n o))
    (h3 : x3 (ix2 (0 : Fin 1) o) = b2 (ix1 o)) :
    k2_pay1 (F := Ideal) x0 x1 x2 x3 (ix2 r o) = Cert.Spec.outAt hg b2 u n o := by
  rw [pay2_1_apply, h2, h3]
  unfold Cert.Spec.outAt
  congr 2
  exact Finset.sum_congr rfl fun k _ => by rw [h0, h1]

/-- The same over whole indices, at the point whose rows start at 200·T: if the two row-blocked operands read their arrays
    200·T rows down and the two whole operands read theirs in place, the stored block's entry `y` is the whole-array
    function at the array index `i` lying 200·T rows below `y`. -/
theorem stored2_entry (hg : Cert.Spec.HgIdx → EReal) (u : Cert.Spec.OIdx → EReal) (b2 : Cert.Spec.B2Idx → EReal)
    (x0 : Vec Ideal S200x10000 .f32) (x1 : Vec Ideal S10000x40 .f32) (x2 : Vec Ideal S200x40 .f32) (x3 : Vec Ideal S1x40 .f32)
    (T : Nat)
    (h0 : ∀ (y : S200x10000.Idx) (i : S10000x10000.Idx), (i 0).val = T * 200 + (y 0).val → (i 1).val = (y 1).val → x0 y = hg i)
    (h1 : ∀ y : S10000x40.Idx, x1 y = u y)
    (h2 : ∀ (y : S200x40.Idx) (i : S10000x40.Idx), (i 0).val = T * 200 + (y 0).val → (i 1).val = (y 1).val → x2 y = u i)
    (h3 : ∀ o : Fin 40, x3 (ix2 (0 : Fin 1) o) = b2 (ix1 o))
    (y : S200x40.Idx) (i : S10000x40.Idx) (hi0 : (i 0).val = T * 200 + (y 0).val) (hi1 : (i 1).val = (y 1).val) :
    k2_pay1 (F := Ideal) x0 x1 x2 x3 y = Cert.Spec.outArr hg b2 u i := by
  obtain ⟨r, o, rfl⟩ : ∃ (r : Fin 200) (o : Fin 40), y = ix2 r o := ⟨y 0, y 1, eq_ix2 y⟩
  obtain ⟨n, o', rfl⟩ : ∃ (n : Fin 10000) (o' : Fin 40), i = ix2 n o' := ⟨i 0, i 1, eq_ix2 i⟩
  have hn : n.val = T * 200 + r.val := hi0
  obtain rfl : o' = o := Fin.ext hi1
  show _ = Cert.Spec.outAt hg b2 u n o'
  exact pay2_rows hg u b2 x0 x1 x2 x3 r o' n (fun k => h0 (ix2 r k) (ix2 n k) hn rfl) (fun k => h1 (ix2 k o'))
    (h2 (ix2 r o') (ix2 n o') hn rfl) (h3 o')

/-! ## From the fifty row blocks to the array -/

/-- What point `t` writes back is block `t` of the whole-array function of the entry contents. -/
theorem flushed2_eq (c : Dev nD) (b2 : Cert.Spec.B2Idx → EReal)
    (hb : ∀ o : Fin 40, V c main_v4 (ix2 (0 : Fin 1) o) = b2 (ix1 o)) (t : Fin cfg2.N) :
    (dat2 (F := Ideal) V c).flushed 4 t
      = ((cfg2.win 4).blk t).view.read (Elt Ideal) (Cert.Spec.outArr (V c main_arg1) b2 (V c main_v6)) := by
  show (cfg2.win 4).cut (grid2.coords t) ((dat2 V c).after 4 t) = _
  rw [after2_4]
  unfold out2_4
  rw [View.canon_unit_zero off2_zero]
  simp only [View.ld_unit_zero (S := S200x10000) off2_zero, View.ld_unit_zero (S := S10000x40) off2_zero,
    View.ld_unit_zero (S := S200x40) off2_zero, View.ld_unit_zero (S := S1x40) off2_zero]
  obtain ⟨-, -, -, -, -, -, -, -, e40, e41⟩ := index2_facts t
  funext j
  rw [View.read_apply]
  exact stored2_entry (V c main_arg1) (V c main_v6) b2 (iblk2 V c 0 t) (iblk2 V c 1 t) (iblk2 V c 2 t) (iblk2 V c 3 t) t.val
    (fun y i h0 h1 => iblk2_0_rows V c t y i h0 h1) (fun y => iblk2_1_whole V c t y)
    (fun y i h0 h1 => iblk2_2_rows V c t y i h0 h1)
    (fun o => (iblk2_3_whole V c t (ix2 (0 : Fin 1) o)).trans (hb o))
    j (((cfg2.win 4).blk t).view.emb j)
    (show win2_4.index t 0 * 200 + 1 * (j 0).val = t.val * 200 + (j 0).val by rw [e40]; omega)
    (show win2_4.index t 1 * 40 + 1 * (j 1).val = (j 1).val by rw [e41]; omega)

/-- An index of the result array is in point `t`'s block iff each coordinate is in the block's range on its axis. -/
theorem mem_blk2_4 (t : Fin cfg2.N) (i : S10000x40.Idx) :
    i ∈ ((cfg2.win 4).blk t).view.set
      ↔ ∀ a : Fin 2, win2_4.index t a * S200x40.size a ≤ (i a).val
          ∧ (i a).val < win2_4.index t a * S200x40.size a + S200x40.size a := by
  show i ∈ ((View.whole main_v7).slice (win2_4.rect t)).set ↔ _
  rw [View.set_slice_whole, Rect.mem_set_unit]
  exact Iff.rfl

/-- Row `n` of the result array lies in the block of point `n / 200`: the fifty row blocks cover the array. -/
theorem covered2_4 (i : S10000x40.Idx) :
    ∃ t : Fin cfg2.N, (cfg2.win 4).flush t = true ∧ i ∈ ((cfg2.win 4).blk t).view.set := by
  have hi0 : (i 0).val < 10000 := (i 0).isLt
  have hi1 : (i 1).val < 40 := (i 1).isLt
  have hN : grid2.N = 50 := N_2
  let t : Fin cfg2.N := ⟨(i 0).val / 200, by show _ < grid2.N; rw [hN]; omega⟩
  obtain ⟨-, -, -, -, -, -, -, -, e40, e41⟩ := index2_facts t
  have ht : t.val = (i 0).val / 200 := rfl
  refine ⟨t, flush2_4 t, ?_⟩
  rw [mem_blk2_4]
  intro a
  match a with
  | ⟨0, _⟩ => show win2_4.index t 0 * 200 ≤ (i 0).val ∧ (i 0).val < win2_4.index t 0 * 200 + 200; rw [e40, ht]; omega
  | ⟨1, _⟩ => show win2_4.index t 1 * 40 ≤ (i 1).val ∧ (i 1).val < win2_4.index t 1 * 40 + 40; rw [e41]; omega

/-- The third call's result array after its last grid point, when the bias row it was handed is the second bias. -/
theorem arr2_eq (c : Dev nD) (b2 : Cert.Spec.B2Idx → EReal)
    (hb : ∀ o : Fin 40, V c main_v4 (ix2 (0 : Fin 1) o) = b2 (ix1 o)) :
    (dat2 (F := Ideal) V c).arrAt 4 cfg2.N = Cert.Spec.outArr (V c main_arg1) b2 (V c main_v6) :=
  (dat2 (F := Ideal) V c).arrAt_eq_of_cover 4 (Cert.Spec.outArr (V c main_arg1) b2 (V c main_v6))
    (fun t _ => flushed2_eq V c b2 hb t) covered2_4

end Cert.KernelIdeal.Hand

end
-- ==== Proof.KI.HostVals.lean ====
/-
  The two bias rows the host lays out before the first pallas_call: the first bias tiled twice over the concatenated
  width as a 1 × 512 row, and the second bias as a 1 × 40 row; and the arguments, which no host operation writes.
-/
import proofs.«111276_g21131239096597_cont_8to1_6_3_alg».proof.Proof.Gen.KernelIdeal.Regions
import proofs.«111276_g21131239096597_cont_8to1_6_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

section Reads
variable {α : Type}

/-- A rank-1 array viewed as a single row reads, at column `j` of that row, its entry `j`. -/
theorem row_of_vec_apply {n : Nat} (v : (⟨1, ![n]⟩ : Shape).Idx → α)
    (h : (⟨1, ![n]⟩ : Shape).ShapeCasts ⟨2, ![1, n]⟩) (j : Fin n) :
    shapeCast ⟨2, ![1, n]⟩ v h (ix2 (0 : Fin 1) j) = v (ix1 j) :=
  shapeCast_apply v h (ix2 (0 : Fin 1) j) (ix1 j) (by
    rw [Shape.rowMajor_val_two, Shape.rowMajor_val_one]
    show j.val = 0 * n + j.val
    omega)

/-- Two stacked rows of width 256 flattened row-major: position `q` holds row `q / 256`, column `q % 256`. -/
theorem flat_of_rows_apply (v : S2x256.Idx → α) (h : S2x256.ShapeCasts S512) (q : Fin 512) :
    shapeCast S512 v h (ix1 q)
      = v (ix2 (⟨q.val / 256, by have := q.isLt; omega⟩ : Fin 2) (⟨q.val % 256, Nat.mod_lt _ (by decide)⟩ : Fin 256)) :=
  shapeCast_apply v h (ix1 q) _ (by
    rw [Shape.rowMajor_val_two, Shape.rowMajor_val_one]
    show q.val / 256 * 256 + q.val % 256 = q.val
    omega)

/-- A single row repeated down two rows reads, at any row, the row's entry in that column. -/
theorem rows_of_row_apply (v : S1x256.Idx → α) (h : S1x256.BroadcastsInDim S2x256 (![0, 1] : Fin 2 → Fin S2x256.rank))
    (k : Fin 2) (j : Fin 256) :
    broadcastInDim S2x256 ![0, 1] h v (ix2 k j) = v (ix2 (0 : Fin 1) j) :=
  broadcastInDim_apply ![0, 1] h v (ix2 k j) (ix2 (0 : Fin 1) j) (fun a =>
    match a with
    | ⟨0, _⟩ => rfl
    | ⟨1, _⟩ => rfl)

end Reads

/-- The buffer the second call takes its bias row from, as the host operations' term over the first bias. -/
theorem v3_eq (c : Dev nD) :
    (Gen.V1 m c main_v3 : S1x512.Idx → EReal)
      = shapeCast S1x512 (shapeCast S512 (broadcastInDim S2x256 ![0, 1] bcast_S1x256_S2x256_0_1
          (shapeCast S1x256 (m ((c : Thread nD τ).loc main_arg3) : S256.Idx → EReal) shapeCasts_S256_S1x256))
          shapeCasts_S2x256_S512) shapeCasts_S512_S1x512 := by
  dsimp only [Gen.V1, Gen.V0, Gen.hostOps0]
  after_results
  rfl

/-- The buffer the third call takes its bias row from, as the host operation's term over the second bias. -/
theorem v4_eq (c : Dev nD) :
    (Gen.V1 m c main_v4 : S1x40.Idx → EReal)
      = shapeCast S1x40 (m ((c : Thread nD τ).loc main_arg5) : S40.Idx → EReal) shapeCasts_S40_S1x40 := by
  dsimp only [Gen.V1, Gen.V0, Gen.hostOps0]
  after_results
  rfl

/-- After the host stretch the buffer handed to the second call as its bias row is the first bias tiled over the width. -/
theorem host_b1c (c : Dev nD) (q : Fin 512) :
    Gen.V1 m c main_v3 (ix2 (0 : Fin 1) q) = Cert.Spec.b1cAt (m ((c : Thread nD τ).loc main_arg3)) q := by
  have e := congrFun (v3_eq m c) (ix2 (0 : Fin 1) q)
  refine e.trans ?_
  rw [row_of_vec_apply, flat_of_rows_apply, rows_of_row_apply, row_of_vec_apply]
  rfl

/-- After the host stretch the buffer handed to the third call as its bias row is the second bias. -/
theorem host_b2 (c : Dev nD) (o : Fin 40) :
    Gen.V1 m c main_v4 (ix2 (0 : Fin 1) o) = m ((c : Thread nD τ).loc main_arg5) (ix1 o) := by
  have e := congrFun (v4_eq m c) (ix2 (0 : Fin 1) o)
  refine e.trans ?_
  exact row_of_vec_apply _ _ o

end Cert.KernelIdeal.Hand

end
-- ==== Proof.KI.Value.lean ====
/-
  The idealized kernel's result on the extended reals: after the three calls the result array holds
  `Cert.Spec.kernelOut` of the six arguments, call by call — the first-pass array, then the projected hidden
  array (its bias row is the first bias tiled by the host), then the output (its bias row is the second bias).
-/
import proofs.«111276_g21131239096597_cont_8to1_6_3_alg».proof.Proof.KI.Run
import proofs.«111276_g21131239096597_cont_8to1_6_3_alg».proof.Proof.KI.Val0
import proofs.«111276_g21131239096597_cont_8to1_6_3_alg».proof.Proof.KI.Val1
import proofs.«111276_g21131239096597_cont_8to1_6_3_alg».proof.Proof.KI.Val2
import proofs.«111276_g21131239096597_cont_8to1_6_3_alg».proof.Proof.KI.HostVals
import proofs.«111276_g21131239096597_cont_8to1_6_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- An argument as the first call finds it is the launch memory's. -/
theorem E1_arg (c : Dev nD) (b : Ref sig .tc) (hh : b ∉ Gen.hostOps0_W) : E1 m c b = m ((c : Thread nD τ).loc b) :=
  Gen.V1_of m c b hh

theorem X5_eq (c : Dev nD) :
    X5 m c = Cert.Spec.vArr (m ((c : Thread nD τ).loc main_arg0)) (m ((c : Thread nD τ).loc main_arg2)) := by
  unfold X5
  rw [arr0_eq (E1 m) c, E1_arg m c main_arg0 (by decide), E1_arg m c main_arg2 (by decide)]

theorem X6_eq (c : Dev nD) :
    X6 m c = Cert.Spec.uArr (m ((c : Thread nD τ).loc main_arg1)) (m ((c : Thread nD τ).loc main_arg3)) (m ((c : Thread nD τ).loc main_arg4))
      (Cert.Spec.vArr (m ((c : Thread nD τ).loc main_arg0)) (m ((c : Thread nD τ).loc main_arg2))) := by
  unfold X6
  rw [arr1_eq (E2 m) c (m ((c : Thread nD τ).loc main_arg3)) (fun q => by
      rw [E2_of_ne m c main_v3 (by decide)]; exact host_b1c m c q),
    E2_of_ne m c main_arg1 (by decide), E1_arg m c main_arg1 (by decide),
    E2_of_ne m c main_arg4 (by decide), E1_arg m c main_arg4 (by decide), E2_v5 m c, X5_eq m c]

theorem X7_eq (c : Dev nD) :
    X7 m c = Cert.Spec.kernelOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold X7 Cert.Spec.kernelOut
  rw [arr2_eq (E3 m) c (m ((c : Thread nD τ).loc main_arg5)) (fun o => by
      rw [E3_of_ne m c main_v4 (by decide), E2_of_ne m c main_v4 (by decide)]; exact host_b2 m c o),
    E3_of_ne m c main_arg1 (by decide), E2_of_ne m c main_arg1 (by decide), E1_arg m c main_arg1 (by decide),
    E3_v6 m c, X6_eq m c]

/-- The run with the result named: the result array ends at `Cert.Spec.kernelOut` of the arguments, which end unchanged. -/
theorem run_value : θ_run (defs (F := Ideal)) (onTc (τ := τ) (main (F := Ideal))) ⟨m, fun _ => 0, ρ⟩ (fun r => ∀ c : Dev nD,
      r.2.mem ((c.tc : Thread nD τ).loc main_v7) = Cert.Spec.kernelOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_v7 (by decide)).trans ((E4_v7 m c).trans (X7_eq m c)),
     (h c main_arg0 (by decide)).trans (E4_arg m c main_arg0 (by decide) (by decide) (by decide) (by decide)),
     (h c main_arg1 (by decide)).trans (E4_arg m c main_arg1 (by decide) (by decide) (by decide) (by decide)),
     (h c main_arg2 (by decide)).trans (E4_arg m c main_arg2 (by decide) (by decide) (by decide) (by decide)),
     (h c main_arg3 (by decide)).trans (E4_arg m c main_arg3 (by decide) (by decide) (by decide) (by decide)),
     (h c main_arg4 (by decide)).trans (E4_arg m c main_arg4 (by decide) (by decide) (by decide) (by decide)),
     (h c main_arg5 (by decide)).trans (E4_arg m c main_arg5 (by decide) (by decide) (by decide) (by decide))⟩) (run_all m ρ)

end Cert.KernelIdeal.Hand

end
-- ==== Proof.RefValue.lean ====
/-
  The reference program's result, read off its run: entry by entry it is `Cert.Spec.referenceOut` of the six arguments.

  The program is two hypergraph convolutions. Each of the two stacked inputs x[k] (k = 0, 1) is sliced out and flattened
  to a matrix; x[k] + hg · x[k] is multiplied by the first weight, the first bias is added along the rows, and the
  result is clamped at zero: the hidden block of input k. The two blocks are laid side by side along the width, so
  column q of the joined array is column q % 256 of block q / 256. The joined array c gives c + hg · c, which is
  multiplied by the second weight, and the second bias is added. The scalar factor in front of each self term is the
  word of 1.0, the extended real one, a unit of the product; the clamp's constant is the word of zero.
-/
import proofs.«111276_g21131239096597_cont_8to1_6_3_alg».proof.Proof.Spec
import proofs.«111276_g21131239096597_cont_8to1_6_3_alg».proof.Proof.Gen.ReferenceIdeal.Run
import proofs.«111276_g21131239096597_cont_8to1_6_3_alg».proof.Proof.Gen.ReferenceIdeal.Read
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.TcCoe Idealize.SL.Sem Cert.ReferenceIdeal
open Idealize.ShloMosaic.ValueIdx Cert.ReferenceIdeal.Read Cert.ReferenceIdeal.Gen
open scoped BigOperators

variable (x : (⟨S2x10000x256, .f32⟩ : BufTy).Contents (Elt Ideal)) (hg : (⟨S10000x10000, .f32⟩ : BufTy).Contents (Elt Ideal))
  (w1 : (⟨S256x256, .f32⟩ : BufTy).Contents (Elt Ideal)) (b1 : (⟨S256, .f32⟩ : BufTy).Contents (Elt Ideal))
  (w2 : (⟨S512x40, .f32⟩ : BufTy).Contents (Elt Ideal)) (b2 : (⟨S40, .f32⟩ : BufTy).Contents (Elt Ideal))

/-- The first input's slice, flattened to a matrix, read at row n, column f. -/
theorem slice0_at (n : Fin 10000) (f : Fin 256) :
    val_main_v1 (F := Ideal) x (ix2 n f) = x (ix3 (0 : Fin 2) n f) := by
  rw [val_main_v1_apply, val_main_v0_apply]
  refine congrArg x (funext fun a => Fin.ext ?_)
  have hn := n.isLt
  have hf := f.isLt
  match a with
  | ⟨0, _⟩ => rfl
  | ⟨1, _⟩ => show (n.val * 256 + f.val) / 256 % 10000 = n.val; omega
  | ⟨2, _⟩ => show (n.val * 256 + f.val) % 256 = f.val; omega

/-- The second input's slice, flattened to a matrix, read at row n, column f. -/
theorem slice1_at (n : Fin 10000) (f : Fin 256) :
    val_main_v12 (F := Ideal) x (ix2 n f) = x (ix3 (1 : Fin 2) n f) := by
  rw [val_main_v12_apply, val_main_v11_apply]
  refine congrArg x (funext fun a => Fin.ext ?_)
  have hn := n.isLt
  have hf := f.isLt
  match a with
  | ⟨0, _⟩ => rfl
  | ⟨1, _⟩ => show (n.val * 256 + f.val) / 256 % 10000 = n.val; omega
  | ⟨2, _⟩ => show (n.val * 256 + f.val) % 256 = f.val; omega

/-- The first input plus its aggregate over the hypergraph matrix (the literal 1.0 is the real one, a unit). -/
theorem agg0_at (n : Fin 10000) (f : Fin 256) :
    val_main_v5 (F := Ideal) x hg (ix2 n f)
      = x (ix3 (0 : Fin 2) n f) + ∑ n' : Fin 10000, hg (ix2 n n') * x (ix3 (0 : Fin 2) n' f) := by
  rw [val_main_v5_apply, val_main_v3_apply, val_main_v2_apply, val_main_cst_apply, val_main_v4_apply, slice0_at]
  simp only [Ideal.addf_def, Ideal.mulf_def, Ideal.ofBits_def, Ideal.ofBits_one_f32, one_mul]
  refine congrArg (x (ix3 (0 : Fin 2) n f) + ·) (Finset.sum_congr rfl fun k _ => ?_)
  have el : lidx_main_v4 (ix2 n f) k = ix2 n k := funext fun a => Fin.ext (by
    match a with
    | ⟨0, _⟩ => rfl
    | ⟨1, _⟩ => rfl)
  have er : ridx_main_v4 (ix2 n f) k = ix2 k f := funext fun a => Fin.ext (by
    match a with
    | ⟨0, _⟩ => rfl
    | ⟨1, _⟩ => rfl)
  rw [el, er, slice0_at]

/-- The second input plus its aggregate. -/
theorem agg1_at (n : Fin 10000) (f : Fin 256) :
    val_main_v16 (F := Ideal) x hg (ix2 n f)
      = x (ix3 (1 : Fin 2) n f) + ∑ n' : Fin 10000, hg (ix2 n n') * x (ix3 (1 : Fin 2) n' f) := by
  rw [val_main_v16_apply, val_main_v14_apply, val_main_v13_apply, val_main_cst_0_apply, val_main_v15_apply, slice1_at]
  simp only [Ideal.addf_def, Ideal.mulf_def, Ideal.ofBits_def, Ideal.ofBits_one_f32, one_mul]
  refine congrArg (x (ix3 (1 : Fin 2) n f) + ·) (Finset.sum_congr rfl fun k _ => ?_)
  have el : lidx_main_v15 (ix2 n f) k = ix2 n k := funext fun a => Fin.ext (by
    match a with
    | ⟨0, _⟩ => rfl
    | ⟨1, _⟩ => rfl)
  have er : ridx_main_v15 (ix2 n f) k = ix2 k f := funext fun a => Fin.ext (by
    match a with
    | ⟨0, _⟩ => rfl
    | ⟨1, _⟩ => rfl)
  rw [el, er, slice1_at]

/-- One hidden unit of the first convolution on the first input: weight, bias, clamp at zero. -/
theorem hid0_at (n : Fin 10000) (h : Fin 256) :
    val_main_v10 (F := Ideal) x hg w1 b1 (ix2 n h) = Cert.Spec.refHidAt x hg w1 b1 (0 : Fin 2) n h := by
  rw [val_main_v10_apply, val_main_call0_v0_apply, val_main_call0_cst_apply, val_main_v9_apply, val_main_v6_apply,
    val_main_v8_apply, val_main_v7_apply]
  simp only [Ideal.addf_def, Ideal.maximumf_def, Ideal.ofBits_def, Ideal.ofBits_zero_f32]
  unfold Cert.Spec.refHidAt
  have eb : idx_main_v7 (idx_main_v8 (ix2 n h)) = ix1 h := funext fun a => Fin.ext (by
    match a with
    | ⟨0, _⟩ => rfl)
  rw [eb]
  refine congrArg (fun s => max (s + b1 (ix1 h)) 0) (Finset.sum_congr rfl fun k _ => ?_)
  have el : lidx_main_v6 (ix2 n h) k = ix2 n k := funext fun a => Fin.ext (by
    match a with
    | ⟨0, _⟩ => rfl
    | ⟨1, _⟩ => rfl)
  have er : ridx_main_v6 (ix2 n h) k = ix2 k h := funext fun a => Fin.ext (by
    match a with
    | ⟨0, _⟩ => rfl
    | ⟨1, _⟩ => rfl)
  rw [el, er, agg0_at]

/-- One hidden unit of the first convolution on the second input. -/
theorem hid1_at (n : Fin 10000) (h : Fin 256) :
    val_main_v21 (F := Ideal) x hg w1 b1 (ix2 n h) = Cert.Spec.refHidAt x hg w1 b1 (1 : Fin 2) n h := by
  rw [val_main_v21_apply, val_main_call1_v0_apply, val_main_call1_cst_apply, val_main_v20_apply, val_main_v17_apply,
    val_main_v19_apply, val_main_v18_apply]
  simp only [Ideal.addf_def, Ideal.maximumf_def, Ideal.ofBits_def, Ideal.ofBits_zero_f32]
  unfold Cert.Spec.refHidAt
  have eb : idx_main_v18 (idx_main_v19 (ix2 n h)) = ix1 h := funext fun a => Fin.ext (by
    match a with
    | ⟨0, _⟩ => rfl)
  rw [eb]
  refine congrArg (fun s => max (s + b1 (ix1 h)) 0) (Finset.sum_congr rfl fun k _ => ?_)
  have el : lidx_main_v17 (ix2 n h) k = ix2 n k := funext fun a => Fin.ext (by
    match a with
    | ⟨0, _⟩ => rfl
    | ⟨1, _⟩ => rfl)
  have er : ridx_main_v17 (ix2 n h) k = ix2 k h := funext fun a => Fin.ext (by
    match a with
    | ⟨0, _⟩ => rfl
    | ⟨1, _⟩ => rfl)
  rw [el, er, agg1_at]

/-- The two hidden blocks side by side: column q of the joined width is column q % 256 of block q / 256. -/
theorem cat_at (n : Fin 10000) (q : Fin 512) :
    val_main_v22 (F := Ideal) x hg w1 b1 (ix2 n q) = Cert.Spec.refCatAt x hg w1 b1 n q := by
  unfold val_main_v22 Cert.Spec.refCatAt
  have hq := q.isLt
  by_cases hlt : q.val < 256
  · have ek : Cert.Spec.kOf q = (0 : Fin 2) := Fin.ext (by show q.val / 256 = 0; omega)
    have eh : Cert.Spec.hOf q = ⟨q.val, hlt⟩ := Fin.ext (by show q.val % 256 = q.val; omega)
    rw [ek, eh, ← hid0_at]
    exact concatenate_pair_apply_left (1 : Fin S10000x512.rank) _ _ concatenates_S10000x256_S10000x256_S10000x512_d1
      (ix2 n q) rfl (ix2 n (⟨q.val, hlt⟩ : Fin 256)) (fun b => by
        match b with
        | ⟨0, _⟩ => rfl
        | ⟨1, _⟩ => rfl)
  · have hge : 256 ≤ q.val := Nat.le_of_not_lt hlt
    have hlt' : q.val - 256 < 256 := by omega
    have ek : Cert.Spec.kOf q = (1 : Fin 2) := Fin.ext (by show q.val / 256 = 1; omega)
    have eh : Cert.Spec.hOf q = ⟨q.val - 256, hlt'⟩ := Fin.ext (by show q.val % 256 = q.val - 256; omega)
    rw [ek, eh, ← hid1_at]
    exact concatenate_pair_apply_right (1 : Fin S10000x512.rank) _ _ concatenates_S10000x256_S10000x256_S10000x512_d1
      (ix2 n q) rfl rfl (ix2 n (⟨q.val - 256, hlt'⟩ : Fin 256)) (fun b hb => by
        match b, hb with
        | ⟨0, _⟩, _ => rfl
        | ⟨1, _⟩, hb => exact absurd rfl hb)
      (by show (q.val - 256) + 256 = q.val; omega)

/-- The joined hidden row plus its aggregate over the hypergraph matrix. -/
theorem aggCat_at (n : Fin 10000) (q : Fin 512) :
    val_main_v26 (F := Ideal) x hg w1 b1 (ix2 n q)
      = Cert.Spec.refCatAt x hg w1 b1 n q + ∑ n' : Fin 10000, hg (ix2 n n') * Cert.Spec.refCatAt x hg w1 b1 n' q := by
  rw [val_main_v26_apply, val_main_v24_apply, val_main_v23_apply, val_main_cst_1_apply, val_main_v25_apply, cat_at]
  simp only [Ideal.addf_def, Ideal.mulf_def, Ideal.ofBits_def, Ideal.ofBits_one_f32, one_mul]
  refine congrArg (Cert.Spec.refCatAt x hg w1 b1 n q + ·) (Finset.sum_congr rfl fun k _ => ?_)
  have el : lidx_main_v25 (ix2 n q) k = ix2 n k := funext fun a => Fin.ext (by
    match a with
    | ⟨0, _⟩ => rfl
    | ⟨1, _⟩ => rfl)
  have er : ridx_main_v25 (ix2 n q) k = ix2 k q := funext fun a => Fin.ext (by
    match a with
    | ⟨0, _⟩ => rfl
    | ⟨1, _⟩ => rfl)
  rw [el, er, cat_at]

/-- One entry of the result: the second convolution's weight and bias. -/
theorem out_at (n : Fin 10000) (o : Fin 40) :
    val_main_v30 (F := Ideal) x hg w1 b1 w2 b2 (ix2 n o) = Cert.Spec.refOutAt x hg w1 b1 w2 b2 n o := by
  rw [val_main_v30_apply, val_main_v27_apply, val_main_v29_apply, val_main_v28_apply]
  simp only [Ideal.addf_def]
  unfold Cert.Spec.refOutAt
  have eb : idx_main_v28 (idx_main_v29 (ix2 n o)) = ix1 o := funext fun a => Fin.ext (by
    match a with
    | ⟨0, _⟩ => rfl)
  rw [eb]
  refine congrArg (· + b2 (ix1 o)) (Finset.sum_congr rfl fun k _ => ?_)
  have el : lidx_main_v27 (ix2 n o) k = ix2 n k := funext fun a => Fin.ext (by
    match a with
    | ⟨0, _⟩ => rfl
    | ⟨1, _⟩ => rfl)
  have er : ridx_main_v27 (ix2 n o) k = ix2 k o := funext fun a => Fin.ext (by
    match a with
    | ⟨0, _⟩ => rfl
    | ⟨1, _⟩ => rfl)
  rw [el, er, aggCat_at]

/-- The whole result array is the specification's function of the six arguments. -/
theorem out_eq : val_main_v30 (F := Ideal) x hg w1 b1 w2 b2 = Cert.Spec.referenceOut x hg w1 b1 w2 b2 := by
  funext j
  obtain ⟨n, o, rfl⟩ : ∃ (n : Fin 10000) (o : Fin 40), j = ix2 n o := ⟨j 0, j 1, eq_ix2 j⟩
  exact out_at x hg w1 b1 w2 b2 n o

/-- The run's composed term, at the extended reals, is the specification's function of the launch contents. -/
theorem result_eq (m : (ℓ : Loc nD τ sig) → Buf (Elt Ideal) ℓ) (c : Dev nD) :
    Cert.ReferenceIdeal.Value.res_main_v30 m c
      = Cert.Spec.referenceOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v30_eq m c).trans (out_eq _ _ _ _ _ _)

/-- Every weakly fair execution of the reference's @main terminates with its result at the specification's function of
    the arguments, the arguments unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v30)
          = Cert.Spec.referenceOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run _ _ _).mono (fun _ h c => ⟨(h c).1.trans (result_eq m c), (h c).2⟩)
    (Cert.ReferenceIdeal.Value.run (F := Ideal) m ρ)

end Cert.ReferenceIdeal.RefValue

end
-- ==== Proof.Algebra.lean ====
/-
  The kernel's three passes and the reference's two convolutions are one function of real arguments.

  Both sides are built from finite sums, products, sums of two terms and a clamp at zero. On real entries each of these
  is the coercion of the same operation on ℝ, so both programs are coercions of real expressions, and the claim becomes an
  identity of real numbers:

    Σ_f (a f + Σ_n g n · b n f) · w f  =  (Σ_n g n · Σ_f b n f · w f) + Σ_f a f · w f

  (distribute the product over the sum, then exchange the two finite sums). It is used twice: with f the input feature
  (the aggregation commutes with the first weight) and with f the concatenated hidden column (it commutes with the second).
  On the extended reals the identity fails when infinities of both signs meet, hence the hypotheses.
-/
import proofs.«111276_g21131239096597_cont_8to1_6_3_alg».proof.Proof.Spec

noncomputable section

open scoped BigOperators

namespace Cert.Algebra

open Idealize.ShloMosaic Idealize.ShloMosaic.ValueIdx Cert.Spec

/-! ## Coercion of the operations -/

/-- The coercion ℝ → EReal commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of real entries is the coercion of the real sum of products. -/
theorem sum_coe_mul {ι : Type} [Fintype ι] (a b : ι → ℝ) :
    ∑ i, (a i : EReal) * (b i : EReal) = ((∑ i, a i * b i : ℝ) : EReal) := by
  rw [coe_sum]
  exact Finset.sum_congr rfl fun i _ => (EReal.coe_mul _ _).symm

/-- The coercion is monotone, so it commutes with the maximum. -/
theorem coe_max (a b : ℝ) : ((max a b : ℝ) : EReal) = max (a : EReal) (b : EReal) :=
  (EReal.coe_strictMono.monotone).map_max

/-- An array of real entries is the coercion of an array of reals. -/
theorem exists_real {ι : Type} {a : ι → EReal} (h : IsReal a) : ∃ r : ι → ℝ, a = fun i => (r i : EReal) := by
  choose r hr using h
  exact ⟨r, funext hr⟩

/-! ## The real identity -/

/-- Aggregating with weights `g` and then contracting with `w` is contracting first and aggregating after. -/
theorem sum_add_agg_mul {F N : Type} [Fintype F] [Fintype N] (a : F → ℝ) (g : N → ℝ) (b : N → F → ℝ) (w : F → ℝ) :
    ∑ f, (a f + ∑ n, g n * b n f) * w f = (∑ n, g n * ∑ f, b n f * w f) + ∑ f, a f * w f := by
  have h1 : ∀ f, (a f + ∑ n, g n * b n f) * w f = a f * w f + ∑ n, g n * (b n f * w f) := by
    intro f
    rw [add_mul, Finset.sum_mul]
    congr 1
    exact Finset.sum_congr rfl fun n _ => mul_assoc _ _ _
  have h2 : ∀ n, g n * ∑ f, b n f * w f = ∑ f, g n * (b n f * w f) := fun n => Finset.mul_sum _ _ _
  rw [Finset.sum_congr rfl fun f _ => h1 f, Finset.sum_add_distrib, Finset.sum_comm,
    Finset.sum_congr rfl fun n _ => h2 n, add_comm]

/-! ## The two programs on real arrays -/

variable (xr : XIdx → ℝ) (hgr : HgIdx → ℝ) (w1r : W1Idx → ℝ) (b1r : B1Idx → ℝ) (w2r : W2Idx → ℝ) (b2r : B2Idx → ℝ)

/-- First pass over ℝ. -/
def vR (n : Fin 10000) (q : Fin 512) : ℝ := ∑ f : Fin 256, xr (ix3 (kOf q) n f) * w1r (ix2 f (hOf q))

/-- Second pass before the second weight, over ℝ, from a real first pass `vr`. -/
def hidR (vr : Fin 10000 → Fin 512 → ℝ) (n : Fin 10000) (q : Fin 512) : ℝ :=
  max (((∑ n' : Fin 10000, hgr (ix2 n n') * vr n' q) + vr n q) + b1r (ix1 (hOf q))) 0

/-- Second pass over ℝ. -/
def uR (vr : Fin 10000 → Fin 512 → ℝ) (n : Fin 10000) (o : Fin 40) : ℝ :=
  ∑ q : Fin 512, hidR hgr b1r vr n q * w2r (ix2 q o)

/-- Third pass over ℝ, from a real second pass `ur`. -/
def outR (ur : Fin 10000 → Fin 40 → ℝ) (n : Fin 10000) (o : Fin 40) : ℝ :=
  ((∑ n' : Fin 10000, hgr (ix2 n n') * ur n' o) + ur n o) + b2r (ix1 o)

/-- One hidden unit of the reference's first convolution over ℝ. -/
def refHidR (k : Fin 2) (n : Fin 10000) (h : Fin 256) : ℝ :=
  max ((∑ f : Fin 256, (xr (ix3 k n f) + ∑ n' : Fin 10000, hgr (ix2 n n') * xr (ix3 k n' f)) * w1r (ix2 f h))
    + b1r (ix1 h)) 0

/-- The reference's concatenated hidden row over ℝ. -/
def refCatR (n : Fin 10000) (q : Fin 512) : ℝ := refHidR xr hgr w1r b1r (kOf q) n (hOf q)

/-- The reference's result over ℝ. -/
def refOutR (n : Fin 10000) (o : Fin 40) : ℝ :=
  (∑ q : Fin 512, (refCatR xr hgr w1r b1r n q + ∑ n' : Fin 10000, hgr (ix2 n n') * refCatR xr hgr w1r b1r n' q)
    * w2r (ix2 q o)) + b2r (ix1 o)

/-! ## Each pass on real arrays is the coercion of the real pass -/

theorem vAt_coe (n : Fin 10000) (q : Fin 512) :
    vAt (fun i => (xr i : EReal)) (fun i => (w1r i : EReal)) n q = (vR xr w1r n q : EReal) := by
  unfold vAt vR
  exact sum_coe_mul (fun f => xr (ix3 (kOf q) n f)) (fun f => w1r (ix2 f (hOf q)))

theorem hidAt_coe (v : VIdx → EReal) (vr : Fin 10000 → Fin 512 → ℝ) (hv : ∀ n q, v (ix2 n q) = (vr n q : EReal))
    (n : Fin 10000) (q : Fin 512) :
    hidAt (fun i => (hgr i : EReal)) (fun i => (b1r i : EReal)) v n q = (hidR hgr b1r vr n q : EReal) := by
  unfold hidAt b1cAt hidR
  have hs : ∑ n' : Fin 10000, (fun i => (hgr i : EReal)) (ix2 n n') * v (ix2 n' q)
      = ((∑ n' : Fin 10000, hgr (ix2 n n') * vr n' q : ℝ) : EReal) := by
    rw [← sum_coe_mul]
    exact Finset.sum_congr rfl fun n' _ => by rw [hv]
  rw [hs, hv, coe_max, EReal.coe_add, EReal.coe_add, EReal.coe_zero]

theorem uAt_coe (v : VIdx → EReal) (vr : Fin 10000 → Fin 512 → ℝ) (hv : ∀ n q, v (ix2 n q) = (vr n q : EReal))
    (n : Fin 10000) (o : Fin 40) :
    uAt (fun i => (hgr i : EReal)) (fun i => (b1r i : EReal)) (fun i => (w2r i : EReal)) v n o
      = (uR hgr b1r w2r vr n o : EReal) := by
  unfold uAt uR
  rw [← sum_coe_mul]
  exact Finset.sum_congr rfl fun q _ => by rw [hidAt_coe hgr b1r v vr hv]

theorem outAt_coe (u : OIdx → EReal) (ur : Fin 10000 → Fin 40 → ℝ) (hu : ∀ n o, u (ix2 n o) = (ur n o : EReal))
    (n : Fin 10000) (o : Fin 40) :
    outAt (fun i => (hgr i : EReal)) (fun i => (b2r i : EReal)) u n o = (outR hgr b2r ur n o : EReal) := by
  unfold outAt outR
  have hs : ∑ n' : Fin 10000, (fun i => (hgr i : EReal)) (ix2 n n') * u (ix2 n' o)
      = ((∑ n' : Fin 10000, hgr (ix2 n n') * ur n' o : ℝ) : EReal) := by
    rw [← sum_coe_mul]
    exact Finset.sum_congr rfl fun n' _ => by rw [hu]
  rw [hs, hu, EReal.coe_add, EReal.coe_add]

theorem refHidAt_coe (k : Fin 2) (n : Fin 10000) (h : Fin 256) :
    refHidAt (fun i => (xr i : EReal)) (fun i => (hgr i : EReal)) (fun i => (w1r i : EReal))
      (fun i => (b1r i : EReal)) k n h = (refHidR xr hgr w1r b1r k n h : EReal) := by
  unfold refHidAt refHidR
  have hs : ∑ f : Fin 256, ((fun i => (xr i : EReal)) (ix3 k n f)
        + ∑ n' : Fin 10000, (fun i => (hgr i : EReal)) (ix2 n n') * (fun i => (xr i : EReal)) (ix3 k n' f))
        * (fun i => (w1r i : EReal)) (ix2 f h)
      = ((∑ f : Fin 256, (xr (ix3 k n f) + ∑ n' : Fin 10000, hgr (ix2 n n') * xr (ix3 k n' f)) * w1r (ix2 f h) : ℝ)
          : EReal) := by
    rw [← sum_coe_mul]
    refine Finset.sum_congr rfl fun f _ => ?_
    rw [EReal.coe_add, ← sum_coe_mul]
  rw [hs, coe_max, EReal.coe_add, EReal.coe_zero]

theorem refCatAt_coe (n : Fin 10000) (q : Fin 512) :
    refCatAt (fun i => (xr i : EReal)) (fun i => (hgr i : EReal)) (fun i => (w1r i : EReal))
      (fun i => (b1r i : EReal)) n q = (refCatR xr hgr w1r b1r n q : EReal) := by
  unfold refCatAt refCatR
  exact refHidAt_coe xr hgr w1r b1r (kOf q) n (hOf q)

theorem refOutAt_coe (n : Fin 10000) (o : Fin 40) :
    refOutAt (fun i => (xr i : EReal)) (fun i => (hgr i : EReal)) (fun i => (w1r i : EReal))
      (fun i => (b1r i : EReal)) (fun i => (w2r i : EReal)) (fun i => (b2r i : EReal)) n o
      = (refOutR xr hgr w1r b1r w2r b2r n o : EReal) := by
  unfold refOutAt refOutR
  simp only [refCatAt_coe, sum_coe_mul, ← EReal.coe_add]

/-! ## The real programs agree -/

/-- The kernel's clamped hidden entry is the reference's: the aggregation commutes with the first weight. -/
theorem hidR_eq_refCatR (n : Fin 10000) (q : Fin 512) :
    hidR hgr b1r (vR xr w1r) n q = refCatR xr hgr w1r b1r n q := by
  unfold hidR refCatR refHidR vR
  rw [sum_add_agg_mul (fun f => xr (ix3 (kOf q) n f)) (fun n' => hgr (ix2 n n'))
    (fun n' f => xr (ix3 (kOf q) n' f)) (fun f => w1r (ix2 f (hOf q)))]

/-- The kernel's result is the reference's: the aggregation commutes with the second weight. -/
theorem outR_eq_refOutR (n : Fin 10000) (o : Fin 40) :
    outR hgr b2r (uR hgr b1r w2r (vR xr w1r)) n o = refOutR xr hgr w1r b1r w2r b2r n o := by
  unfold outR refOutR uR
  rw [sum_add_agg_mul (fun q => refCatR xr hgr w1r b1r n q) (fun n' => hgr (ix2 n n'))
    (fun n' q => refCatR xr hgr w1r b1r n' q) (fun q => w2r (ix2 q o))]
  simp only [hidR_eq_refCatR]

/-! ## The claim -/

theorem vArr_coe (n : Fin 10000) (q : Fin 512) :
    vArr (fun i => (xr i : EReal)) (fun i => (w1r i : EReal)) (ix2 n q) = (vR xr w1r n q : EReal) :=
  vAt_coe xr w1r n q

theorem uArr_coe (n : Fin 10000) (o : Fin 40) :
    uArr (fun i => (hgr i : EReal)) (fun i => (b1r i : EReal)) (fun i => (w2r i : EReal))
      (vArr (fun i => (xr i : EReal)) (fun i => (w1r i : EReal))) (ix2 n o)
      = (uR hgr b1r w2r (vR xr w1r) n o : EReal) :=
  uAt_coe hgr b1r w2r _ _ (vArr_coe xr w1r) n o

theorem kernelOut_coe (j : OIdx) :
    kernelOut (fun i => (xr i : EReal)) (fun i => (hgr i : EReal)) (fun i => (w1r i : EReal))
      (fun i => (b1r i : EReal)) (fun i => (w2r i : EReal)) (fun i => (b2r i : EReal)) j
      = (outR hgr b2r (uR hgr b1r w2r (vR xr w1r)) (j 0) (j 1) : EReal) := by
  unfold kernelOut outArr
  exact outAt_coe hgr b2r _ _ (uArr_coe xr hgr w1r b1r w2r) (j 0) (j 1)

theorem referenceOut_coe (j : OIdx) :
    referenceOut (fun i => (xr i : EReal)) (fun i => (hgr i : EReal)) (fun i => (w1r i : EReal))
      (fun i => (b1r i : EReal)) (fun i => (w2r i : EReal)) (fun i => (b2r i : EReal)) j
      = (refOutR xr hgr w1r b1r w2r b2r (j 0) (j 1) : EReal) := by
  unfold referenceOut
  exact refOutAt_coe xr hgr w1r b1r w2r b2r (j 0) (j 1)

theorem kernelOut_eq_referenceOut (x : XIdx → EReal) (hg : HgIdx → EReal) (w1 : W1Idx → EReal) (b1 : B1Idx → EReal)
    (w2 : W2Idx → EReal) (b2 : B2Idx → EReal)
    (hx : IsReal x) (hhg : IsReal hg) (hw1 : IsReal w1) (hb1 : IsReal b1) (hw2 : IsReal w2) (hb2 : IsReal b2) :
    kernelOut x hg w1 b1 w2 b2 = referenceOut x hg w1 b1 w2 b2 := by
  obtain ⟨xr, rfl⟩ := exists_real hx
  obtain ⟨hgr, rfl⟩ := exists_real hhg
  obtain ⟨w1r, rfl⟩ := exists_real hw1
  obtain ⟨b1r, rfl⟩ := exists_real hb1
  obtain ⟨w2r, rfl⟩ := exists_real hw2
  obtain ⟨b2r, rfl⟩ := exists_real hb2
  funext j
  rw [kernelOut_coe, referenceOut_coe]
  exact congrArg (fun r : ℝ => (r : EReal)) (outR_eq_refOutR xr hgr w1r b1r w2r b2r (j 0) (j 1))

end Cert.Algebra

end
-- ==== Proof.Finite.lean ====
/-
  The precondition "every float input is finite", decoded: every entry of each of the six arguments is a real number.
-/
import proofs.«111276_g21131239096597_cont_8to1_6_3_alg».proof.Proof.Spec
import proofs.«111276_g21131239096597_cont_8to1_6_3_alg».proof.Proof.Gen.Pre_finite_inputs
import Idealize.ShloMosaic.Lib.ReduceAll

noncomputable section

namespace Cert.Finite

open Idealize.ShloMosaic Cert.Pre_finite_inputs

/-- The rank-zero shape has exactly one index. -/
instance : Subsingleton S_.Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value max x (-x) lies strictly below +∞ is a real number:
    at x = +∞ the maximum is +∞, and at x = -∞ it is -(-∞) = +∞ as well. -/
theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- "All entries satisfy |a| < +∞", printed as the and-reduction over every axis of the elementwise
    comparison against the broadcast word of +∞: if it comes out 1, every entry of a is real. -/
theorem isReal_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf a) (broadcastInDim s ![] hb (constant (F := Ideal) S_ .f32 0x7F800000#32))) init hr hu j = 1#1) :
    Cert.Spec.IsReal a := by
  intro i
  have hi := Host.reduce_andi_all _ init hr hu j e i
  have hc : Ideal.cmp .olt (max (a i) (-(a i))) (Ideal.ofBits .f32 0x7F800000#32) = 1#1 := hi
  rw [ofBits_inf] at hc
  refine real_of_abs_lt_top (a i) ?_
  by_contra hn
  simp [Ideal.cmp, hn] at hc

theorem real_of_pre (a0 : FVec Ideal S2x10000x256 .f32) (a1 : FVec Ideal S10000x10000 .f32) (a2 : FVec Ideal S256x256 .f32)
    (a3 : FVec Ideal S256 .f32) (a4 : FVec Ideal S512x40 .f32) (a5 : FVec Ideal S40 .f32)
    (h : Cert.Pre_finite_inputs.fn (F := Ideal) a0 a1 a2 a3 a4 a5 = fun _ => 1#1) :
    Cert.Spec.IsReal a0 ∧ Cert.Spec.IsReal a1 ∧ Cert.Spec.IsReal a2 ∧ Cert.Spec.IsReal a3 ∧ Cert.Spec.IsReal a4 ∧ Cert.Spec.IsReal a5 := by
  have h0 := congrFun h ValueIdx.ix0
  dsimp only [Cert.Pre_finite_inputs.fn, Cert.Pre_finite_inputs.fn_part1] at h0
  simp only [andi, IntOp.andi_eq_one] at h0
  obtain ⟨⟨⟨⟨⟨e0, e1⟩, e2⟩, e3⟩, e4⟩, e5⟩ := h0
  exact ⟨isReal_of_all a0 _ _ _ _ _ e0, isReal_of_all a1 _ _ _ _ _ e1, isReal_of_all a2 _ _ _ _ _ e2,
    isReal_of_all a3 _ _ _ _ _ e3, isReal_of_all a4 _ _ _ _ _ e4, isReal_of_all a5 _ _ _ _ _ e5⟩

end Cert.Finite

end
-- ==== Proof.lean ====
/-
  The certificate of the three-pass hypergraph network kernel against its two-convolution reference.

  Both programs compute, from x (two stacked inputs), the incidence matrix hg, two weights and two biases,
      out = (c + hg·c)·w2 + b2,   c = the two blocks relu((x_k + hg·x_k)·w1 + b1) side by side.
  The kernel reassociates: v = x_k·w1 side by side, u = relu(hg·v + v + b1)·w2, out = hg·u + u + b2, in three
  pallas_calls over row blocks. On real (finite) arguments the two are equal by distributivity and by exchanging the
  finite sums; the precondition says every argument entry is finite.

  Frames: each kernel program runs as a host stretch and three pipelined calls (Proof/K, Proof/KI: per call the
  body's triple, the proof data, the call as a segment between named buffer contents; two windows of the second and
  of the third call read one array and share the core's hold of it); the reference is host operations only.
  Value: the idealized kernel's result array, read call by call off the write-backs, is `Cert.Spec.kernelOut` of the
  arguments; the reference's, read off its run, is `Cert.Spec.referenceOut`; `Cert.Algebra` joins the two.
-/
import proofs.«111276_g21131239096597_cont_8to1_6_3_alg».proof.Defs
import proofs.«111276_g21131239096597_cont_8to1_6_3_alg».proof.Proof.Gen.Kernel
import proofs.«111276_g21131239096597_cont_8to1_6_3_alg».proof.Proof.Gen.KernelIdeal
import proofs.«111276_g21131239096597_cont_8to1_6_3_alg».proof.Proof.Gen.ReferenceIdeal
import proofs.«111276_g21131239096597_cont_8to1_6_3_alg».proof.Proof.Gen.Pre_finite_inputs
import proofs.«111276_g21131239096597_cont_8to1_6_3_alg».proof.Proof.K.Frame
import proofs.«111276_g21131239096597_cont_8to1_6_3_alg».proof.Proof.KI.Frame
import proofs.«111276_g21131239096597_cont_8to1_6_3_alg».proof.Proof.KI.Value
import proofs.«111276_g21131239096597_cont_8to1_6_3_alg».proof.Proof.RefValue
import proofs.«111276_g21131239096597_cont_8to1_6_3_alg».proof.Proof.Algebra
import proofs.«111276_g21131239096597_cont_8to1_6_3_alg».proof.Proof.Finite
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Hand.frame m ρ

theorem frame_kernelIdeal : @Cert.frame_KernelIdeal Cert.KernelIdeal.Gen.facts Cert.Pre_finite_inputs.Gen.facts :=
  fun m ρ _ => Cert.KernelIdeal.Hand.frame m ρ

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run_spec m ρ)

/-- Both runs end with the same result: the kernel's function and the reference's agree on finite arguments, and the
    two memories agree on the arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩) (Cert.ReferenceIdeal.RefValue.run_spec m' ρ')
  obtain ⟨h0, h1, h2, h3, h4, h5⟩ := Cert.Finite.real_of_pre _ _ _ _ _ _ (hpre c)
  rw [(hagree c).1, (hagree c).2.1, (hagree c).2.2.1, (hagree c).2.2.2.1, (hagree c).2.2.2.2.1, (hagree c).2.2.2.2.2]
  exact (Cert.Algebra.kernelOut_eq_referenceOut _ _ _ _ _ _ h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
